-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S64x256 : Shape := ⟨2, ![64, 256]⟩
abbrev S64x1 : Shape := ⟨2, ![64, 1]⟩
abbrev S64x64 : Shape := ⟨2, ![64, 64]⟩
abbrev S262144 : Shape := ⟨1, ![262144]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S64x1 : S_.BroadcastsInDim S64x1 (![] : Fin 0 → Fin S64x1.rank)
  reducesTo_S64x1_S_d0_1 : S64x1.ReducesTo [0, 1] S_
  bcast_S_S64x64 : S_.BroadcastsInDim S64x64 (![] : Fin 0 → Fin S64x64.rank)
  reducesTo_S64x64_S_d0_1 : S64x64.ReducesTo [0, 1] S_
  bcast_S_S262144 : S_.BroadcastsInDim S262144 (![] : Fin 0 → Fin S262144.rank)
  reducesTo_S262144_S_d0 : S262144.ReducesTo [0] S_

variable [Facts]

def fn_part2 {F : FTy → Type} [FloatOps F] (main_v30 : IVec S_ 1) (main_v32 : IVec S64x1 1) (main_c_12 : IVec S_ 1) : IVec S_ 1 :=
  let main_v33 : IVec S_ 1 := (fun x v => Host.reduce IntOp.andi x v reducesTo_S64x1_S_d0_1 h_S_) main_v32 main_c_12
  let main_v34 : IVec S_ 1 := andi main_v30 main_v33
  main_v34

def fn_part1 {F : FTy → Type} [FloatOps F] (main_arg3 : FVec F S64x1 .f32) (main_arg4 : FVec F S64x64 .f32) (main_arg5 : IVec S262144 32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_c_8 : IVec S_ 32 := constantI S_ 32 0#32
  let main_v24 : IVec S262144 32 := broadcastInDim S262144 ![] bcast_S_S262144 main_c_8
  let main_v25 : IVec S262144 1 := cmpi .sge main_arg5 main_v24
  let main_c_9 : IVec S_ 32 := constantI S_ 32 64#32
  let main_v26 : IVec S262144 32 := broadcastInDim S262144 ![] bcast_S_S262144 main_c_9
  let main_v27 : IVec S262144 1 := cmpi .slt main_arg5 main_v26
  let main_v28 : IVec S262144 1 := andi main_v25 main_v27
  let main_c_10 : IVec S_ 1 := constantI S_ 1 1#1
  let main_v29 : IVec S_ 1 := (fun x v => Host.reduce IntOp.andi x v reducesTo_S262144_S_d0 h_S_) main_v28 main_c_10
  let main_v30 : IVec S_ 1 := andi main_v23 main_v29
  let main_cst_11 : FVec F S_ .f32 := constant S_ .f32 0x00000000#32
  let main_v31 : FVec F S64x1 .f32 := broadcastInDim S64x1 ![] bcast_S_S64x1 main_cst_11
  let main_v32 : IVec S64x1 1 := cmpf .une main_arg3 main_v31
  let main_c_12 : IVec S_ 1 := constantI S_ 1 1#1
  fn_part2 (F := F) main_v30 main_v32 main_c_12

def fn {F : FTy → Type} [FloatOps F] (main_arg0 : FVec F S262144x256 .f32) (main_arg1 : FVec F S64x256 .f32) (main_arg2 : FVec F S64x1 .f32) (main_arg3 : FVec F S64x1 .f32) (main_arg4 : FVec F S64x64 .f32) (main_arg5 : IVec S262144 32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S64x1 .f32 := Host.absf main_arg2
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg3 main_arg4 main_arg5 main_v13 main_v16
-- ==== Kernel.lean ====
abbrev S262144x256 : Shape := ⟨2, ![262144, 256]⟩
abbrev S64x256 : Shape := ⟨2, ![64, 256]⟩
abbrev S64x1 : Shape := ⟨2, ![64, 1]⟩
abbrev S64x64 : Shape := ⟨2, ![64, 64]⟩
abbrev S262144 : Shape := ⟨1, ![262144]⟩
abbrev S262144x1 : Shape := ⟨2, ![262144, 1]⟩
abbrev S256x64 : Shape := ⟨2, ![256, 64]⟩
abbrev S_ : Shape := ⟨0, ![]⟩
abbrev S64 : Shape := ⟨1, ![64]⟩
abbrev S1x64 : Shape := ⟨2, ![1, 64]⟩
abbrev S2x64x256 : Shape := ⟨3, ![2, 64, 256]⟩
abbrev S2x64x1 : Shape := ⟨3, ![2, 64, 1]⟩
abbrev S4096x256 : Shape := ⟨2, ![4096, 256]⟩
abbrev S4096x1 : Shape := ⟨2, ![4096, 1]⟩
abbrev S1x64x256 : Shape := ⟨3, ![1, 64, 256]⟩
abbrev S1x64x1 : Shape := ⟨3, ![1, 64, 1]⟩
abbrev S4096x64 : Shape := ⟨2, ![4096, 64]⟩
abbrev S4096 : Shape := ⟨1, ![4096]⟩

abbrev nBuf : Space → Nat
  | .hbm => 85
  | .vmem => 13
  | .smem => 0
  | _ => 0

abbrev bufTy : (tb : Table) → Fin (tcTables nBuf tb) → BufTy
  | .hbm, ⟨0, _⟩ => ⟨S262144x256, .f32⟩
  | .hbm, ⟨1, _⟩ => ⟨S64x256, .f32⟩
  | .hbm, ⟨2, _⟩ => ⟨S64x1, .f32⟩
  | .hbm, ⟨3, _⟩ => ⟨S64x1, .f32⟩
  | .hbm, ⟨4, _⟩ => ⟨S64x64, .f32⟩
  | .hbm, ⟨5, _⟩ => ⟨S262144, .i32⟩
  | .hbm, ⟨6, _⟩ => ⟨S262144x1, .i32⟩
  | .hbm, ⟨7, _⟩ => ⟨S256x64, .f32⟩
  | .hbm, ⟨8, _⟩ => ⟨S256x64, .bf16⟩
  | .hbm, ⟨9, _⟩ => ⟨S64x256, .f32⟩
  | .hbm, ⟨10, _⟩ => ⟨S_, .f32⟩
  | .hbm, ⟨11, _⟩ => ⟨S64, .f32⟩
  | .hbm, ⟨12, _⟩ => ⟨S64x1, .f32⟩
  | .hbm, ⟨13, _⟩ => ⟨S1x64, .f32⟩
  | .hbm, ⟨14, _⟩ => ⟨S_, .f32⟩
  | .hbm, ⟨15, _⟩ => ⟨S64x1, .f32⟩
  | .hbm, ⟨16, _⟩ => ⟨S64x1, .f32⟩
  | .hbm, ⟨17, _⟩ => ⟨S1x64, .f32⟩
  | .hbm, ⟨18, _⟩ => ⟨S2x64x256, .f32⟩
  | .hbm, ⟨19, _⟩ => ⟨S2x64x1, .f32⟩
  | .hbm, ⟨20, _⟩ => ⟨S1x64x256, .f32⟩
  | .hbm, ⟨21, _⟩ => ⟨S64x256, .f32⟩
  | .hbm, ⟨22, _⟩ => ⟨S64x256, .f32⟩
  | .hbm, ⟨23, _⟩ => ⟨S1x64x256, .f32⟩
  | .hbm, ⟨24, _⟩ => ⟨S64x256, .f32⟩
  | .hbm, ⟨25, _⟩ => ⟨S64x256, .f32⟩
  | .hbm, ⟨26, _⟩ => ⟨S1x64x1, .f32⟩
  | .hbm, ⟨27, _⟩ => ⟨S64x1, .f32⟩
  | .hbm, ⟨28, _⟩ => ⟨S64x1, .f32⟩
  | .hbm, ⟨29, _⟩ => ⟨S1x64x1, .f32⟩
  | .hbm, ⟨30, _⟩ => ⟨S64x1, .f32⟩
  | .hbm, ⟨31, _⟩ => ⟨S64x1, .f32⟩
  | .hbm, ⟨32, _⟩ => ⟨S64x1, .f32⟩
  | .hbm, ⟨33, _⟩ => ⟨S64x1, .f32⟩
  | .hbm, ⟨34, _⟩ => ⟨S64x256, .f32⟩
  | .hbm, ⟨35, _⟩ => ⟨S_, .f32⟩
  | .hbm, ⟨36, _⟩ => ⟨S64, .f32⟩
  | .hbm, ⟨37, _⟩ => ⟨S64x1, .f32⟩
  | .hbm, ⟨38, _⟩ => ⟨S1x64, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S256x64, .f32⟩
  | .hbm, ⟨43, _⟩ => ⟨S64x64, .f32⟩
  | .hbm, ⟨44, _⟩ => ⟨S_, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S_, .f32⟩
  | .hbm, ⟨49, _⟩ => ⟨S64x64, .f32⟩
  | .hbm, ⟨50, _⟩ => ⟨S64x64, .f32⟩
  | .hbm, ⟨51, _⟩ => ⟨S64x64, .i32⟩
  | .hbm, ⟨52, _⟩ => ⟨S64x64, .i32⟩
  | .hbm, ⟨53, _⟩ => ⟨S_, .i32⟩
  | .hbm, ⟨54, _⟩ => ⟨S64x64, .i32⟩
  | .hbm, ⟨55, _⟩ => ⟨S64x64, .i32⟩
  | .hbm, ⟨56, _⟩ => ⟨S64x64, .i1⟩
  | .hbm, ⟨57, _⟩ => ⟨S64x64, .i1⟩
  | .hbm, ⟨58, _⟩ => ⟨S_, .f32⟩
  | .hbm, ⟨59, _⟩ => ⟨S_, .f32⟩
  | .hbm, ⟨60, _⟩ => ⟨S64x64, .f32⟩
  | .hbm, ⟨61, _⟩ => ⟨S64x64, .f32⟩
  | .hbm, ⟨62, _⟩ => ⟨S64x64, .f32⟩
  | .hbm, ⟨63, _⟩ => ⟨S1x64, .f32⟩
  | .hbm, ⟨64, _⟩ => ⟨S64x64, .f32⟩
  | .hbm, ⟨65, _⟩ => ⟨S64x64, .f32⟩
  | .hbm, ⟨66, _⟩ => ⟨S64x64, .f32⟩
  | .hbm, ⟨67, _⟩ => ⟨S64x64, .f32⟩
  | .hbm, ⟨68, _⟩ => ⟨S64x64, .f32⟩
  | .hbm, ⟨69, _⟩ => ⟨S_, .f32⟩
  | .hbm, ⟨70, _⟩ => ⟨S_, .f32⟩
  | .hbm, ⟨71, _⟩ => ⟨S64x64, .f32⟩
  | .hbm, ⟨72, _⟩ => ⟨S64x64, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S64x256, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S4096x1, .i32⟩
  | .local _ .vmem, ⟨3, _⟩ => ⟨S4096x1, .i32⟩
  | .local _ .vmem, ⟨4, _⟩ => ⟨S256x64, .bf16⟩
  | .local _ .vmem, ⟨5, _⟩ => ⟨S1x64, .f32⟩
  | .local _ .vmem, ⟨6, _⟩ => ⟨S1x64, .f32⟩
  | .local _ .vmem, ⟨7, _⟩ => ⟨S1x64x256, .f32⟩
  | .local _ .vmem, ⟨8, _⟩ => ⟨S1x64x256, .f32⟩
  | .local _ .vmem, ⟨9, _⟩ => ⟨S1x64x1, .f32⟩
  | .local _ .vmem, ⟨10, _⟩ => ⟨S1x64x1, .f32⟩
  | .local _ .vmem, ⟨11, _⟩ => ⟨S64x256, .f32⟩
  | .local _ .vmem, ⟨12, _⟩ => ⟨S64x1, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_4 : Ref sig .tc := ⟨.hbm, 58, rfl⟩
abbrev main_call0_v0 : Ref sig .tc := ⟨.hbm, 59, rfl⟩
abbrev main_call0_v1 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_5 : Ref sig .tc := ⟨.hbm, 69, rfl⟩
abbrev main_call1_v0 : Ref sig .tc := ⟨.hbm, 70, rfl⟩
abbrev main_call1_v1 : Ref sig .tc := ⟨.hbm, 71, rfl⟩
abbrev main_v53 : Ref sig .tc := ⟨.hbm, 72, rfl⟩
abbrev main_cst_6 : Ref sig .tc := ⟨.hbm, 73, rfl⟩
abbrev main_v54 : Ref sig .tc := ⟨.hbm, 74, rfl⟩
abbrev main_cst_7 : Ref sig .tc := ⟨.hbm, 75, rfl⟩
abbrev main_v55 : Ref sig .tc := ⟨.hbm, 76, rfl⟩
abbrev main_cst_8 : Ref sig .tc := ⟨.hbm, 77, rfl⟩
abbrev main_v56 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v57 : BitVec 1 := Scalar.cmpi .eq arg1 c31_i32
  let v58 : BitVec 32 := Scalar.extui v57
  let c0_i32_26 : BitVec 32 := 0#32
  let v59 : BitVec 1 := Scalar.cmpi .ne v58 c0_i32_26
  v59

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x64x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S262144_S262144x1 : S262144.ShapeCasts S262144x1
  transposes_S64x256_S256x64_1_0 : S64x256.Transposes [1, 0] S256x64
  bitsLt_bf16_f32 : FTy.bits .bf16 < FTy.bits .f32
  reducesTo_S64x256_S64_d1 : S64x256.ReducesTo [1] S64
  h_S_ : 0 < S_.numel
  bcast_S64_S64x1_0 : S64.BroadcastsInDim S64x1 (![0] : Fin 1 → Fin S64x1.rank)
  transposes_S64x1_S1x64_1_0 : S64x1.Transposes [1, 0] S1x64
  bcast_S_S64x1 : S_.BroadcastsInDim S64x1 (![] : Fin 0 → Fin S64x1.rank)
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S1x64_d1_w32 : S1x64.Iotas .tc 32 [1]
  broadcasts_S4096x1_S4096x64 : S4096x1.Broadcasts S4096x64
  broadcasts_S1x64_S4096x64 : S1x64.Broadcasts S4096x64
  natLt_1_32 : 1 < 32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S4096x64_S4096 : S4096x64.Reduces [1] S4096
  shapeCasts_S4096_S4096x1 : S4096.ShapeCasts S4096x1
  inb_S4096x256_S4096x256_0_0 : ∀ a, (![0, 0] : Fin 2 → Nat) a + S4096x256.size a ≤ S4096x256.size a
  h_S4096x256 : 0 < S4096x256.numel
  broadcasts_S4096x1_S4096x256 : S4096x1.Broadcasts S4096x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  reduces_S4096x256_S4096 : S4096x256.Reduces [1] S4096
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  slices_S2x64x256_S1x64x256_0_0_0 : S2x64x256.Slices ![0, 0, 0] S1x64x256
  slices_S2x64x256_S1x64x256_1_0_0 : S2x64x256.Slices ![1, 0, 0] S1x64x256
  slices_S2x64x1_S1x64x1_0_0_0 : S2x64x1.Slices ![0, 0, 0] S1x64x1
  slices_S2x64x1_S1x64x1_1_0_0 : S2x64x1.Slices ![1, 0, 0] S1x64x1
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  reducesTo_S64x64_S_d0_1 : S64x64.ReducesTo [0, 1] S_
  reducesTo_S64x256_S_d0_1 : S64x256.ReducesTo [0, 1] S_
  dot_S4096x256_S256x64_S4096x64_1_0_0_1_n_n_wf : DotDims.WF S4096x256 S256x64 S4096x64 [1] [0] [0] [1] [] []
  dot_S4096x64_S4096x256_S64x256_0_0_1_1_n_n_wf : DotDims.WF S4096x64 S4096x256 S64x256 [0] [0] [1] [1] [] []
  dot_S4096x64_S4096x1_S64x1_0_0_1_1_n_n_wf : DotDims.WF S4096x64 S4096x1 S64x1 [0] [0] [1] [1] [] []
  dot_S64x256_S256x64_S64x64_1_0_0_1_n_n_wf : DotDims.WF S64x256 S256x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S262144x1.size a
  hwx0_1 : ∀ i : grid0.Coords, EltTy.bits .i32 = 32 ∨ (Rect.block (s := S262144x1) S4096x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .bf16 = 32 ∨ (Rect.block (s := S256x64) S256x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x256.size a ≤ S2x64x256.size a
  hwx0_5 : ∀ i : grid0.Coords, EltTy.bits .f32 = 32 ∨ (Rect.block (s := S2x64x256) S1x64x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x1.size a ≤ S2x64x1.size a
  hwx0_6 : ∀ i : grid0.Coords, EltTy.bits .f32 = 32 ∨ (Rect.block (s := S2x64x1) S1x64x1.size (cc0_transform_6 i) (hinb0_6 i)).WholeWords (EltTy.packing .f32)

variable [Facts₀]

def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S4096x64_S4096x256_S64x256_0_0_1_1_n_n : DotDims S4096x64 S4096x256 S64x256 where
  lhsContracting := [0]
  rhsContracting := [0]
  lhsNonContracting := [1]
  rhsNonContracting := [1]
  lhsBatch := []
  rhsBatch := []
  wf := dot_S4096x64_S4096x256_S64x256_0_0_1_1_n_n_wf
def dot_S4096x64_S4096x1_S64x1_0_0_1_1_n_n : DotDims S4096x64 S4096x1 S64x1 where
  lhsContracting := [0]
  rhsContracting := [0]
  lhsNonContracting := [1]
  rhsNonContracting := [1]
  lhsBatch := []
  rhsBatch := []
  wf := dot_S4096x64_S4096x1_S64x1_0_0_1_1_n_n_wf
def dot_S64x256_S256x64_S64x64_1_0_0_1_n_n : DotDims S64x256 S256x64 S64x64 where
  lhsContracting := [1]
  rhsContracting := [0]
  lhsNonContracting := [0]
  rhsNonContracting := [1]
  lhsBatch := []
  rhsBatch := []
  wf := dot_S64x256_S256x64_S64x64_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10_0) S1x64x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_1) S1x64x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S262144x256 : Shape := ⟨2, ![262144, 256]⟩
abbrev S64x256 : Shape := ⟨2, ![64, 256]⟩
abbrev S64x1 : Shape := ⟨2, ![64, 1]⟩
abbrev S64x64 : Shape := ⟨2, ![64, 64]⟩
abbrev S262144 : Shape := ⟨1, ![262144]⟩
abbrev S_ : Shape := ⟨0, ![]⟩
abbrev S262144x1 : Shape := ⟨2, ![262144, 1]⟩
abbrev S64 : Shape := ⟨1, ![64]⟩
abbrev S1x64 : Shape := ⟨2, ![1, 64]⟩
abbrev S256x64 : Shape := ⟨2, ![256, 64]⟩

abbrev nBuf : Space → Nat
  | .hbm => 103
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S64x256, .f32⟩
  | .hbm, ⟨2, _⟩ => ⟨S64x1, .f32⟩
  | .hbm, ⟨3, _⟩ => ⟨S64x1, .f32⟩
  | .hbm, ⟨4, _⟩ => ⟨S64x64, .f32⟩
  | .hbm, ⟨5, _⟩ => ⟨S262144, .i32⟩
  | .hbm, ⟨6, _⟩ => ⟨S_, .i32⟩
  | .hbm, ⟨7, _⟩ => ⟨S262144, .i32⟩
  | .hbm, ⟨8, _⟩ => ⟨S262144, .i1⟩
  | .hbm, ⟨9, _⟩ => ⟨S_, .i32⟩
  | .hbm, ⟨10, _⟩ => ⟨S262144, .i32⟩
  | .hbm, ⟨11, _⟩ => ⟨S262144, .i32⟩
  | .hbm, ⟨12, _⟩ => ⟨S262144, .i32⟩
  | .hbm, ⟨13, _⟩ => ⟨S262144x1, .i32⟩
  | .hbm, ⟨14, _⟩ => ⟨S262144x1, .f32⟩
  | .hbm, ⟨15, _⟩ => ⟨S_, .i32⟩
  | .hbm, ⟨16, _⟩ => ⟨S262144, .i32⟩
  | .hbm, ⟨17, _⟩ => ⟨S262144, .i1⟩
  | .hbm, ⟨18, _⟩ => ⟨S_, .i32⟩
  | .hbm, ⟨19, _⟩ => ⟨S262144, .i32⟩
  | .hbm, ⟨20, _⟩ => ⟨S262144, .i32⟩
  | .hbm, ⟨21, _⟩ => ⟨S262144, .i32⟩
  | .hbm, ⟨22, _⟩ => ⟨S262144x1, .i32⟩
  | .hbm, ⟨23, _⟩ => ⟨S262144x256, .f32⟩
  | .hbm, ⟨24, _⟩ => ⟨S262144x256, .f32⟩
  | .hbm, ⟨25, _⟩ => ⟨S262144x256, .f32⟩
  | .hbm, ⟨26, _⟩ => ⟨S_, .i32⟩
  | .hbm, ⟨27, _⟩ => ⟨S262144, .i32⟩
  | .hbm, ⟨28, _⟩ => ⟨S262144, .i1⟩
  | .hbm, ⟨29, _⟩ => ⟨S_, .i32⟩
  | .hbm, ⟨30, _⟩ => ⟨S262144, .i32⟩
  | .hbm, ⟨31, _⟩ => ⟨S262144, .i32⟩
  | .hbm, ⟨32, _⟩ => ⟨S262144, .i32⟩
  | .hbm, ⟨33, _⟩ => ⟨S262144x1, .i32⟩
  | .hbm, ⟨34, _⟩ => ⟨S64x256, .f32⟩
  | .hbm, ⟨35, _⟩ => ⟨S262144x256, .f32⟩
  | .hbm, ⟨36, _⟩ => ⟨S262144x256, .f32⟩
  | .hbm, ⟨37, _⟩ => ⟨S_, .f32⟩
  | .hbm, ⟨38, _⟩ => ⟨S262144, .f32⟩
  | .hbm, ⟨39, _⟩ => ⟨S262144, .f32⟩
  | .hbm, ⟨40, _⟩ => ⟨S262144x1, .f32⟩
  | .hbm, ⟨41, _⟩ => ⟨S_, .i32⟩
  | .hbm, ⟨42, _⟩ => ⟨S262144, .i32⟩
  | .hbm, ⟨43, _⟩ => ⟨S262144, .i1⟩
  | .hbm, ⟨44, _⟩ => ⟨S_, .i32⟩
  | .hbm, ⟨45, _⟩ => ⟨S262144, .i32⟩
  | .hbm, ⟨46, _⟩ => ⟨S262144, .i32⟩
  | .hbm, ⟨47, _⟩ => ⟨S262144, .i32⟩
  | .hbm, ⟨48, _⟩ => ⟨S262144x1, .i32⟩
  | .hbm, ⟨49, _⟩ => ⟨S64x1, .f32⟩
  | .hbm, ⟨50, _⟩ => ⟨S64x1, .f32⟩
  | .hbm, ⟨51, _⟩ => ⟨S64x1, .f32⟩
  | .hbm, ⟨52, _⟩ => ⟨S64x256, .f32⟩
  | .hbm, ⟨53, _⟩ => ⟨S_, .f32⟩
  | .hbm, ⟨54, _⟩ => ⟨S64, .f32⟩
  | .hbm, ⟨55, _⟩ => ⟨S64x1, .f32⟩
  | .hbm, ⟨56, _⟩ => ⟨S1x64, .f32⟩
  | .hbm, ⟨57, _⟩ => ⟨S64x64, .f32⟩
  | .hbm, ⟨58, _⟩ => ⟨S64x64, .f32⟩
  | .hbm, ⟨59, _⟩ => ⟨S64x64, .f32⟩
  | .hbm, ⟨60, _⟩ => ⟨S256x64, .f32⟩
  | .hbm, ⟨61, _⟩ => ⟨S64x64, .f32⟩
  | .hbm, ⟨62, _⟩ => ⟨S_, .f32⟩
  | .hbm, ⟨63, _⟩ => ⟨S64x64, .f32⟩
  | .hbm, ⟨64, _⟩ => ⟨S64x64, .f32⟩
  | .hbm, ⟨65, _⟩ => ⟨S64x64, .f32⟩
  | .hbm, ⟨66, _⟩ => ⟨S_, .f32⟩
  | .hbm, ⟨67, _⟩ => ⟨S64x64, .f32⟩
  | .hbm, ⟨68, _⟩ => ⟨S64x64, .f32⟩
  | .hbm, ⟨69, _⟩ => ⟨S64x64, .i32⟩
  | .hbm, ⟨70, _⟩ => ⟨S64x64, .i32⟩
  | .hbm, ⟨71, _⟩ => ⟨S_, .i32⟩
  | .hbm, ⟨72, _⟩ => ⟨S64x64, .i32⟩
  | .hbm, ⟨73, _⟩ => ⟨S64x64, .i32⟩
  | .hbm, ⟨74, _⟩ => ⟨S64x64, .i1⟩
  | .hbm, ⟨75, _⟩ => ⟨S64x64, .i1⟩
  | .hbm, ⟨76, _⟩ => ⟨S_, .f32⟩
  | .hbm, ⟨77, _⟩ => ⟨S_, .f32⟩
  | .hbm, ⟨78, _⟩ => ⟨S64x64, .f32⟩
  | .hbm, ⟨79, _⟩ => ⟨S64x64, .f32⟩
  | .hbm, ⟨80, _⟩ => ⟨S64x64, .f32⟩
  | .hbm, ⟨81, _⟩ => ⟨S1x64, .f32⟩
  | .hbm, ⟨82, _⟩ => ⟨S64x64, .f32⟩
  | .hbm, ⟨83, _⟩ => ⟨S64x64, .f32⟩
  | .hbm, ⟨84, _⟩ => ⟨S64x64, .f32⟩
  | .hbm, ⟨85, _⟩ => ⟨S64x64, .f32⟩
  | .hbm, ⟨86, _⟩ => ⟨S64x64, .f32⟩
  | .hbm, ⟨87, _⟩ => ⟨S_, .f32⟩
  | .hbm, ⟨88, _⟩ => ⟨S_, .f32⟩
  | .hbm, ⟨89, _⟩ => ⟨S64x64, .f32⟩
  | .hbm, ⟨90, _⟩ => ⟨S64x64, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S64x256, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_cst : Ref sig .tc := ⟨.hbm, 37, rfl⟩
abbrev main_call0_v1 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_call1_v0 : Ref sig .tc := ⟨.hbm, 77, rfl⟩
abbrev main_call1_v1 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_cst_12 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_cst_14 : Ref sig .tc := ⟨.hbm, 95, rfl⟩
abbrev main_v66 : Ref sig .tc := ⟨.hbm, 96, rfl⟩
abbrev main_v67 : Ref sig .tc := ⟨.hbm, 97, rfl⟩
abbrev main_cst_15 : Ref sig .tc := ⟨.hbm, 98, rfl⟩
abbrev main_v68 : Ref sig .tc := ⟨.hbm, 99, rfl⟩
abbrev main_cst_16 : Ref sig .tc := ⟨.hbm, 100, rfl⟩
abbrev main_v69 : Ref sig .tc := ⟨.hbm, 101, rfl⟩
abbrev main_v70 : Ref sig .tc := ⟨.hbm, 102, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x256_0_1 : S262144x1.BroadcastsInDim S262144x256 (![0, 1] : Fin 2 → Fin S262144x256.rank)
  reducesTo_S262144x256_S262144_d1 : S262144x256.ReducesTo [1] S262144
  h_S_ : 0 < S_.numel
  reducesTo_S64x256_S64_d1 : S64x256.ReducesTo [1] S64
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  transposes_S64x256_S256x64_1_0 : S64x256.Transposes [1, 0] S256x64
  bcast_S_S64x64 : S_.BroadcastsInDim S64x64 (![] : Fin 0 → Fin S64x64.rank)
  transposes_S64x1_S1x64_1_0 : S64x1.Transposes [1, 0] S1x64
  reducesTo_S64x64_S_d0_1 : S64x64.ReducesTo [0, 1] S_
  reducesTo_S64x256_S_d0_1 : S64x256.ReducesTo [0, 1] S_
  gather_S64x1_S262144x1_S262144x1_1_0_n_n_0_1_11_wf : GatherDims.WF S64x1 S262144x1 S262144x1 [1] [0] [] [0] [] 1 ![1, 1]
  gather_S64x256_S262144x1_S262144x256_1_0_n_n_0_1_1256_wf : GatherDims.WF S64x256 S262144x1 S262144x256 [1] [0] [] [0] [] 1 ![1, 256]
  scatter_S64x256_S262144x1_S262144x256_1_0_0_1_wf : ScatterDims.WF S64x256 S262144x1 S262144x256 [1] [0] [0] 1
  scatter_S64x1_S262144x1_S262144x1_1_0_0_1_wf : ScatterDims.WF S64x1 S262144x1 S262144x1 [1] [0] [0] 1
  dot_S64x256_S256x64_S64x64_1_0_0_1_n_n_wf : DotDims.WF S64x256 S256x64 S64x64 [1] [0] [0] [1] [] []

variable [Facts₀]

def gather_S64x1_S262144x1_S262144x1_1_0_n_n_0_1_11 : GatherDims S64x1 S262144x1 S262144x1 where
  offsetDims := [1]
  collapsedSliceDims := [0]
  operandBatchingDims := []
  startIndicesBatchingDims := []
  startIndexMap := [0]
  indexVectorDim := 1
  sliceSizes := ![1, 1]
  wf := gather_S64x1_S262144x1_S262144x1_1_0_n_n_0_1_11_wf
def gather_S64x256_S262144x1_S262144x256_1_0_n_n_0_1_1256 : GatherDims S64x256 S262144x1 S262144x256 where
  offsetDims := [1]
  collapsedSliceDims := [0]
  operandBatchingDims := []
  startIndicesBatchingDims := []
  startIndexMap := [0]
  indexVectorDim := 1
  sliceSizes := ![1, 256]
  wf := gather_S64x256_S262144x1_S262144x256_1_0_n_n_0_1_1256_wf
def scatter_S64x256_S262144x1_S262144x256_1_0_0_1 : ScatterDims S64x256 S262144x1 S262144x256 where
  updateWindowDims := [1]
  insertedWindowDims := [0]
  scatterDimsToOperandDims := [0]
  indexVectorDim := 1
  wf := scatter_S64x256_S262144x1_S262144x256_1_0_0_1_wf
def scatter_S64x1_S262144x1_S262144x1_1_0_0_1 : ScatterDims S64x1 S262144x1 S262144x1 where
  updateWindowDims := [1]
  insertedWindowDims := [0]
  scatterDimsToOperandDims := [0]
  indexVectorDim := 1
  wf := scatter_S64x1_S262144x1_S262144x1_1_0_0_1_wf
def dot_S64x256_S256x64_S64x64_1_0_0_1_n_n : DotDims S64x256 S256x64 S64x64 where
  lhsContracting := [1]
  rhsContracting := [0]
  lhsNonContracting := [0]
  rhsNonContracting := [1]
  lhsBatch := []
  rhsBatch := []
  wf := dot_S64x256_S256x64_S64x64_1_0_0_1_n_n_wf

class Facts : Prop extends Facts₀ where

variable [Facts]
-- ==== Proof.FrameK.Kit.lean ====
/-
  The program around its one kernel region: the host lines before the region, the region, the host lines after it.
  What each buffer holds when the region is entered (`V`), each window's block at a grid point (`iblk`), that no host
  line writes an argument array, that the later lines touch only buffers the region does not own, the two conditions
  the body branches on (first and last tile of a half, decided over the 64 grid points), and the frame claim's post
  read off a frame run.  Stated at any float instance.
-/
import proofs.«413487_j64269890617637_3_alg».proof.Proof.Gen.Kernel.Launch
import proofs.«413487_j64269890617637_3_alg».proof.Proof.Gen.Kernel.Skeleton
import proofs.«413487_j64269890617637_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The host lines after the region, stretch by stretch. -/
abbrev tailOps : List (List (HloOp τ sig (Elt F))) := [hostOps1, hostOps1_1, hostOps1_2, hostOps1_3, hostOps1_4]

/-- Core `c`'s buffer contents when the region is entered: after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The program reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch only the region's arrays and the buffers that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- No line of this stretch writes an array of the region. -/
theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No line of this stretch writes an array of the region. -/
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No line of this stretch writes an array of the region. -/
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No line of this stretch writes an array of the region. -/
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No line of this stretch writes an array of the region. -/
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- And so none of the later lines writes an array of the region. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- A reference that no later line writes. -/
theorem tail_not_written (b : Ref sig .tc)
    (h0 : (hostOps1 : List (HloOp τ sig (Elt F))).Forall fun op => Proc.devRef .tc b ∉ op.writes)
    (h1 : (hostOps1_1 : List (HloOp τ sig (Elt F))).Forall fun op => Proc.devRef .tc b ∉ op.writes)
    (h2 : (hostOps1_2 : List (HloOp τ sig (Elt F))).Forall fun op => Proc.devRef .tc b ∉ op.writes)
    (h3 : (hostOps1_3 : List (HloOp τ sig (Elt F))).Forall fun op => Proc.devRef .tc b ∉ op.writes)
    (h4 : (hostOps1_4 : List (HloOp τ sig (Elt F))).Forall fun op => Proc.devRef .tc b ∉ op.writes) :
    ∀ op ∈ (tailOps (F := F)).flatten, Proc.devRef (τ := τ) .tc b ∉ op.writes := by
  intro op hop
  simp only [List.flatten_cons, List.flatten_nil, List.append_nil, List.mem_append] at hop
  rcases hop with hop | hop | hop | hop | hop
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop

/-- No host line after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (tail_not_written main_arg1
      (by simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_4, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))]
  rw [Pipeline.withArrays_of_ne _ c (V0 m c) _ main_arg1 (by exact (by decide : ∀ w, Pipeline.arrRef spec0 w ≠ main_arg1))]
  exact V_main_arg1 m c

/-- No host line after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (tail_not_written main_arg2
      (by simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_4, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))]
  rw [Pipeline.withArrays_of_ne _ c (V0 m c) _ main_arg2 (by exact (by decide : ∀ w, Pipeline.arrRef spec0 w ≠ main_arg2))]
  exact V_main_arg2 m c

/-- No host line after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (tail_not_written main_arg3
      (by simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_4, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))]
  rw [Pipeline.withArrays_of_ne _ c (V0 m c) _ main_arg3 (by exact (by decide : ∀ w, Pipeline.arrRef spec0 w ≠ main_arg3))]
  exact V_main_arg3 m c

/-- No host line after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (tail_not_written main_arg4
      (by simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_4, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))]
  rw [Pipeline.withArrays_of_ne _ c (V0 m c) _ main_arg4 (by exact (by decide : ∀ w, Pipeline.arrRef spec0 w ≠ main_arg4))]
  exact V_main_arg4 m c

/-- No host line after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_forall_not_mem (b := Proc.devRef .tc main_arg5) _ _ (tail_not_written main_arg5
      (by simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_4, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))]
  rw [Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run to the frame post read at the argument arrays
    (the staged argument as the library computes an input array, the others as the later lines leave a bypassing
    buffer) is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c)⟩) h

/-! ## The body's two branch conditions -/

/-- "This is the first tile of its half": the condition of the branch that zeroes the two accumulators. -/
abbrev cond0_0 (i : grid0.Coords) : Prop := (Scalar.cmpi .ne (Scalar.extui (Scalar.cmpi .eq (BitVec.ofNat 32 (i 1).val) 0#32)) 0#32) = 1#1
/-- It holds at the points 0 and 32. -/
theorem hcond0_0 : ∀ t : Fin cfg0.N, cond0_0 (grid0.coords t) ↔ t.val % 32 = 0 :=
  (by decide +kernel : ∀ t : Fin grid0.N, cond0_0 (grid0.coords t) ↔ t.val % 32 = 0)

/-- "This is the last tile of its half": the condition of the branch that copies the accumulators out. -/
abbrev cond0_1 (i : grid0.Coords) : Prop := k0_cond2 i = 1#1
/-- It holds at the points 31 and 63. -/
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from a half's last tile nothing is stored into output 5, and its block is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At a half's last tile output 5 is stored. -/
theorem liveAt0_5 : ∀ t : Fin cfg0.N, cond0_1 (grid0.coords t) → cfg0.idle 5 (grid0.coords t) = false := by decide +kernel
/-- Away from a half's last tile nothing is stored into output 6, and its block is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At a half's last tile output 6 is stored. -/
theorem liveAt0_6 : ∀ t : Fin cfg0.N, cond0_1 (grid0.coords t) → cfg0.idle 6 (grid0.coords t) = false := by decide +kernel

/-! ## The staging and scratch memrefs -/

/-- One staging buffer of each output window, through which its contents are stated. -/
abbrev VO0_5 : View sig .tc .vmem S1x64x256 .f32 := (Memref.whole cc0_stg5_0 : Memref sig .tc .vmem S1x64x256 .f32).view
abbrev VO0_6 : View sig .tc .vmem S1x64x1 .f32 := (Memref.whole cc0_stg6_0 : Memref sig .tc .vmem S1x64x1 .f32).view
abbrev ms0_0 (t : Fin cfg0.N) : Memref sig .tc .vmem S4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64x1 .f32 := win0_6.stage (cfg0.slots t 6)
abbrev hs0_6 (t : Fin cfg0.N) : (ms0_6 t).IsWhole := hstage0_6 ((cfg0.slots t 6).cast nbuf0_6)
/-- The two accumulators the kernel carries from tile to tile. -/
abbrev scM0_0 : Memref sig .tc .vmem S64x256 .f32 := Memref.whole cc0_scratch0
abbrev scM0_1 : Memref sig .tc .vmem S64x1 .f32 := Memref.whole cc0_scratch1
abbrev VS0_0 : View sig .tc .vmem S64x256 .f32 := scM0_0.view
abbrev VS0_1 : View sig .tc .vmem S64x1 .f32 := scM0_1.view

/-- The region's invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.FrameK.RunA.lean ====
/-
  The kernel body run once, symbolically, at the first tile of a half (the accumulators are zeroed first, nothing is copied out): on whole staging memrefs, the inputs at their contents, it
  runs to its end holding the inputs as they were and each buffer it stored into with its stored pieces written.  The
  pieces are found by the run itself.  Stated at any float instance.
-/
import proofs.«413487_j64269890617637_3_alg».proof.Proof.FrameK.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (last first) in the outputs' staging buffers and in the two accumulators at
    the first tile of a half (the accumulators are zeroed first, nothing is copied out), with the proof that the body runs to its end leaving exactly them. -/
noncomputable def kernelRun0_A (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : cond0_0 i) (hc1 : ¬cond0_1 i)
    (x0 : Vec F S4096x256 .f32) (x1 : Vec F S4096x1 .i32) (x2 : Vec F S256x64 .bf16) (x3 : Vec F S1x64 .f32) (x4 : Vec F S1x64 .f32) :
    Σ' (L5 : List (View.Piece (Elt F) S1x64x256 .f32)) (L6 : List (View.Piece (Elt F) S1x64x1 .f32)) (LS0 : List (View.Piece (Elt F) S64x256 .f32)), { LS1 : List (View.Piece (Elt F) S64x1 .f32) //
      ∀ (xi5 : Vec F S1x64x256 .f32) (xi6 : Vec F S1x64x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__scatter_kernel i arg2 harg2 arg3 harg3 arg4 harg4 arg5 harg5 arg6 harg6 arg7 harg7 arg8 harg8 arg9 harg9 arg10 harg10) K } := by
  refine ⟨[], [], ?_, ?_, fun xi5 xi6 E K => ?run⟩
  case run =>
    simp only [cc0__scatter_kernel_eq_skeleton]; unfold cc0__scatter_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Hand

end
-- ==== Proof.FrameK.RunB.lean ====
/-
  The kernel body run once, symbolically, at a tile that is neither the first nor the last of its half: on whole staging memrefs, the inputs at their contents, it
  runs to its end holding the inputs as they were and each buffer it stored into with its stored pieces written.  The
  pieces are found by the run itself.  Stated at any float instance.
-/
import proofs.«413487_j64269890617637_3_alg».proof.Proof.FrameK.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (last first) in the outputs' staging buffers and in the two accumulators at
    a tile that is neither the first nor the last of its half, with the proof that the body runs to its end leaving exactly them. -/
noncomputable def kernelRun0_B (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : ¬cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) :
    Σ' (L5 : List (View.Piece (Elt F) S1x64x256 .f32)) (L6 : List (View.Piece (Elt F) S1x64x1 .f32)) (LS0 : List (View.Piece (Elt F) S64x256 .f32)), { LS1 : List (View.Piece (Elt F) S64x1 .f32) //
      ∀ (xi5 : Vec F S1x64x256 .f32) (xi6 : Vec F S1x64x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__scatter_kernel i arg2 harg2 arg3 harg3 arg4 harg4 arg5 harg5 arg6 harg6 arg7 harg7 arg8 harg8 arg9 harg9 arg10 harg10) K } := by
  refine ⟨[], [], ?_, ?_, fun xi5 xi6 E K => ?run⟩
  case run =>
    simp only [cc0__scatter_kernel_eq_skeleton]; unfold cc0__scatter_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Hand

end
-- ==== Proof.FrameK.RunC.lean ====
/-
  The kernel body run once, symbolically, at the last tile of a half (the accumulators are copied to the two outputs): on whole staging memrefs, the inputs at their contents, it
  runs to its end holding the inputs as they were and each buffer it stored into with its stored pieces written.  The
  pieces are found by the run itself.  Stated at any float instance.
-/
import proofs.«413487_j64269890617637_3_alg».proof.Proof.FrameK.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (last first) in the outputs' staging buffers and in the two accumulators at
    the last tile of a half (the accumulators are copied to the two outputs), with the proof that the body runs to its end leaving exactly them. -/
noncomputable def kernelRun0_C (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) :
    Σ' (L5 : List (View.Piece (Elt F) S1x64x256 .f32)) (L6 : List (View.Piece (Elt F) S1x64x1 .f32)) (LS0 : List (View.Piece (Elt F) S64x256 .f32)), { LS1 : List (View.Piece (Elt F) S64x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__scatter_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__scatter_kernel_eq_skeleton]; unfold cc0__scatter_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    iexists _; iexact HS1

end Cert.Kernel.Hand

end
-- ==== Proof.FrameK.Frame.lean ====
/-
  What the two accumulators and the two output buffers hold after each tile, tile by tile; the proof data of the
  region; the body's obligation at every grid point (three cases: first tile of a half, a middle tile, last tile of a
  half); the run of the whole program; and the frame claim.  Stated at any float instance.
-/
import proofs.«413487_j64269890617637_3_alg».proof.Proof.FrameK.RunA
import proofs.«413487_j64269890617637_3_alg».proof.Proof.FrameK.RunB
import proofs.«413487_j64269890617637_3_alg».proof.Proof.FrameK.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the tile leaves in output 5's staging buffer (nothing is stored here at this tile: a placeholder nothing consults). -/
def out0_A_5 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : cond0_0 i) (hc1 : ¬cond0_1 i)
    (x0 : Vec F S4096x256 .f32) (x1 : Vec F S4096x1 .i32) (x2 : Vec F S256x64 .bf16) (x3 : Vec F S1x64 .f32) (x4 : Vec F S1x64 .f32) : Vec F S1x64x256 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 hc0 hc1 x0 x1 x2 x3 x4).1)
/-- What the tile leaves in output 6's staging buffer (nothing is stored here at this tile: a placeholder nothing consults). -/
def out0_A_6 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : cond0_0 i) (hc1 : ¬cond0_1 i)
    (x0 : Vec F S4096x256 .f32) (x1 : Vec F S4096x1 .i32) (x2 : Vec F S256x64 .bf16) (x3 : Vec F S1x64 .f32) (x4 : Vec F S1x64 .f32) : Vec F S1x64x1 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4).2.1)
/-- The stored pieces cover the first accumulator. -/
theorem scover0_A_0 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : cond0_0 i) (hc1 : ¬cond0_1 i)
    (x0 : Vec F S4096x256 .f32) (x1 : Vec F S4096x1 .i32) (x2 : Vec F S256x64 .bf16) (x3 : Vec F S1x64 .f32) (x4 : Vec F S1x64 .f32) (y : S64x256.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.2.1 S64x256.size (by sl_kernel_rfl) y
/-- The stored pieces cover the second accumulator. -/
theorem scover0_A_1 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : cond0_0 i) (hc1 : ¬cond0_1 i)
    (x0 : Vec F S4096x256 .f32) (x1 : Vec F S4096x1 .i32) (x2 : Vec F S256x64 .bf16) (x3 : Vec F S1x64 .f32) (x4 : Vec F S1x64 .f32) (y : S64x1.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.2.2.1 S64x1.size (by sl_kernel_rfl) y
/-- What the tile leaves in the first accumulator: its pieces read back. -/
def sout0_A_0 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : cond0_0 i) (hc1 : ¬cond0_1 i)
    (x0 : Vec F S4096x256 .f32) (x1 : Vec F S4096x1 .i32) (x2 : Vec F S256x64 .bf16) (x3 : Vec F S1x64 .f32) (x4 : Vec F S1x64 .f32) : Vec F S64x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4).2.2.1)
/-- What the tile leaves in the second accumulator: its pieces read back. -/
def sout0_A_1 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : cond0_0 i) (hc1 : ¬cond0_1 i)
    (x0 : Vec F S4096x256 .f32) (x1 : Vec F S4096x1 .i32) (x2 : Vec F S256x64 .bf16) (x3 : Vec F S1x64 .f32) (x4 : Vec F S1x64 .f32) : Vec F S64x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3 x4).2.2.2.1)

/-- What the tile leaves in output 5's staging buffer (nothing is stored here at this tile: a placeholder nothing consults). -/
def out0_B_5 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : ¬cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) : Vec F S1x64x256 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 hc0 hc1 x0 x1 x2 x3 x4 xs0 xs1).1)
/-- What the tile leaves in output 6's staging buffer (nothing is stored here at this tile: a placeholder nothing consults). -/
def out0_B_6 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : ¬cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) : Vec F S1x64x1 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 xs0 xs1).2.1)
/-- The stored pieces cover the first accumulator. -/
theorem scover0_B_0 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : ¬cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) (y : S64x256.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0 xs1).2.2.1 S64x256.size (by sl_kernel_rfl) y
/-- The stored pieces cover the second accumulator. -/
theorem scover0_B_1 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : ¬cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) (y : S64x1.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0 xs1).2.2.2.1 S64x1.size (by sl_kernel_rfl) y
/-- What the tile leaves in the first accumulator: its pieces read back. -/
def sout0_B_0 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : ¬cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) : Vec F S64x256 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 xs0 xs1).2.2.1)
/-- What the tile leaves in the second accumulator: its pieces read back. -/
def sout0_B_1 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : ¬cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) : Vec F S64x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 x4 xs0 xs1).2.2.2.1)

theorem cover0_C_5 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) (y : S1x64x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0 xs1).1 S1x64x256.size (by sl_kernel_rfl) y
theorem cover0_C_6 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) (y : S1x64x1.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0 xs1).2.1 S1x64x1.size (by sl_kernel_rfl) y
/-- What the tile leaves in output 5's staging buffer (its pieces read back). -/
def out0_C_5 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) : Vec F S1x64x256 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 x4 xs0 xs1).1)
/-- What the tile leaves in output 6's staging buffer (its pieces read back). -/
def out0_C_6 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) : Vec F S1x64x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 xs0 xs1).2.1)
/-- The stored pieces cover the first accumulator. -/
theorem scover0_C_0 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) (y : S64x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0 xs1).2.2.1 S64x256.size (by sl_kernel_rfl) y
/-- The stored pieces cover the second accumulator. -/
theorem scover0_C_1 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) (y : S64x1.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0 xs1).2.2.2.1 S64x1.size (by sl_kernel_rfl) y
/-- What the tile leaves in the first accumulator: its pieces read back. -/
def sout0_C_0 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) : Vec F S64x256 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 xs0 xs1).2.2.1)
/-- What the tile leaves in the second accumulator: its pieces read back. -/
def sout0_C_1 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) : Vec F S64x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 x4 xs0 xs1).2.2.2.1)

/-! ## What the buffers hold after each tile -/

/-- After the tile at position `n`: output 5's and output 6's staging buffers, then the two accumulators.  The first
    tile of a half starts the accumulators afresh; every other tile continues from what the tile before left. -/
def outsAt0 (c : Dev nD) : (n : ℕ) → n < cfg0.N → Vec F S1x64x256 .f32 × Vec F S1x64x1 .f32 × Vec F S64x256 .f32 × Vec F S64x1 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 32 = 0 then
      if h1 : (n + 1) % 32 = 31 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 32 = 31 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)

/-- At the first tile of a half. -/
theorem outsAt0_A (c : Dev nD) (t : Fin cfg0.N) (h0 : t.val % 32 = 0) (h1 : ¬t.val % 32 = 31) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- At a middle tile: over what the tile before left. -/
theorem outsAt0_B (c : Dev nD) (t : Fin cfg0.N) (h0 : ¬t.val % 32 = 0) (h1 : ¬t.val % 32 = 31) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At the last tile of a half: over what the tile before left. -/
theorem outsAt0_C (c : Dev nD) (t : Fin cfg0.N) (h0 : ¬t.val % 32 = 0) (h1 : t.val % 32 = 31) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first tile the two accumulators hold anything; afterwards
    each holds what the tile before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The region's proof data -/

/-- The arrays as the region finds them; after the body at point `t` each input's buffer at its block and the outputs'
    at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body's obligation at a grid point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any grid point: the inputs' buffers hold their blocks; the point is the first tile of a half, a middle
    tile or the last tile of a half, and that case's run applies; the invariant hands the body the accumulators (at
    anything before the very first tile, else at what the tile before left) and takes them back at this tile's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 32 = 0
  · by_cases h1 : t.val % 32 = 31
    · exfalso; omega
    · skip
      rw [show (dats m 0 c).leavesExact 0 t = owns (c : Thread nD τ) (ms0_0 t) fullShare ((dats m 0 c).after 0 t) from by
          unfold Dat.leavesExact; rw [liveAt0_0 t], after0_0]
      rw [show (dats m 0 c).leavesExact 1 t = owns (c : Thread nD τ) (ms0_1 t) fullShare ((dats m 0 c).after 1 t) from by
          unfold Dat.leavesExact; rw [liveAt0_1 t], after0_1]
      rw [show (dats m 0 c).leavesExact 2 t = owns (c : Thread nD τ) (ms0_2 t) fullShare ((dats m 0 c).after 2 t) from by
          unfold Dat.leavesExact; rw [liveAt0_2 t], after0_2]
      rw [show (dats m 0 c).leavesExact 3 t = owns (c : Thread nD τ) (ms0_3 t) fullShare ((dats m 0 c).after 3 t) from by
          unfold Dat.leavesExact; rw [liveAt0_3 t], after0_3]
      rw [show (dats m 0 c).leavesExact 4 t = owns (c : Thread nD τ) (ms0_4 t) fullShare ((dats m 0 c).after 4 t) from by
          unfold Dat.leavesExact; rw [liveAt0_4 t], after0_4]
      rw [Dat.leavesExact_idle (dats m 0 c) 5 t (idleAt0_5 t (fun h => h1 ((hcond0_1 t).mp h))) (noFlush0_5 t (fun h => h1 ((hcond0_1 t).mp h)))]
      rw [Dat.leavesExact_idle (dats m 0 c) 6 t (idleAt0_6 t (fun h => h1 ((hcond0_1 t).mp h))) (noFlush0_6 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
  · have hz : t.val ≠ 0 := fun hz => h0 (by rw [hz])
    by_cases h1 : t.val % 32 = 31
    · skip
      rw [show (dats m 0 c).leavesExact 0 t = owns (c : Thread nD τ) (ms0_0 t) fullShare ((dats m 0 c).after 0 t) from by
          unfold Dat.leavesExact; rw [liveAt0_0 t], after0_0]
      rw [show (dats m 0 c).leavesExact 1 t = owns (c : Thread nD τ) (ms0_1 t) fullShare ((dats m 0 c).after 1 t) from by
          unfold Dat.leavesExact; rw [liveAt0_1 t], after0_1]
      rw [show (dats m 0 c).leavesExact 2 t = owns (c : Thread nD τ) (ms0_2 t) fullShare ((dats m 0 c).after 2 t) from by
          unfold Dat.leavesExact; rw [liveAt0_2 t], after0_2]
      rw [show (dats m 0 c).leavesExact 3 t = owns (c : Thread nD τ) (ms0_3 t) fullShare ((dats m 0 c).after 3 t) from by
          unfold Dat.leavesExact; rw [liveAt0_3 t], after0_3]
      rw [show (dats m 0 c).leavesExact 4 t = owns (c : Thread nD τ) (ms0_4 t) fullShare ((dats m 0 c).after 4 t) from by
          unfold Dat.leavesExact; rw [liveAt0_4 t], after0_4]
      rw [show (dats m 0 c).leavesExact 5 t = owns (c : Thread nD τ) (ms0_5 t) fullShare ((dats m 0 c).after 5 t) from by
          unfold Dat.leavesExact; rw [liveAt0_5 t ((hcond0_1 t).mpr h1)], after0_5]
      rw [show (dats m 0 c).leavesExact 6 t = owns (c : Thread nD τ) (ms0_6 t) fullShare ((dats m 0 c).after 6 t) from by
          unfold Dat.leavesExact; rw [liveAt0_6 t ((hcond0_1 t).mpr h1)], after0_6]
      rw [outsAt0_C m c t h0 h1]
      unfold out0_C_5 out0_C_6 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _)
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _)
    · skip
      rw [show (dats m 0 c).leavesExact 0 t = owns (c : Thread nD τ) (ms0_0 t) fullShare ((dats m 0 c).after 0 t) from by
          unfold Dat.leavesExact; rw [liveAt0_0 t], after0_0]
      rw [show (dats m 0 c).leavesExact 1 t = owns (c : Thread nD τ) (ms0_1 t) fullShare ((dats m 0 c).after 1 t) from by
          unfold Dat.leavesExact; rw [liveAt0_1 t], after0_1]
      rw [show (dats m 0 c).leavesExact 2 t = owns (c : Thread nD τ) (ms0_2 t) fullShare ((dats m 0 c).after 2 t) from by
          unfold Dat.leavesExact; rw [liveAt0_2 t], after0_2]
      rw [show (dats m 0 c).leavesExact 3 t = owns (c : Thread nD τ) (ms0_3 t) fullShare ((dats m 0 c).after 3 t) from by
          unfold Dat.leavesExact; rw [liveAt0_3 t], after0_3]
      rw [show (dats m 0 c).leavesExact 4 t = owns (c : Thread nD τ) (ms0_4 t) fullShare ((dats m 0 c).after 4 t) from by
          unfold Dat.leavesExact; rw [liveAt0_4 t], after0_4]
      rw [Dat.leavesExact_idle (dats m 0 c) 5 t (idleAt0_5 t (fun h => h1 ((hcond0_1 t).mp h))) (noFlush0_5 t (fun h => h1 ((hcond0_1 t).mp h)))]
      rw [Dat.leavesExact_idle (dats m 0 c) 6 t (idleAt0_6 t (fun h => h1 ((hcond0_1 t).mp h))) (noFlush0_6 t (fun h => h1 ((hcond0_1 t).mp h)))]
      rw [outsAt0_B m c t h0 h1]
      unfold sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body obligation at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first tile. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any tile the invariant gives the launch's back: the accumulators' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of the program terminates, and in every final state each array of the region holds
    what the proof data compute and every other unscoped buffer what the later host lines leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame claim at any float instance: the program runs to its end without a fault and its six argument arrays end
    as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.FrameKI.Kit.lean ====
/-
  The program around its one kernel region: the host lines before the region, the region, the host lines after it.
  What each buffer holds when the region is entered (`V`), each window's block at a grid point (`iblk`), that no host
  line writes an argument array, that the later lines touch only buffers the region does not own, the two conditions
  the body branches on (first and last tile of a half, decided over the 64 grid points), and the frame claim's post
  read off a frame run.  Stated at any float instance.
-/
import proofs.«413487_j64269890617637_3_alg».proof.Proof.Gen.KernelIdeal.Launch
import proofs.«413487_j64269890617637_3_alg».proof.Proof.Gen.KernelIdeal.Skeleton
import proofs.«413487_j64269890617637_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The host lines after the region, stretch by stretch. -/
abbrev tailOps : List (List (HloOp τ sig (Elt F))) := [hostOps1, hostOps1_1, hostOps1_2, hostOps1_3, hostOps1_4]

/-- Core `c`'s buffer contents when the region is entered: after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The program reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch only the region's arrays and the buffers that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- No line of this stretch writes an array of the region. -/
theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No line of this stretch writes an array of the region. -/
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No line of this stretch writes an array of the region. -/
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No line of this stretch writes an array of the region. -/
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No line of this stretch writes an array of the region. -/
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- And so none of the later lines writes an array of the region. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- A reference that no later line writes. -/
theorem tail_not_written (b : Ref sig .tc)
    (h0 : (hostOps1 : List (HloOp τ sig (Elt F))).Forall fun op => Proc.devRef .tc b ∉ op.writes)
    (h1 : (hostOps1_1 : List (HloOp τ sig (Elt F))).Forall fun op => Proc.devRef .tc b ∉ op.writes)
    (h2 : (hostOps1_2 : List (HloOp τ sig (Elt F))).Forall fun op => Proc.devRef .tc b ∉ op.writes)
    (h3 : (hostOps1_3 : List (HloOp τ sig (Elt F))).Forall fun op => Proc.devRef .tc b ∉ op.writes)
    (h4 : (hostOps1_4 : List (HloOp τ sig (Elt F))).Forall fun op => Proc.devRef .tc b ∉ op.writes) :
    ∀ op ∈ (tailOps (F := F)).flatten, Proc.devRef (τ := τ) .tc b ∉ op.writes := by
  intro op hop
  simp only [List.flatten_cons, List.flatten_nil, List.append_nil, List.mem_append] at hop
  rcases hop with hop | hop | hop | hop | hop
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop

/-- No host line after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (tail_not_written main_arg1
      (by simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_4, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))]
  rw [Pipeline.withArrays_of_ne _ c (V0 m c) _ main_arg1 (by exact (by decide : ∀ w, Pipeline.arrRef spec0 w ≠ main_arg1))]
  exact V_main_arg1 m c

/-- No host line after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (tail_not_written main_arg2
      (by simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_4, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))]
  rw [Pipeline.withArrays_of_ne _ c (V0 m c) _ main_arg2 (by exact (by decide : ∀ w, Pipeline.arrRef spec0 w ≠ main_arg2))]
  exact V_main_arg2 m c

/-- No host line after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (tail_not_written main_arg3
      (by simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_4, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))]
  rw [Pipeline.withArrays_of_ne _ c (V0 m c) _ main_arg3 (by exact (by decide : ∀ w, Pipeline.arrRef spec0 w ≠ main_arg3))]
  exact V_main_arg3 m c

/-- No host line after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (tail_not_written main_arg4
      (by simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_4, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))]
  rw [Pipeline.withArrays_of_ne _ c (V0 m c) _ main_arg4 (by exact (by decide : ∀ w, Pipeline.arrRef spec0 w ≠ main_arg4))]
  exact V_main_arg4 m c

/-- No host line after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_forall_not_mem (b := Proc.devRef .tc main_arg5) _ _ (tail_not_written main_arg5
      (by simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))
      (by simp only [hostOps1_4, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))]
  rw [Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run to the frame post read at the argument arrays
    (the staged argument as the library computes an input array, the others as the later lines leave a bypassing
    buffer) is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c)⟩) h

/-! ## The body's two branch conditions -/

/-- "This is the first tile of its half": the condition of the branch that zeroes the two accumulators. -/
abbrev cond0_0 (i : grid0.Coords) : Prop := (Scalar.cmpi .ne (Scalar.extui (Scalar.cmpi .eq (BitVec.ofNat 32 (i 1).val) 0#32)) 0#32) = 1#1
/-- It holds at the points 0 and 32. -/
theorem hcond0_0 : ∀ t : Fin cfg0.N, cond0_0 (grid0.coords t) ↔ t.val % 32 = 0 :=
  (by decide +kernel : ∀ t : Fin grid0.N, cond0_0 (grid0.coords t) ↔ t.val % 32 = 0)

/-- "This is the last tile of its half": the condition of the branch that copies the accumulators out. -/
abbrev cond0_1 (i : grid0.Coords) : Prop := k0_cond2 i = 1#1
/-- It holds at the points 31 and 63. -/
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from a half's last tile nothing is stored into output 5, and its block is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At a half's last tile output 5 is stored. -/
theorem liveAt0_5 : ∀ t : Fin cfg0.N, cond0_1 (grid0.coords t) → cfg0.idle 5 (grid0.coords t) = false := by decide +kernel
/-- Away from a half's last tile nothing is stored into output 6, and its block is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At a half's last tile output 6 is stored. -/
theorem liveAt0_6 : ∀ t : Fin cfg0.N, cond0_1 (grid0.coords t) → cfg0.idle 6 (grid0.coords t) = false := by decide +kernel

/-! ## The staging and scratch memrefs -/

/-- One staging buffer of each output window, through which its contents are stated. -/
abbrev VO0_5 : View sig .tc .vmem S1x64x256 .f32 := (Memref.whole cc0_stg5_0 : Memref sig .tc .vmem S1x64x256 .f32).view
abbrev VO0_6 : View sig .tc .vmem S1x64x1 .f32 := (Memref.whole cc0_stg6_0 : Memref sig .tc .vmem S1x64x1 .f32).view
abbrev ms0_0 (t : Fin cfg0.N) : Memref sig .tc .vmem S4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64x1 .f32 := win0_6.stage (cfg0.slots t 6)
abbrev hs0_6 (t : Fin cfg0.N) : (ms0_6 t).IsWhole := hstage0_6 ((cfg0.slots t 6).cast nbuf0_6)
/-- The two accumulators the kernel carries from tile to tile. -/
abbrev scM0_0 : Memref sig .tc .vmem S64x256 .f32 := Memref.whole cc0_scratch0
abbrev scM0_1 : Memref sig .tc .vmem S64x1 .f32 := Memref.whole cc0_scratch1
abbrev VS0_0 : View sig .tc .vmem S64x256 .f32 := scM0_0.view
abbrev VS0_1 : View sig .tc .vmem S64x1 .f32 := scM0_1.view

/-- The region's invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.FrameKI.RunA.lean ====
/-
  The kernel body run once, symbolically, at the first tile of a half (the accumulators are zeroed first, nothing is copied out): on whole staging memrefs, the inputs at their contents, it
  runs to its end holding the inputs as they were and each buffer it stored into with its stored pieces written.  The
  pieces are found by the run itself.  Stated at any float instance.
-/
import proofs.«413487_j64269890617637_3_alg».proof.Proof.FrameKI.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (last first) in the outputs' staging buffers and in the two accumulators at
    the first tile of a half (the accumulators are zeroed first, nothing is copied out), with the proof that the body runs to its end leaving exactly them. -/
noncomputable def kernelRun0_A (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : cond0_0 i) (hc1 : ¬cond0_1 i)
    (x0 : Vec F S4096x256 .f32) (x1 : Vec F S4096x1 .i32) (x2 : Vec F S256x64 .bf16) (x3 : Vec F S1x64 .f32) (x4 : Vec F S1x64 .f32) :
    Σ' (L5 : List (View.Piece (Elt F) S1x64x256 .f32)) (L6 : List (View.Piece (Elt F) S1x64x1 .f32)) (LS0 : List (View.Piece (Elt F) S64x256 .f32)), { LS1 : List (View.Piece (Elt F) S64x1 .f32) //
      ∀ (xi5 : Vec F S1x64x256 .f32) (xi6 : Vec F S1x64x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__scatter_kernel i arg2 harg2 arg3 harg3 arg4 harg4 arg5 harg5 arg6 harg6 arg7 harg7 arg8 harg8 arg9 harg9 arg10 harg10) K } := by
  refine ⟨[], [], ?_, ?_, fun xi5 xi6 E K => ?run⟩
  case run =>
    simp only [cc0__scatter_kernel_eq_skeleton]; unfold cc0__scatter_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Hand

end
-- ==== Proof.FrameKI.RunB.lean ====
/-
  The kernel body run once, symbolically, at a tile that is neither the first nor the last of its half: on whole staging memrefs, the inputs at their contents, it
  runs to its end holding the inputs as they were and each buffer it stored into with its stored pieces written.  The
  pieces are found by the run itself.  Stated at any float instance.
-/
import proofs.«413487_j64269890617637_3_alg».proof.Proof.FrameKI.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (last first) in the outputs' staging buffers and in the two accumulators at
    a tile that is neither the first nor the last of its half, with the proof that the body runs to its end leaving exactly them. -/
noncomputable def kernelRun0_B (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : ¬cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) :
    Σ' (L5 : List (View.Piece (Elt F) S1x64x256 .f32)) (L6 : List (View.Piece (Elt F) S1x64x1 .f32)) (LS0 : List (View.Piece (Elt F) S64x256 .f32)), { LS1 : List (View.Piece (Elt F) S64x1 .f32) //
      ∀ (xi5 : Vec F S1x64x256 .f32) (xi6 : Vec F S1x64x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__scatter_kernel i arg2 harg2 arg3 harg3 arg4 harg4 arg5 harg5 arg6 harg6 arg7 harg7 arg8 harg8 arg9 harg9 arg10 harg10) K } := by
  refine ⟨[], [], ?_, ?_, fun xi5 xi6 E K => ?run⟩
  case run =>
    simp only [cc0__scatter_kernel_eq_skeleton]; unfold cc0__scatter_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Hand

end
-- ==== Proof.FrameKI.RunC.lean ====
/-
  The kernel body run once, symbolically, at the last tile of a half (the accumulators are copied to the two outputs): on whole staging memrefs, the inputs at their contents, it
  runs to its end holding the inputs as they were and each buffer it stored into with its stored pieces written.  The
  pieces are found by the run itself.  Stated at any float instance.
-/
import proofs.«413487_j64269890617637_3_alg».proof.Proof.FrameKI.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave (last first) in the outputs' staging buffers and in the two accumulators at
    the last tile of a half (the accumulators are copied to the two outputs), with the proof that the body runs to its end leaving exactly them. -/
noncomputable def kernelRun0_C (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) :
    Σ' (L5 : List (View.Piece (Elt F) S1x64x256 .f32)) (L6 : List (View.Piece (Elt F) S1x64x1 .f32)) (LS0 : List (View.Piece (Elt F) S64x256 .f32)), { LS1 : List (View.Piece (Elt F) S64x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__scatter_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__scatter_kernel_eq_skeleton]; unfold cc0__scatter_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    iexists _; iexact HS1

end Cert.KernelIdeal.Hand

end
-- ==== Proof.FrameKI.Frame.lean ====
/-
  What the two accumulators and the two output buffers hold after each tile, tile by tile; the proof data of the
  region; the body's obligation at every grid point (three cases: first tile of a half, a middle tile, last tile of a
  half); the run of the whole program; and the frame claim.  Stated at any float instance.
-/
import proofs.«413487_j64269890617637_3_alg».proof.Proof.FrameKI.RunA
import proofs.«413487_j64269890617637_3_alg».proof.Proof.FrameKI.RunB
import proofs.«413487_j64269890617637_3_alg».proof.Proof.FrameKI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the tile leaves in output 5's staging buffer (nothing is stored here at this tile: a placeholder nothing consults). -/
def out0_A_5 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : cond0_0 i) (hc1 : ¬cond0_1 i)
    (x0 : Vec F S4096x256 .f32) (x1 : Vec F S4096x1 .i32) (x2 : Vec F S256x64 .bf16) (x3 : Vec F S1x64 .f32) (x4 : Vec F S1x64 .f32) : Vec F S1x64x256 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 hc0 hc1 x0 x1 x2 x3 x4).1)
/-- What the tile leaves in output 6's staging buffer (nothing is stored here at this tile: a placeholder nothing consults). -/
def out0_A_6 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : cond0_0 i) (hc1 : ¬cond0_1 i)
    (x0 : Vec F S4096x256 .f32) (x1 : Vec F S4096x1 .i32) (x2 : Vec F S256x64 .bf16) (x3 : Vec F S1x64 .f32) (x4 : Vec F S1x64 .f32) : Vec F S1x64x1 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4).2.1)
/-- The stored pieces cover the first accumulator. -/
theorem scover0_A_0 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : cond0_0 i) (hc1 : ¬cond0_1 i)
    (x0 : Vec F S4096x256 .f32) (x1 : Vec F S4096x1 .i32) (x2 : Vec F S256x64 .bf16) (x3 : Vec F S1x64 .f32) (x4 : Vec F S1x64 .f32) (y : S64x256.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.2.1 S64x256.size (by sl_kernel_rfl) y
/-- The stored pieces cover the second accumulator. -/
theorem scover0_A_1 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : cond0_0 i) (hc1 : ¬cond0_1 i)
    (x0 : Vec F S4096x256 .f32) (x1 : Vec F S4096x1 .i32) (x2 : Vec F S256x64 .bf16) (x3 : Vec F S1x64 .f32) (x4 : Vec F S1x64 .f32) (y : S64x1.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.2.2.1 S64x1.size (by sl_kernel_rfl) y
/-- What the tile leaves in the first accumulator: its pieces read back. -/
def sout0_A_0 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : cond0_0 i) (hc1 : ¬cond0_1 i)
    (x0 : Vec F S4096x256 .f32) (x1 : Vec F S4096x1 .i32) (x2 : Vec F S256x64 .bf16) (x3 : Vec F S1x64 .f32) (x4 : Vec F S1x64 .f32) : Vec F S64x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4).2.2.1)
/-- What the tile leaves in the second accumulator: its pieces read back. -/
def sout0_A_1 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : cond0_0 i) (hc1 : ¬cond0_1 i)
    (x0 : Vec F S4096x256 .f32) (x1 : Vec F S4096x1 .i32) (x2 : Vec F S256x64 .bf16) (x3 : Vec F S1x64 .f32) (x4 : Vec F S1x64 .f32) : Vec F S64x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3 x4).2.2.2.1)

/-- What the tile leaves in output 5's staging buffer (nothing is stored here at this tile: a placeholder nothing consults). -/
def out0_B_5 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : ¬cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) : Vec F S1x64x256 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 hc0 hc1 x0 x1 x2 x3 x4 xs0 xs1).1)
/-- What the tile leaves in output 6's staging buffer (nothing is stored here at this tile: a placeholder nothing consults). -/
def out0_B_6 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : ¬cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) : Vec F S1x64x1 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 xs0 xs1).2.1)
/-- The stored pieces cover the first accumulator. -/
theorem scover0_B_0 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : ¬cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) (y : S64x256.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0 xs1).2.2.1 S64x256.size (by sl_kernel_rfl) y
/-- The stored pieces cover the second accumulator. -/
theorem scover0_B_1 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : ¬cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) (y : S64x1.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0 xs1).2.2.2.1 S64x1.size (by sl_kernel_rfl) y
/-- What the tile leaves in the first accumulator: its pieces read back. -/
def sout0_B_0 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : ¬cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) : Vec F S64x256 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 xs0 xs1).2.2.1)
/-- What the tile leaves in the second accumulator: its pieces read back. -/
def sout0_B_1 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : ¬cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) : Vec F S64x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 x4 xs0 xs1).2.2.2.1)

theorem cover0_C_5 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) (y : S1x64x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0 xs1).1 S1x64x256.size (by sl_kernel_rfl) y
theorem cover0_C_6 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) (y : S1x64x1.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0 xs1).2.1 S1x64x1.size (by sl_kernel_rfl) y
/-- What the tile leaves in output 5's staging buffer (its pieces read back). -/
def out0_C_5 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) : Vec F S1x64x256 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 x4 xs0 xs1).1)
/-- What the tile leaves in output 6's staging buffer (its pieces read back). -/
def out0_C_6 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) : Vec F S1x64x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 xs0 xs1).2.1)
/-- The stored pieces cover the first accumulator. -/
theorem scover0_C_0 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) (y : S64x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0 xs1).2.2.1 S64x256.size (by sl_kernel_rfl) y
/-- The stored pieces cover the second accumulator. -/
theorem scover0_C_1 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) (y : S64x1.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0 xs1).2.2.2.1 S64x1.size (by sl_kernel_rfl) y
/-- What the tile leaves in the first accumulator: its pieces read back. -/
def sout0_C_0 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) : Vec F S64x256 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 xs0 xs1).2.2.1)
/-- What the tile leaves in the second accumulator: its pieces read back. -/
def sout0_C_1 (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) : Vec F S64x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 x4 xs0 xs1).2.2.2.1)

/-! ## What the buffers hold after each tile -/

/-- After the tile at position `n`: output 5's and output 6's staging buffers, then the two accumulators.  The first
    tile of a half starts the accumulators afresh; every other tile continues from what the tile before left. -/
def outsAt0 (c : Dev nD) : (n : ℕ) → n < cfg0.N → Vec F S1x64x256 .f32 × Vec F S1x64x1 .f32 × Vec F S64x256 .f32 × Vec F S64x1 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 32 = 0 then
      if h1 : (n + 1) % 32 = 31 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 32 = 31 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)

/-- At the first tile of a half. -/
theorem outsAt0_A (c : Dev nD) (t : Fin cfg0.N) (h0 : t.val % 32 = 0) (h1 : ¬t.val % 32 = 31) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- At a middle tile: over what the tile before left. -/
theorem outsAt0_B (c : Dev nD) (t : Fin cfg0.N) (h0 : ¬t.val % 32 = 0) (h1 : ¬t.val % 32 = 31) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At the last tile of a half: over what the tile before left. -/
theorem outsAt0_C (c : Dev nD) (t : Fin cfg0.N) (h0 : ¬t.val % 32 = 0) (h1 : t.val % 32 = 31) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first tile the two accumulators hold anything; afterwards
    each holds what the tile before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The region's proof data -/

/-- The arrays as the region finds them; after the body at point `t` each input's buffer at its block and the outputs'
    at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body's obligation at a grid point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any grid point: the inputs' buffers hold their blocks; the point is the first tile of a half, a middle
    tile or the last tile of a half, and that case's run applies; the invariant hands the body the accumulators (at
    anything before the very first tile, else at what the tile before left) and takes them back at this tile's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 32 = 0
  · by_cases h1 : t.val % 32 = 31
    · exfalso; omega
    · skip
      rw [show (dats m 0 c).leavesExact 0 t = owns (c : Thread nD τ) (ms0_0 t) fullShare ((dats m 0 c).after 0 t) from by
          unfold Dat.leavesExact; rw [liveAt0_0 t], after0_0]
      rw [show (dats m 0 c).leavesExact 1 t = owns (c : Thread nD τ) (ms0_1 t) fullShare ((dats m 0 c).after 1 t) from by
          unfold Dat.leavesExact; rw [liveAt0_1 t], after0_1]
      rw [show (dats m 0 c).leavesExact 2 t = owns (c : Thread nD τ) (ms0_2 t) fullShare ((dats m 0 c).after 2 t) from by
          unfold Dat.leavesExact; rw [liveAt0_2 t], after0_2]
      rw [show (dats m 0 c).leavesExact 3 t = owns (c : Thread nD τ) (ms0_3 t) fullShare ((dats m 0 c).after 3 t) from by
          unfold Dat.leavesExact; rw [liveAt0_3 t], after0_3]
      rw [show (dats m 0 c).leavesExact 4 t = owns (c : Thread nD τ) (ms0_4 t) fullShare ((dats m 0 c).after 4 t) from by
          unfold Dat.leavesExact; rw [liveAt0_4 t], after0_4]
      rw [Dat.leavesExact_idle (dats m 0 c) 5 t (idleAt0_5 t (fun h => h1 ((hcond0_1 t).mp h))) (noFlush0_5 t (fun h => h1 ((hcond0_1 t).mp h)))]
      rw [Dat.leavesExact_idle (dats m 0 c) 6 t (idleAt0_6 t (fun h => h1 ((hcond0_1 t).mp h))) (noFlush0_6 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
  · have hz : t.val ≠ 0 := fun hz => h0 (by rw [hz])
    by_cases h1 : t.val % 32 = 31
    · skip
      rw [show (dats m 0 c).leavesExact 0 t = owns (c : Thread nD τ) (ms0_0 t) fullShare ((dats m 0 c).after 0 t) from by
          unfold Dat.leavesExact; rw [liveAt0_0 t], after0_0]
      rw [show (dats m 0 c).leavesExact 1 t = owns (c : Thread nD τ) (ms0_1 t) fullShare ((dats m 0 c).after 1 t) from by
          unfold Dat.leavesExact; rw [liveAt0_1 t], after0_1]
      rw [show (dats m 0 c).leavesExact 2 t = owns (c : Thread nD τ) (ms0_2 t) fullShare ((dats m 0 c).after 2 t) from by
          unfold Dat.leavesExact; rw [liveAt0_2 t], after0_2]
      rw [show (dats m 0 c).leavesExact 3 t = owns (c : Thread nD τ) (ms0_3 t) fullShare ((dats m 0 c).after 3 t) from by
          unfold Dat.leavesExact; rw [liveAt0_3 t], after0_3]
      rw [show (dats m 0 c).leavesExact 4 t = owns (c : Thread nD τ) (ms0_4 t) fullShare ((dats m 0 c).after 4 t) from by
          unfold Dat.leavesExact; rw [liveAt0_4 t], after0_4]
      rw [show (dats m 0 c).leavesExact 5 t = owns (c : Thread nD τ) (ms0_5 t) fullShare ((dats m 0 c).after 5 t) from by
          unfold Dat.leavesExact; rw [liveAt0_5 t ((hcond0_1 t).mpr h1)], after0_5]
      rw [show (dats m 0 c).leavesExact 6 t = owns (c : Thread nD τ) (ms0_6 t) fullShare ((dats m 0 c).after 6 t) from by
          unfold Dat.leavesExact; rw [liveAt0_6 t ((hcond0_1 t).mpr h1)], after0_6]
      rw [outsAt0_C m c t h0 h1]
      unfold out0_C_5 out0_C_6 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _)
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _)
    · skip
      rw [show (dats m 0 c).leavesExact 0 t = owns (c : Thread nD τ) (ms0_0 t) fullShare ((dats m 0 c).after 0 t) from by
          unfold Dat.leavesExact; rw [liveAt0_0 t], after0_0]
      rw [show (dats m 0 c).leavesExact 1 t = owns (c : Thread nD τ) (ms0_1 t) fullShare ((dats m 0 c).after 1 t) from by
          unfold Dat.leavesExact; rw [liveAt0_1 t], after0_1]
      rw [show (dats m 0 c).leavesExact 2 t = owns (c : Thread nD τ) (ms0_2 t) fullShare ((dats m 0 c).after 2 t) from by
          unfold Dat.leavesExact; rw [liveAt0_2 t], after0_2]
      rw [show (dats m 0 c).leavesExact 3 t = owns (c : Thread nD τ) (ms0_3 t) fullShare ((dats m 0 c).after 3 t) from by
          unfold Dat.leavesExact; rw [liveAt0_3 t], after0_3]
      rw [show (dats m 0 c).leavesExact 4 t = owns (c : Thread nD τ) (ms0_4 t) fullShare ((dats m 0 c).after 4 t) from by
          unfold Dat.leavesExact; rw [liveAt0_4 t], after0_4]
      rw [Dat.leavesExact_idle (dats m 0 c) 5 t (idleAt0_5 t (fun h => h1 ((hcond0_1 t).mp h))) (noFlush0_5 t (fun h => h1 ((hcond0_1 t).mp h)))]
      rw [Dat.leavesExact_idle (dats m 0 c) 6 t (idleAt0_6 t (fun h => h1 ((hcond0_1 t).mp h))) (noFlush0_6 t (fun h => h1 ((hcond0_1 t).mp h)))]
      rw [outsAt0_B m c t h0 h1]
      unfold sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body obligation at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first tile. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any tile the invariant gives the launch's back: the accumulators' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of the program terminates, and in every final state each array of the region holds
    what the proof data compute and every other unscoped buffer what the later host lines leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame claim at any float instance: the program runs to its end without a fault and its six argument arrays end
    as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.RefTail.lean ====
/-
  The reference's last lines as one function.  After the two scatters the reference reads its inputs only through the
  new centroids (64×256), the new per-class distance sums (64×1), the class counts and the class weights: from these it
  forms each class's spread (the square root of its distance sum over its count), the table of distances between
  centroids, the weighted sum over ordered pairs of distinct classes of (spread_a + spread_b) / distance, scaled by
  63/64, and adds the centroids' absolute sum over 10⁶.  `tailR` is that function, operation by operation; the last
  value of the reference is `tailR` of the two scattered arrays.  Stated at any float instance.
-/
import proofs.«413487_j64269890617637_3_alg».proof.Proof.Gen.ReferenceIdeal.Read

noncomputable section

namespace Cert.ReferenceIdeal.RefVal

open Cert.ReferenceIdeal Cert.ReferenceIdeal.Gen Idealize.ShloMosaic Idealize.ShloMosaic.TcCoe Idealize.SL.Sem Idealize.ShloMosaic.StableHlo

variable {F : FTy → Type} [FloatOps F]

/-- The reference's lines after the two scatters, as a function of the new centroids `cn`, the new distance sums `sr`,
    the counts `x3` and the class weights `x4`. -/
def tailR (cn : FVec F S64x256 .f32) (sr x3 : FVec F S64x1 .f32) (x4 : FVec F S64x64 .f32) : FVec F S_ .f32 :=
  -- the cluster spreads: square root of each class's distance sum, over its count
  let dsq : FVec F S64x1 .f32 := Host.sqrt sr
  let spr : FVec F S64x1 .f32 := Host.divf dsq x3
  -- squared norms of the centroids, along rows and along columns of a 64×64 table
  let sqc : FVec F S64x256 .f32 := mulf cn cn
  let z0 : FVec F S_ .f32 := constant S_ .f32 0x00000000#32
  let nrm : FVec F S64 .f32 := Host.reduceAdd sqc z0 reducesTo_S64x256_S64_d1 h_S_
  let nrmC : FVec F S64x1 .f32 := broadcastInDim S64x1 ![0] bcast_S64_S64x1_0 nrm
  let nrmR : FVec F S1x64 .f32 := broadcastInDim S1x64 ![1] bcast_S64_S1x64_1 nrm
  let nrmCC : FVec F S64x64 .f32 := broadcastInDim S64x64 ![0, 1] bcast_S64x1_S64x64_0_1 nrmC
  let nrmRR : FVec F S64x64 .f32 := broadcastInDim S64x64 ![0, 1] bcast_S1x64_S64x64_0_1 nrmR
  let nsum : FVec F S64x64 .f32 := addf nrmCC nrmRR
  -- the Gram matrix of the centroids and the squared distances |a|² + |b|² − 2⟨a,b⟩, clamped at 0
  let cnT : FVec F S256x64 .f32 := transpose S256x64 [1, 0] cn transposes_S64x256_S256x64_1_0
  let gram : FVec F S64x64 .f32 := Host.dotGeneral dot_S64x256_S256x64_S64x64_1_0_0_1_n_n none cn cnT
  let two : FVec F S_ .f32 := constant S_ .f32 0x40000000#32
  let twoB : FVec F S64x64 .f32 := broadcastInDim S64x64 ![] bcast_S_S64x64 two
  let gram2 : FVec F S64x64 .f32 := mulf twoB gram
  let d2 : FVec F S64x64 .f32 := subf nsum gram2
  let z1 : FVec F S_ .f32 := constant S_ .f32 0x00000000#32
  let z1B : FVec F S64x64 .f32 := broadcastInDim S64x64 ![] bcast_S_S64x64 z1
  let d2p : FVec F S64x64 .f32 := maximumf d2 z1B
  -- the off-diagonal mask
  let io0 : IVec S64x64 32 := iotaInDim S64x64 32 0
  let io1 : IVec S64x64 32 := iotaInDim S64x64 32 1
  let c0 : IVec S_ 32 := constantI S_ 32 0#32
  let c0B : IVec S64x64 32 := broadcastInDim S64x64 ![] bcast_S_S64x64 c0
  let io0s : IVec S64x64 32 := addi io0 c0B
  let diag : IVec S64x64 1 := cmpi .eq io0s io1
  let off : IVec S64x64 1 := noti diag
  -- centroid distances, 1 on the diagonal
  let one : FVec F S_ .f32 := constant S_ .f32 0x3F800000#32
  let one' : FVec F S_ .f32 := id one
  let oneB : FVec F S64x64 .f32 := broadcastInDim S64x64 ![] bcast_S_S64x64 one'
  let d2s : FVec F S64x64 .f32 := select off d2p oneB
  let dist : FVec F S64x64 .f32 := Host.sqrt d2s
  -- weighted (spread_a + spread_b) / distance, 0 on the diagonal
  let sprT : FVec F S1x64 .f32 := transpose S1x64 [1, 0] spr transposes_S64x1_S1x64_1_0
  let sprC : FVec F S64x64 .f32 := broadcastInDim S64x64 ![0, 1] bcast_S64x1_S64x64_0_1 spr
  let sprR : FVec F S64x64 .f32 := broadcastInDim S64x64 ![0, 1] bcast_S1x64_S64x64_0_1 sprT
  let ssum : FVec F S64x64 .f32 := addf sprC sprR
  let wss : FVec F S64x64 .f32 := mulf x4 ssum
  let ratio : FVec F S64x64 .f32 := Host.divf wss dist
  let z2 : FVec F S_ .f32 := constant S_ .f32 0x00000000#32
  let z2' : FVec F S_ .f32 := id z2
  let z2B : FVec F S64x64 .f32 := broadcastInDim S64x64 ![] bcast_S_S64x64 z2'
  let rsel : FVec F S64x64 .f32 := select off ratio z2B
  -- its total over the table, divided by 64 and multiplied by 63
  let z3 : FVec F S_ .f32 := constant S_ .f32 0x00000000#32
  let tot : FVec F S_ .f32 := Host.reduceAdd rsel z3 reducesTo_S64x64_S_d0_1 h_S_
  let c64 : FVec F S_ .f32 := constant S_ .f32 0x42800000#32
  let mean : FVec F S_ .f32 := Host.divf tot c64
  let c63 : FVec F S_ .f32 := constant S_ .f32 0x427C0000#32
  let sep : FVec F S_ .f32 := mulf mean c63
  -- the sum of the centroids' absolute entries over 10⁶
  let ab : FVec F S64x256 .f32 := Host.absf cn
  let z4 : FVec F S_ .f32 := constant S_ .f32 0x00000000#32
  let l1 : FVec F S_ .f32 := Host.reduceAdd ab z4 reducesTo_S64x256_S_d0_1 h_S_
  let cM : FVec F S_ .f32 := constant S_ .f32 0x49742400#32
  let reg : FVec F S_ .f32 := Host.divf l1 cM
  addf sep reg

open Cert.ReferenceIdeal.Read in
/-- The reference's last value is `tailR` of the two scattered arrays, the counts and the weights. -/
theorem v70_eq_tail (x0 : FVec F S262144x256 .f32) (x1 : FVec F S64x256 .f32) (x2 x3 : FVec F S64x1 .f32) (x4 : FVec F S64x64 .f32) (x5 : IVec S262144 32) :
    Cert.ReferenceIdeal.Read.val_main_v70 (F := F) x0 x1 x2 x3 x4 x5
      = tailR (Cert.ReferenceIdeal.Read.val_main_v22 (F := F) x0 x1 x3 x5) (Cert.ReferenceIdeal.Read.val_main_v32 (F := F) x0 x1 x2 x3 x5) x3 x4 := by
  simp only [val_main_v70, val_main_v69, val_main_v68, val_main_v67, val_main_v66, val_main_v65, val_main_v64, val_main_v63,
    val_main_v62, val_main_v61, val_main_v60, val_main_v59, val_main_v58, val_main_v57, val_main_v56, val_main_v55, val_main_v54,
    val_main_v53, val_main_v52, val_main_v51, val_main_v50, val_main_v49, val_main_v48, val_main_v47, val_main_v46, val_main_v45,
    val_main_v44, val_main_v43, val_main_v42, val_main_v41, val_main_v40, val_main_v39, val_main_v38, val_main_v37, val_main_v36,
    val_main_v35, val_main_v34, val_main_v33, val_main_cst, val_main_cst_7, val_main_cst_8, val_main_c_9, val_main_cst_10,
    val_main_cst_11, val_main_cst_12, val_main_cst_13, val_main_cst_14, val_main_cst_15, val_main_cst_16, val_main_call1_v0,
    val_main_call1_v1, val_main_call2_v0, val_main_call2_v1]
  generalize val_main_v22 (F := F) x0 x1 x3 x5 = cn
  generalize val_main_v32 (F := F) x0 x1 x2 x3 x5 = sr
  rfl

end Cert.ReferenceIdeal.RefVal

end
-- ==== Proof.KValue.Tail.lean ====
/-
  The kernel program's host lines after its region as one function.  The region leaves two arrays of two halves each
  (the per-class sums of the scaled points, 2×64×256, and the per-class sums of distances, 2×64×1); the first lines
  after it add the two halves of each to the old centroids and the old distance sums (`cnK`, `srK`); every later line
  reads the inputs only through these two, the class counts and the class weights, and is the same operation as the
  corresponding last line of the reference (`tailK`, equal to the reference's `tailR`).  Stated at any float instance;
  the two half-sums are read at an index at the ideal instance.
-/
import proofs.«413487_j64269890617637_3_alg».proof.Proof.FrameKI.Kit
import proofs.«413487_j64269890617637_3_alg».proof.Proof.RefTail
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.ValueIdx
open Cert.KernelIdeal Cert.KernelIdeal.Gen Cert.KernelIdeal.Hand

variable {F : FTy → Type} [FloatOps F]

/-! ## The three functions -/

/-- The new centroids: the old ones plus the two halves of the region's first output. -/
def cnK (a1 : FVec F S64x256 .f32) (o5 : FVec F S2x64x256 .f32) : FVec F S64x256 .f32 :=
  addf (addf a1 (shapeCast S64x256 (extractStridedSlice S1x64x256 ![0, 0, 0] o5 slices_S2x64x256_S1x64x256_0_0_0) shapeCasts_S1x64x256_S64x256))
    (shapeCast S64x256 (extractStridedSlice S1x64x256 ![1, 0, 0] o5 slices_S2x64x256_S1x64x256_1_0_0) shapeCasts_S1x64x256_S64x256)

/-- The new distance sums: the old ones plus the two halves of the region's second output. -/
def srK (a2 : FVec F S64x1 .f32) (o6 : FVec F S2x64x1 .f32) : FVec F S64x1 .f32 :=
  addf (addf a2 (shapeCast S64x1 (extractStridedSlice S1x64x1 ![0, 0, 0] o6 slices_S2x64x1_S1x64x1_0_0_0) shapeCasts_S1x64x1_S64x1))
    (shapeCast S64x1 (extractStridedSlice S1x64x1 ![1, 0, 0] o6 slices_S2x64x1_S1x64x1_1_0_0) shapeCasts_S1x64x1_S64x1)

/-- The lines after these, as a function of the new centroids `cn`, the new distance sums `sr`, the counts `x3` and the
    class weights `x4`. -/
def tailK (cn : FVec F S64x256 .f32) (sr x3 : FVec F S64x1 .f32) (x4 : FVec F S64x64 .f32) : FVec F S_ .f32 :=
  -- the cluster spreads: square root of each class's distance sum, over its count
  let dsq : FVec F S64x1 .f32 := Host.sqrt sr
  let spr : FVec F S64x1 .f32 := Host.divf dsq x3
  -- squared norms of the centroids, along rows and along columns of a 64×64 table
  let sqc : FVec F S64x256 .f32 := mulf cn cn
  let z0 : FVec F S_ .f32 := constant S_ .f32 0x00000000#32
  let nrm : FVec F S64 .f32 := Host.reduceAdd sqc z0 reducesTo_S64x256_S64_d1 h_S_
  let nrmC : FVec F S64x1 .f32 := broadcastInDim S64x1 ![0] bcast_S64_S64x1_0 nrm
  let nrmR : FVec F S1x64 .f32 := broadcastInDim S1x64 ![1] bcast_S64_S1x64_1 nrm
  let nrmCC : FVec F S64x64 .f32 := broadcastInDim S64x64 ![0, 1] bcast_S64x1_S64x64_0_1 nrmC
  let nrmRR : FVec F S64x64 .f32 := broadcastInDim S64x64 ![0, 1] bcast_S1x64_S64x64_0_1 nrmR
  let nsum : FVec F S64x64 .f32 := addf nrmCC nrmRR
  -- the Gram matrix of the centroids and the squared distances |a|² + |b|² − 2⟨a,b⟩, clamped at 0
  let cnT : FVec F S256x64 .f32 := transpose S256x64 [1, 0] cn transposes_S64x256_S256x64_1_0
  let gram : FVec F S64x64 .f32 := Host.dotGeneral dot_S64x256_S256x64_S64x64_1_0_0_1_n_n none cn cnT
  let two : FVec F S_ .f32 := constant S_ .f32 0x40000000#32
  let twoB : FVec F S64x64 .f32 := broadcastInDim S64x64 ![] bcast_S_S64x64 two
  let gram2 : FVec F S64x64 .f32 := mulf twoB gram
  let d2 : FVec F S64x64 .f32 := subf nsum gram2
  let z1 : FVec F S_ .f32 := constant S_ .f32 0x00000000#32
  let z1B : FVec F S64x64 .f32 := broadcastInDim S64x64 ![] bcast_S_S64x64 z1
  let d2p : FVec F S64x64 .f32 := maximumf d2 z1B
  -- the off-diagonal mask
  let io0 : IVec S64x64 32 := iotaInDim S64x64 32 0
  let io1 : IVec S64x64 32 := iotaInDim S64x64 32 1
  let c0 : IVec S_ 32 := constantI S_ 32 0#32
  let c0B : IVec S64x64 32 := broadcastInDim S64x64 ![] bcast_S_S64x64 c0
  let io0s : IVec S64x64 32 := addi io0 c0B
  let diag : IVec S64x64 1 := cmpi .eq io0s io1
  let off : IVec S64x64 1 := noti diag
  -- centroid distances, 1 on the diagonal
  let one : FVec F S_ .f32 := constant S_ .f32 0x3F800000#32
  let one' : FVec F S_ .f32 := id one
  let oneB : FVec F S64x64 .f32 := broadcastInDim S64x64 ![] bcast_S_S64x64 one'
  let d2s : FVec F S64x64 .f32 := select off d2p oneB
  let dist : FVec F S64x64 .f32 := Host.sqrt d2s
  -- weighted (spread_a + spread_b) / distance, 0 on the diagonal
  let sprT : FVec F S1x64 .f32 := transpose S1x64 [1, 0] spr transposes_S64x1_S1x64_1_0
  let sprC : FVec F S64x64 .f32 := broadcastInDim S64x64 ![0, 1] bcast_S64x1_S64x64_0_1 spr
  let sprR : FVec F S64x64 .f32 := broadcastInDim S64x64 ![0, 1] bcast_S1x64_S64x64_0_1 sprT
  let ssum : FVec F S64x64 .f32 := addf sprC sprR
  let wss : FVec F S64x64 .f32 := mulf x4 ssum
  let ratio : FVec F S64x64 .f32 := Host.divf wss dist
  let z2 : FVec F S_ .f32 := constant S_ .f32 0x00000000#32
  let z2' : FVec F S_ .f32 := id z2
  let z2B : FVec F S64x64 .f32 := broadcastInDim S64x64 ![] bcast_S_S64x64 z2'
  let rsel : FVec F S64x64 .f32 := select off ratio z2B
  -- its total over the table, divided by 64 and multiplied by 63
  let z3 : FVec F S_ .f32 := constant S_ .f32 0x00000000#32
  let tot : FVec F S_ .f32 := Host.reduceAdd rsel z3 reducesTo_S64x64_S_d0_1 h_S_
  let c64 : FVec F S_ .f32 := constant S_ .f32 0x42800000#32
  let mean : FVec F S_ .f32 := Host.divf tot c64
  let c63 : FVec F S_ .f32 := constant S_ .f32 0x427C0000#32
  let sep : FVec F S_ .f32 := mulf mean c63
  -- the sum of the centroids' absolute entries over 10⁶
  let ab : FVec F S64x256 .f32 := Host.absf cn
  let z4 : FVec F S_ .f32 := constant S_ .f32 0x00000000#32
  let l1 : FVec F S_ .f32 := Host.reduceAdd ab z4 reducesTo_S64x256_S_d0_1 h_S_
  let cM : FVec F S_ .f32 := constant S_ .f32 0x49742400#32
  let reg : FVec F S_ .f32 := Host.divf l1 cM
  addf sep reg

/-! ## The program's last value -/

section Value

variable (m : (ℓ : Loc nD τ sig) → Buf (Elt F) ℓ)
  (dats : (p : Fin 1) → (c : Dev nD) → Pipeline.Dat τ (Elt F) Unit ℕ (UR sig nD τ) ℕ (cfgs p) c) (c : Dev nD)

/-- What the later lines find: the region's arrays as the region leaves them, every other buffer as it was entered. -/
abbrev W0 : Valuation τ sig (Elt F) :=
  Pipeline.withArrays (cfgs 0).spec c (V0 m c) fun w => (dats 0 c).arrAt w (cfgs 0).N

theorem W0_out5 : W0 m dats c (Proc.devRef .tc main_v10_0) = (dats 0 c).arrAt 5 cfg0.N :=
  Pipeline.withArrays_arr spec0 launch0.win.arr_inj c _ _ 5
theorem W0_out6 : W0 m dats c (Proc.devRef .tc main_v10_1) = (dats 0 c).arrAt 6 cfg0.N :=
  Pipeline.withArrays_arr spec0 launch0.win.arr_inj c _ _ 6
theorem W0_arg1 : W0 m dats c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)
theorem W0_arg2 : W0 m dats c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)
theorem W0_arg3 : W0 m dats c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)
theorem W0_arg4 : W0 m dats c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)

/-- The later lines, run from any contents `W`, leave in their last buffer `tailK` of the two sums formed from `W`'s
    arguments and the region's two outputs. -/
theorem tail_of (W : Valuation τ sig (Elt F)) :
    StableHlo.after (List.flatten (tailOps (F := F))) W (Proc.devRef .tc main_v60)
      = tailK (cnK (W (Proc.devRef .tc main_arg1)) (W (Proc.devRef .tc main_v10_0))) (srK (W (Proc.devRef .tc main_arg2)) (W (Proc.devRef .tc main_v10_1)))
          (W (Proc.devRef .tc main_arg3)) (W (Proc.devRef .tc main_arg4)) := by
  simp only [tailOps, hostOps1, hostOps1_1, hostOps1_2, hostOps1_3, hostOps1_4, List.flatten_cons, List.flatten_nil, List.append_nil,
    List.cons_append, List.nil_append]
  after_results_simp <;> (try simp only [StableHlo.TRef.ofBuf, StableHlo.TRef.toBuf, cast_eq]) <;> rfl

/-- The program's last value. -/
theorem tail_value : Pipeline.afterTail₀ cfgs dats 0 (V0 m) tailOps c main_v60
    = tailK (cnK (m ((c : Thread nD τ).loc main_arg1)) ((dats 0 c).arrAt 5 cfg0.N)) (srK (m ((c : Thread nD τ).loc main_arg2)) ((dats 0 c).arrAt 6 cfg0.N))
        (m ((c : Thread nD τ).loc main_arg3)) (m ((c : Thread nD τ).loc main_arg4)) := by
  unfold Pipeline.afterTail₀
  refine (tail_of (W0 m dats c)).trans ?_
  rw [W0_out5 m dats c, W0_out6 m dats c, W0_arg1 m dats c, W0_arg2 m dats c, W0_arg3 m dats c, W0_arg4 m dats c]

end Value

/-! ## The same lines as the reference's -/

/-- Line by line the kernel program's last lines are the reference's. -/
theorem tailK_eq_tailR (cn : FVec F S64x256 .f32) (sr x3 : FVec F S64x1 .f32) (x4 : FVec F S64x64 .f32) :
    tailK cn sr x3 x4 = Cert.ReferenceIdeal.RefVal.tailR cn sr x3 x4 := rfl

/-! ## The two sums at an index -/

theorem cnK_apply (a1 : FVec Ideal S64x256 .f32) (o5 : FVec Ideal S2x64x256 .f32) (k : Fin 64) (d : Fin 256) :
    cnK (F := Ideal) a1 o5 (ix2 k d) = (a1 (ix2 k d) + o5 (ix3 (0 : Fin 2) k d)) + o5 (ix3 (1 : Fin 2) k d) := by
  have h0 : shapeCast S64x256 (extractStridedSlice S1x64x256 ![0, 0, 0] o5 slices_S2x64x256_S1x64x256_0_0_0) shapeCasts_S1x64x256_S64x256 (ix2 k d)
      = o5 (ix3 (0 : Fin 2) k d) := by
    refine (shapeCast_apply _ shapeCasts_S1x64x256_S64x256 (ix2 k d) (ix3 (0 : Fin 1) k d) ?_).trans ?_
    · rw [Shape.rowMajor_val_three, Shape.rowMajor_val_two]; simp only [ix2, ix3]; simp
    · exact extractStridedSlice_apply _ o5 slices_S2x64x256_S1x64x256_0_0_0 _ (ix3 (0 : Fin 2) k d) (fun a => by fin_cases a <;> simp [ix3])
  have h1 : shapeCast S64x256 (extractStridedSlice S1x64x256 ![1, 0, 0] o5 slices_S2x64x256_S1x64x256_1_0_0) shapeCasts_S1x64x256_S64x256 (ix2 k d)
      = o5 (ix3 (1 : Fin 2) k d) := by
    refine (shapeCast_apply _ shapeCasts_S1x64x256_S64x256 (ix2 k d) (ix3 (0 : Fin 1) k d) ?_).trans ?_
    · rw [Shape.rowMajor_val_three, Shape.rowMajor_val_two]; simp only [ix2, ix3]; simp
    · exact extractStridedSlice_apply _ o5 slices_S2x64x256_S1x64x256_1_0_0 _ (ix3 (1 : Fin 2) k d) (fun a => by fin_cases a <;> simp [ix3])
  show (a1 (ix2 k d) + _) + _ = _
  rw [h0, h1]

theorem srK_apply (a2 : FVec Ideal S64x1 .f32) (o6 : FVec Ideal S2x64x1 .f32) (k : Fin 64) :
    srK (F := Ideal) a2 o6 (ix2 k (0 : Fin 1)) = (a2 (ix2 k (0 : Fin 1)) + o6 (ix3 (0 : Fin 2) k (0 : Fin 1))) + o6 (ix3 (1 : Fin 2) k (0 : Fin 1)) := by
  have h0 : shapeCast S64x1 (extractStridedSlice S1x64x1 ![0, 0, 0] o6 slices_S2x64x1_S1x64x1_0_0_0) shapeCasts_S1x64x1_S64x1 (ix2 k (0 : Fin 1))
      = o6 (ix3 (0 : Fin 2) k (0 : Fin 1)) := by
    refine (shapeCast_apply _ shapeCasts_S1x64x1_S64x1 (ix2 k (0 : Fin 1)) (ix3 (0 : Fin 1) k (0 : Fin 1)) ?_).trans ?_
    · rw [Shape.rowMajor_val_three, Shape.rowMajor_val_two]; simp only [ix2, ix3]; simp
    · exact extractStridedSlice_apply _ o6 slices_S2x64x1_S1x64x1_0_0_0 _ (ix3 (0 : Fin 2) k (0 : Fin 1)) (fun a => by fin_cases a <;> simp [ix3])
  have h1 : shapeCast S64x1 (extractStridedSlice S1x64x1 ![1, 0, 0] o6 slices_S2x64x1_S1x64x1_1_0_0) shapeCasts_S1x64x1_S64x1 (ix2 k (0 : Fin 1))
      = o6 (ix3 (1 : Fin 2) k (0 : Fin 1)) := by
    refine (shapeCast_apply _ shapeCasts_S1x64x1_S64x1 (ix2 k (0 : Fin 1)) (ix3 (0 : Fin 1) k (0 : Fin 1)) ?_).trans ?_
    · rw [Shape.rowMajor_val_three, Shape.rowMajor_val_two]; simp only [ix2, ix3]; simp
    · exact extractStridedSlice_apply _ o6 slices_S2x64x1_S1x64x1_1_0_0 _ (ix3 (1 : Fin 2) k (0 : Fin 1)) (fun a => by fin_cases a <;> simp [ix3])
  show (a2 (ix2 k (0 : Fin 1)) + _) + _ = _
  rw [h0, h1]

end Cert.KernelIdeal.KVal

end
-- ==== Proof.KValue.Arrays.lean ====
/-
  The two output arrays after the region, half by half.  Each output is written back exactly at the last tile of a
  half (grid points 31 and 63), block `p` of the array at the last tile of half `p`; the two blocks written share no
  element, so every element of the final array is the element of the block that the last tile of its half left in
  the output's staging buffer.  Stated at any float instance.
-/
import proofs.«413487_j64269890617637_3_alg».proof.Proof.FrameKI.Frame
import Idealize.ShloMosaic.Lib.Pipeline.Value
import Idealize.ShloMosaic.Lib.ValueIdx

set_option maxRecDepth 16384

noncomputable section

namespace Cert.KernelIdeal.KVal

open Cert.KernelIdeal Cert.KernelIdeal.Gen Cert.KernelIdeal.Hand Idealize.ShloMosaic Idealize.ShloMosaic.ValueIdx

variable {F : FTy → Type} [FloatOps F] (m : (ℓ : Loc nD τ sig) → Buf (Elt F) ℓ) (c : Dev nD)

/-! ## Output 5: the 2 × 64 × 256 array, written back in blocks of 1 × 64 × 256 -/

/-- The block index of output 5 at grid point `t` is `(t / 32, 0, 0)` (decided over the 64 grid points). -/
theorem idx5 : ∀ t : Fin cfg0.N, win0_5.index t (0 : Fin 3) = t.val / 32 ∧ win0_5.index t (1 : Fin 3) = 0 ∧ win0_5.index t (2 : Fin 3) = 0 :=
  (by decide +kernel : ∀ t : Fin grid0.N, win0_5.index t (0 : Fin 3) = t.val / 32 ∧ win0_5.index t (1 : Fin 3) = 0 ∧ win0_5.index t (2 : Fin 3) = 0)

/-- Two distinct points that write output 5 back write blocks that share no element: both are last tiles of a half
    (`t % 32 = 31`), so their halves `t / 32` differ. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' hf hf' hne => (cfg0.win 5).disjoint_blk fun h => hne (by
    have h0 : win0_5.index t (0 : Fin 3) = win0_5.index t' (0 : Fin 3) := congrFun h 0
    rw [(idx5 t).1, (idx5 t').1] at h0
    have h1 := (flush0_5 t).mp hf
    have h2 := (flush0_5 t').mp hf'
    exact Fin.ext (by omega))

/-- Element `(p, k, d)` of output 5 after the region is element `(0, k, d)` of what the last tile of half `p` left in
    the output's staging buffer: the element sits in block `p` at `p · 1 + 0`, `0 · 64 + k`, `0 · 256 + d`. -/
theorem arr5_eq (p : Fin 2) (k : Fin 64) (d : Fin 256) :
    (dats m 0 c).arrAt 5 cfg0.N (ix3 p k d) = (outsAt0 m c (p.val * 32 + 31) (by have := p.isLt; have hN : cfg0.N = 64 := N_0; omega)).1 (ix3 (0 : Fin 1) k d) := by
  have hlt : p.val * 32 + 31 < cfg0.N := by have := p.isLt; have hN : cfg0.N = 64 := N_0; omega
  have hf : (cfg0.win 5).flush ⟨p.val * 32 + 31, hlt⟩ = true := (flush0_5 _).mpr (by show (p.val * 32 + 31) % 32 = 31; omega)
  have h := (dats m 0 c).arrAt_emb_eq_flushed 5 disjoint5 ⟨p.val * 32 + 31, hlt⟩ hf (ix3 (0 : Fin 1) k d)
  have hi := idx5 ⟨p.val * 32 + 31, hlt⟩
  have hp : (p.val * 32 + 31) / 32 = p.val := by omega
  have e0 : (((cfg0.win 5).blk ⟨p.val * 32 + 31, hlt⟩).view.emb (ix3 (0 : Fin 1) k d) (0 : Fin 3) : Nat) = p.val := by
    have hr : (((cfg0.win 5).blk ⟨p.val * 32 + 31, hlt⟩).view.emb (ix3 (0 : Fin 1) k d) (0 : Fin 3) : Nat) = (cfg0.win 5).index ⟨p.val * 32 + 31, hlt⟩ (0 : Fin 3) * 1 + 0 :=
      (cfg0.win 5).rect_emb_val ⟨p.val * 32 + 31, hlt⟩ (ix3 (0 : Fin 1) k d) (0 : Fin 3)
    rw [hr, show (cfg0.win 5).index ⟨p.val * 32 + 31, hlt⟩ (0 : Fin 3) = (p.val * 32 + 31) / 32 from hi.1, hp]; omega
  have e1 : (((cfg0.win 5).blk ⟨p.val * 32 + 31, hlt⟩).view.emb (ix3 (0 : Fin 1) k d) (1 : Fin 3) : Nat) = k.val := by
    have hr : (((cfg0.win 5).blk ⟨p.val * 32 + 31, hlt⟩).view.emb (ix3 (0 : Fin 1) k d) (1 : Fin 3) : Nat) = (cfg0.win 5).index ⟨p.val * 32 + 31, hlt⟩ (1 : Fin 3) * 64 + k.val :=
      (cfg0.win 5).rect_emb_val ⟨p.val * 32 + 31, hlt⟩ (ix3 (0 : Fin 1) k d) (1 : Fin 3)
    rw [hr, show (cfg0.win 5).index ⟨p.val * 32 + 31, hlt⟩ (1 : Fin 3) = 0 from hi.2.1]; omega
  have e2 : (((cfg0.win 5).blk ⟨p.val * 32 + 31, hlt⟩).view.emb (ix3 (0 : Fin 1) k d) (2 : Fin 3) : Nat) = d.val := by
    have hr : (((cfg0.win 5).blk ⟨p.val * 32 + 31, hlt⟩).view.emb (ix3 (0 : Fin 1) k d) (2 : Fin 3) : Nat) = (cfg0.win 5).index ⟨p.val * 32 + 31, hlt⟩ (2 : Fin 3) * 256 + d.val :=
      (cfg0.win 5).rect_emb_val ⟨p.val * 32 + 31, hlt⟩ (ix3 (0 : Fin 1) k d) (2 : Fin 3)
    rw [hr, show (cfg0.win 5).index ⟨p.val * 32 + 31, hlt⟩ (2 : Fin 3) = 0 from hi.2.2]; omega
  have he : ((cfg0.win 5).blk ⟨p.val * 32 + 31, hlt⟩).view.emb (ix3 (0 : Fin 1) k d) = ix3 p k d := by
    funext a
    match a with
    | ⟨0, _⟩ => exact Fin.ext e0
    | ⟨1, _⟩ => exact Fin.ext e1
    | ⟨2, _⟩ => exact Fin.ext e2
  rw [he] at h
  rw [h]
  refine (cast_eq _ _).trans ?_
  show (cfg0.win 5).cut _ ((dats m 0 c).after 5 ⟨p.val * 32 + 31, hlt⟩) (ix3 (0 : Fin 1) k d) = _
  rw [after0_5]
  rfl

/-! ## Output 6: the 2 × 64 × 1 array, written back in blocks of 1 × 64 × 1 -/

/-- The block index of output 6 at grid point `t` is `(t / 32, 0, 0)` (decided over the 64 grid points). -/
theorem idx6 : ∀ t : Fin cfg0.N, win0_6.index t (0 : Fin 3) = t.val / 32 ∧ win0_6.index t (1 : Fin 3) = 0 ∧ win0_6.index t (2 : Fin 3) = 0 :=
  (by decide +kernel : ∀ t : Fin grid0.N, win0_6.index t (0 : Fin 3) = t.val / 32 ∧ win0_6.index t (1 : Fin 3) = 0 ∧ win0_6.index t (2 : Fin 3) = 0)

/-- Two distinct points that write output 6 back write blocks that share no element: both are last tiles of a half
    (`t % 32 = 31`), so their halves `t / 32` differ. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' hf hf' hne => (cfg0.win 6).disjoint_blk fun h => hne (by
    have h0 : win0_6.index t (0 : Fin 3) = win0_6.index t' (0 : Fin 3) := congrFun h 0
    rw [(idx6 t).1, (idx6 t').1] at h0
    have h1 := (flush0_6 t).mp hf
    have h2 := (flush0_6 t').mp hf'
    exact Fin.ext (by omega))

/-- Element `(p, k, 0)` of output 6 after the region is element `(0, k, 0)` of what the last tile of half `p` left in
    the output's staging buffer. -/
theorem arr6_eq (p : Fin 2) (k : Fin 64) :
    (dats m 0 c).arrAt 6 cfg0.N (ix3 p k (0 : Fin 1)) = (outsAt0 m c (p.val * 32 + 31) (by have := p.isLt; have hN : cfg0.N = 64 := N_0; omega)).2.1 (ix3 (0 : Fin 1) k (0 : Fin 1)) := by
  have hlt : p.val * 32 + 31 < cfg0.N := by have := p.isLt; have hN : cfg0.N = 64 := N_0; omega
  have hf : (cfg0.win 6).flush ⟨p.val * 32 + 31, hlt⟩ = true := (flush0_6 _).mpr (by show (p.val * 32 + 31) % 32 = 31; omega)
  have h := (dats m 0 c).arrAt_emb_eq_flushed 6 disjoint6 ⟨p.val * 32 + 31, hlt⟩ hf (ix3 (0 : Fin 1) k (0 : Fin 1))
  have hi := idx6 ⟨p.val * 32 + 31, hlt⟩
  have hp : (p.val * 32 + 31) / 32 = p.val := by omega
  have e0 : (((cfg0.win 6).blk ⟨p.val * 32 + 31, hlt⟩).view.emb (ix3 (0 : Fin 1) k (0 : Fin 1)) (0 : Fin 3) : Nat) = p.val := by
    have hr : (((cfg0.win 6).blk ⟨p.val * 32 + 31, hlt⟩).view.emb (ix3 (0 : Fin 1) k (0 : Fin 1)) (0 : Fin 3) : Nat) = (cfg0.win 6).index ⟨p.val * 32 + 31, hlt⟩ (0 : Fin 3) * 1 + 0 :=
      (cfg0.win 6).rect_emb_val ⟨p.val * 32 + 31, hlt⟩ (ix3 (0 : Fin 1) k (0 : Fin 1)) (0 : Fin 3)
    rw [hr, show (cfg0.win 6).index ⟨p.val * 32 + 31, hlt⟩ (0 : Fin 3) = (p.val * 32 + 31) / 32 from hi.1, hp]; omega
  have e1 : (((cfg0.win 6).blk ⟨p.val * 32 + 31, hlt⟩).view.emb (ix3 (0 : Fin 1) k (0 : Fin 1)) (1 : Fin 3) : Nat) = k.val := by
    have hr : (((cfg0.win 6).blk ⟨p.val * 32 + 31, hlt⟩).view.emb (ix3 (0 : Fin 1) k (0 : Fin 1)) (1 : Fin 3) : Nat) = (cfg0.win 6).index ⟨p.val * 32 + 31, hlt⟩ (1 : Fin 3) * 64 + k.val :=
      (cfg0.win 6).rect_emb_val ⟨p.val * 32 + 31, hlt⟩ (ix3 (0 : Fin 1) k (0 : Fin 1)) (1 : Fin 3)
    rw [hr, show (cfg0.win 6).index ⟨p.val * 32 + 31, hlt⟩ (1 : Fin 3) = 0 from hi.2.1]; omega
  have e2 : (((cfg0.win 6).blk ⟨p.val * 32 + 31, hlt⟩).view.emb (ix3 (0 : Fin 1) k (0 : Fin 1)) (2 : Fin 3) : Nat) = 0 := by
    have hr : (((cfg0.win 6).blk ⟨p.val * 32 + 31, hlt⟩).view.emb (ix3 (0 : Fin 1) k (0 : Fin 1)) (2 : Fin 3) : Nat) = (cfg0.win 6).index ⟨p.val * 32 + 31, hlt⟩ (2 : Fin 3) * 1 + 0 :=
      (cfg0.win 6).rect_emb_val ⟨p.val * 32 + 31, hlt⟩ (ix3 (0 : Fin 1) k (0 : Fin 1)) (2 : Fin 3)
    rw [hr, show (cfg0.win 6).index ⟨p.val * 32 + 31, hlt⟩ (2 : Fin 3) = 0 from hi.2.2]
  have he : ((cfg0.win 6).blk ⟨p.val * 32 + 31, hlt⟩).view.emb (ix3 (0 : Fin 1) k (0 : Fin 1)) = ix3 p k (0 : Fin 1) := by
    funext a
    match a with
    | ⟨0, _⟩ => exact Fin.ext e0
    | ⟨1, _⟩ => exact Fin.ext e1
    | ⟨2, _⟩ => exact Fin.ext e2
  rw [he] at h
  rw [h]
  refine (cast_eq _ _).trans ?_
  show (cfg0.win 6).cut _ ((dats m 0 c).after 6 ⟨p.val * 32 + 31, hlt⟩) (ix3 (0 : Fin 1) k (0 : Fin 1)) = _
  rw [after0_6]
  rfl

end Cert.KernelIdeal.KVal

end
-- ==== Proof.KValue.Blocks.lean ====
/-
  What the kernel's five input windows hold at a grid point, entry by entry, in terms of the arrays the program was
  launched on, over the extended reals.

  The grid has 64 points `t = 32 p + i`. Window 0 holds rows `4096 t … 4096 t + 4095` of the predicted array (N × D,
  N = 262144, D = 256); window 1 the class words of the same rows (the target array reshaped from N to N × 1). The other
  three hold a whole array at every point: the centroids transposed to D × C (C = 64; narrowing the format changes nothing
  over the extended reals), the row `k ↦ 1 / count k` (the constant one broadcast, divided by the counts, transposed), and
  the row `k ↦ Σ_d centroid(k, d)²` (the squares summed along each row from zero, set as a column, transposed).

  First each array a host line wrote is named as a term of the launch memory; then each block's entry is read off that
  term: a block's coordinate in its array is, on every axis, the block index times the block size plus the coordinate
  inside the block, and the block indices are decided once over the 64 points.
-/
import proofs.«413487_j64269890617637_3_alg».proof.Proof.FrameKI.Kit
import Idealize.ShloMosaic.Lib.ValueIdx
import Idealize.ShloMosaic.Lib.Pipeline.Value
import Idealize.ShloMosaic.PureOps.Ideal.Laws
import Idealize.ShloMosaic.Lib.StableHlo.Run

set_option maxRecDepth 16384

noncomputable section

open scoped BigOperators

namespace Cert.KernelIdeal.KVal

open Cert.KernelIdeal Cert.KernelIdeal.Gen Cert.KernelIdeal.Hand Idealize.ShloMosaic Idealize.ShloMosaic.ValueIdx
open Idealize.ShloMosaic.TcCoe Idealize.SL.Sem Idealize.ShloMosaic.StableHlo

variable (m : (ℓ : Loc nD τ sig) → Buf (Elt Ideal) ℓ) (c : Dev nD)

/-- The predicted rows of point `t`: 4096 × 256. -/
abbrev blk0 (t : Fin cfg0.N) : Vec Ideal S4096x256 .f32 := iblk (F := Ideal) m c 0 t
/-- The class words of the same rows: 4096 × 1. -/
abbrev blk1 (t : Fin cfg0.N) : Vec Ideal S4096x1 .i32 := iblk (F := Ideal) m c 1 t
/-- The centroids transposed: 256 × 64, the same at every point. -/
abbrev blk2 (t : Fin cfg0.N) : Vec Ideal S256x64 .bf16 := iblk (F := Ideal) m c 2 t
/-- The reciprocal counts as a row: 1 × 64, the same at every point. -/
abbrev blk3 (t : Fin cfg0.N) : Vec Ideal S1x64 .f32 := iblk (F := Ideal) m c 3 t
/-- The centroids' squared norms as a row: 1 × 64, the same at every point. -/
abbrev blk4 (t : Fin cfg0.N) : Vec Ideal S1x64 .f32 := iblk (F := Ideal) m c 4 t

/-! ## The arrays the host lines wrote, as terms of the launch memory -/

/-- The target array as the region finds it: the class words reshaped from N to N × 1. -/
theorem v0_eq : (V m c main_v0 : S262144x1.Idx → BitVec 32)
    = shapeCast S262144x1 (m ((c : Thread nD τ).loc main_arg5)) shapeCasts_S262144_S262144x1 := by
  dsimp only [V, V0]
  simp only [hostOps0, List.flatten_cons, List.flatten_nil, List.append_nil]
  after_results
  rfl

/-- The centroids transposed to D × C and narrowed (at the extended reals the narrowing changes nothing). -/
theorem v2_eq : (V m c main_v2 : S256x64.Idx → EReal)
    = truncf (F := Ideal) .bf16 (transpose S256x64 [1, 0] (m ((c : Thread nD τ).loc main_arg1)) transposes_S64x256_S256x64_1_0) Facts₀.bitsLt_bf16_f32 := by
  dsimp only [V, V0]
  simp only [hostOps0, List.flatten_cons, List.flatten_nil, List.append_nil]
  after_results

/-- One over the counts, as a row: the constant one broadcast to C × 1, divided by the counts, transposed to 1 × C. -/
theorem v9_eq : (V m c main_v9 : S1x64.Idx → EReal)
    = transpose S1x64 [1, 0] (Host.divf (F := Ideal) (broadcastInDim S64x1 ![] bcast_S_S64x1 (constant (F := Ideal) S_ .f32 0x3F800000#32)) (m ((c : Thread nD τ).loc main_arg3))) transposes_S64x1_S1x64_1_0 := by
  dsimp only [V, V0]
  simp only [hostOps0, List.flatten_cons, List.flatten_nil, List.append_nil]
  after_results

/-- The centroids' squared norms, as a row: the entries squared, summed along each row, set as a column, transposed. -/
theorem v6_eq : (V m c main_v6 : S1x64.Idx → EReal)
    = transpose S1x64 [1, 0] (broadcastInDim S64x1 ![0] bcast_S64_S64x1_0 (Host.reduceAdd (F := Ideal) (mulf (F := Ideal) (m ((c : Thread nD τ).loc main_arg1)) (m ((c : Thread nD τ).loc main_arg1))) (constant (F := Ideal) S_ .f32 0x00000000#32) reducesTo_S64x256_S64_d1 h_S_)) transposes_S64x1_S1x64_1_0 := by
  dsimp only [V, V0]
  simp only [hostOps0, List.flatten_cons, List.flatten_nil, List.append_nil]
  after_results

/-- The word 0x3F800000 is the number one. -/
theorem ofBits_one_f32 : Ideal.ofBits .f32 0x3F800000#32 = 1 := by
  simp [Ideal.ofBits, Ideal.ieee, -EReal.coe_mul]
  norm_num

/-! ## Which block each window reads at a grid point -/

/-- Window 0 reads row block `t`, all columns. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- Window 1 reads row block `t` of the one column. -/
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
/-- Windows 2, 3, 4 read their whole array at every point. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-! ## The blocks at an index -/

/-- Row `r` of the predicted block at point `t` is row `4096 t + r` of the predicted array. -/
theorem blk0_apply (t : Fin cfg0.N) (r : Fin 4096) (d : Fin 256) :
    blk0 m c t (ix2 r d) = m ((c : Thread nD τ).loc main_arg0)
      (ix2 (⟨t.val * 4096 + r.val, by have := t.isLt; have hN : cfg0.N = 64 := N_0; have := r.isLt; omega⟩ : Fin 262144) d) := by
  have hi := idx0 t
  unfold blk0 iblk
  rw [View.read_apply]
  show V m c main_arg0 _ = m (c.tc.loc main_arg0) _
  rw [V_main_arg0]
  congr 1
  funext a
  apply Fin.ext
  match a with
  | ⟨0, _⟩ => show win0_0.index t 0 * 4096 + 1 * r.val = t.val * 4096 + r.val; rw [hi.1]; omega
  | ⟨1, _⟩ => show win0_0.index t 1 * 256 + 1 * d.val = d.val; rw [hi.2]; omega

/-- Row `r` of the class block at point `t` is the class word of row `4096 t + r`. -/
theorem blk1_apply (t : Fin cfg0.N) (r : Fin 4096) :
    blk1 m c t (ix2 r (0 : Fin 1)) = m ((c : Thread nD τ).loc main_arg5)
      (ix1 (⟨t.val * 4096 + r.val, by have := t.isLt; have hN : cfg0.N = 64 := N_0; have := r.isLt; omega⟩ : Fin 262144)) := by
  have hi := idx1 t
  unfold blk1 iblk
  rw [View.read_apply]
  show V m c main_v0 _ = _
  refine (congrFun (v0_eq m c) _).trans ?_
  refine shapeCast_apply _ _ _ _ ?_
  refine (Shape.rowMajor_val_one (d := ![262144]) _).trans (Eq.trans ?_ (Shape.rowMajor_val_two (d := ![262144, 1]) _).symm)
  show t.val * 4096 + r.val = (win0_1.index t 0 * 4096 + 1 * r.val) * 1 + (win0_1.index t 1 * 1 + 1 * 0)
  rw [hi.1, hi.2]; omega

/-- Entry `(d, k)` of the transposed centroids is entry `(k, d)` of the centroids. -/
theorem blk2_apply (t : Fin cfg0.N) (d : Fin 256) (k : Fin 64) :
    blk2 m c t (ix2 d k) = m ((c : Thread nD τ).loc main_arg1) (ix2 k d) := by
  have hi := idx2 t
  unfold blk2 iblk
  rw [View.read_apply]
  show (V m c main_v2 : S256x64.Idx → EReal) _ = _
  refine (congrFun (v2_eq m c) _).trans ?_
  rw [truncf_apply]
  refine transpose_apply _ _ _ _ (ix2 k d) fun b => ?_
  match b with
  | ⟨0, _⟩ => show d.val = win0_2.index t 0 * 256 + 1 * d.val; rw [hi.1]; omega
  | ⟨1, _⟩ => show k.val = win0_2.index t 1 * 64 + 1 * k.val; rw [hi.2]; omega

/-- Entry `k` of the reciprocal-count row is one over the count of class `k`. -/
theorem blk3_apply (t : Fin cfg0.N) (k : Fin 64) :
    blk3 m c t (ix2 (0 : Fin 1) k) = Ideal.div 1 (m ((c : Thread nD τ).loc main_arg3) (ix2 k (0 : Fin 1))) := by
  have hi := idx3 t
  unfold blk3 iblk
  rw [View.read_apply]
  show (V m c main_v9 : S1x64.Idx → EReal) _ = _
  refine (congrFun (v9_eq m c) _).trans ?_
  refine (transpose_apply _ _ _ _ (ix2 k (0 : Fin 1)) fun b => ?_).trans ?_
  · match b with
    | ⟨0, _⟩ => show (0 : Nat) = win0_3.index t 0 * 1 + 1 * 0; rw [hi.1]
    | ⟨1, _⟩ => show k.val = win0_3.index t 1 * 64 + 1 * k.val; rw [hi.2]; omega
  · show FloatOps.hostDivf _ _ = _
    rw [Ideal.hostDivf_def]
    congr 1
    refine (broadcastInDim_apply _ bcast_S_S64x1 _ _ ix0 fun a => a.elim0).trans ?_
    rw [constant_apply, ofBits_one_f32]

/-- The same for the counts named as a function into the extended reals. -/
theorem blk3_apply_of (cnt : S64x1.Idx → EReal) (hcnt : m ((c : Thread nD τ).loc main_arg3) = cnt) (t : Fin cfg0.N) (k : Fin 64) :
    blk3 m c t (ix2 (0 : Fin 1) k) = Ideal.div 1 (cnt (ix2 k (0 : Fin 1))) := by
  subst hcnt
  exact blk3_apply m c t k

/-- Entry `k` of the squared-norm row is the sum over `d` of the squares of centroid `k`'s entries; stated for the
    centroid array named as a function into the extended reals, so that the product and the sum are the extended reals'. -/
theorem blk4_apply_of (cent : S64x256.Idx → EReal) (hcent : m ((c : Thread nD τ).loc main_arg1) = cent) (t : Fin cfg0.N) (k : Fin 64) :
    blk4 m c t (ix2 (0 : Fin 1) k) = ∑ d : Fin 256, cent (ix2 k d) * cent (ix2 k d) := by
  subst hcent
  have hi := idx4 t
  unfold blk4 iblk
  rw [View.read_apply]
  show (V m c main_v6 : S1x64.Idx → EReal) _ = _
  refine (congrFun (v6_eq m c) _).trans ?_
  refine (transpose_apply _ _ _ _ (ix2 k (0 : Fin 1)) fun b => ?_).trans ?_
  · match b with
    | ⟨0, _⟩ => show (0 : Nat) = win0_4.index t 0 * 1 + 1 * 0; rw [hi.1]
    | ⟨1, _⟩ => show k.val = win0_4.index t 1 * 64 + 1 * k.val; rw [hi.2]; omega
  · refine (broadcastInDim_apply _ bcast_S64_S64x1_0 _ _ (ix1 k) fun a => ?_).trans ?_
    · match a with
      | ⟨0, _⟩ => show k.val = if (64 : Nat) = 1 then 0 else k.val; rw [if_neg (by decide)]
    · generalize hy : mulf (F := Ideal) (m ((c : Thread nD τ).loc main_arg1)) (m ((c : Thread nD τ).loc main_arg1)) = y
      simp only [Host.reduceAdd, Ideal.hostReduceAdd_def]
      rw [Ideal.hostReduceAdd_single reducesTo_S64x256_S64_d1 (by decide)]
      rw [constant_apply, Ideal.ofBits_zero_f32, zero_add]
      refine Finset.sum_congr (M := EReal) rfl fun d _ => ?_
      subst hy
      rw [mulf_apply]
      have e : (Shape.Reduces.lift (by decide : S64x256.Reduces [1] S64) (ix1 k) d : S64x256.Idx) = ix2 k d :=
        funext fun a => Fin.ext (by match a with | ⟨0, _⟩ => rfl | ⟨1, _⟩ => rfl)
      rw [e]
      rfl

/-- The same with the launch memory's centroid array in place: the sum over `d` of the squares of centroid `k`'s entries,
    product and sum the extended reals'. -/
theorem blk4_apply (t : Fin cfg0.N) (k : Fin 64) :
    blk4 m c t (ix2 (0 : Fin 1) k)
      = ∑ d : Fin 256, @HMul.hMul EReal EReal EReal instHMul (m ((c : Thread nD τ).loc main_arg1) (ix2 k d)) (m ((c : Thread nD τ).loc main_arg1) (ix2 k d)) :=
  blk4_apply_of m c _ rfl t k

end Cert.KernelIdeal.KVal

end
-- ==== Proof.Spec.lean ====
/-
  The mathematics both programs compute, over the extended reals, stated once.

  Inputs: `pred` (N × D, N = 262144, D = 256), `cent` (C × D, C = 64), `dist` and `cnt` (C × 1),
  and a class `k n : Fin 64` for every row `n`.  Row `n` scaled by the reciprocal of its class's count is
  `pr n d = pred n d · (cnt (k n))⁻¹`.  The new centroids add to centroid `c` every scaled row of class `c`;
  `vec n` is the Euclidean distance of the scaled row `n` from its class's centroid; the new distance sums add
  `vec n` to the entry of the class of `n`.
-/
import Idealize.ShloMosaic.PureOps.Ideal
import Idealize.ShloMosaic.Lib.ValueIdx

noncomputable section

open scoped BigOperators

namespace Cert.DB

open Idealize.ShloMosaic Idealize.ShloMosaic.ValueIdx

/-- The class of row `n`: the index word read as a natural number (reduced modulo 64, which is the identity on the
    domain `Dom` below, where every word is below 64). -/
def clsOf (tgt : IVec (⟨1, ![262144]⟩ : Shape) 32) (n : Fin 262144) : Fin 64 :=
  ⟨(tgt (ix1 n)).toNat % 64, Nat.mod_lt _ (by decide)⟩

section
variable (pred : (⟨2, ![262144, 256]⟩ : Shape).Idx → EReal) (cent : (⟨2, ![64, 256]⟩ : Shape).Idx → EReal)
  (dist cnt : (⟨2, ![64, 1]⟩ : Shape).Idx → EReal) (k : Fin 262144 → Fin 64)

/-- Row `n` divided by the count of its class, entry `d`. -/
def pr (n : Fin 262144) (d : Fin 256) : EReal := pred (ix2 n d) * (cnt (ix2 (k n) (0 : Fin 1)))⁻¹

/-- Centroid `c` plus the sum of the scaled rows of class `c`, entry `d`. -/
def centNew (c : Fin 64) (d : Fin 256) : EReal :=
  cent (ix2 c d) + ∑ n : Fin 262144, if k n = c then pr pred cnt k n d else 0

/-- The squared Euclidean distance of the scaled row `n` from the centroid of its class. -/
def sqDist (n : Fin 262144) : EReal :=
  ∑ d : Fin 256, (cent (ix2 (k n) d) - pr pred cnt k n d) * (cent (ix2 (k n) d) - pr pred cnt k n d)

/-- The Euclidean distance of the scaled row `n` from the centroid of its class. -/
def vec (n : Fin 262144) : EReal := Ideal.sqrt (sqDist pred cent cnt k n)

/-- Distance sum `c` plus the distances of the rows of class `c`. -/
def sRaw (c : Fin 64) : EReal :=
  dist (ix2 c (0 : Fin 1)) + ∑ n : Fin 262144, if k n = c then vec pred cent cnt k n else 0

/-- `centNew` as an array. -/
def centNewArr : (⟨2, ![64, 256]⟩ : Shape).Idx → EReal := fun j => centNew pred cent cnt k (j 0) (j 1)
/-- `sRaw` as an array. -/
def sRawArr : (⟨2, ![64, 1]⟩ : Shape).Idx → EReal := fun j => sRaw pred cent dist cnt k (j 0)

theorem centNewArr_apply (c : Fin 64) (d : Fin 256) :
    centNewArr pred cent cnt k (ix2 c d) = centNew pred cent cnt k c d := rfl
theorem sRawArr_apply (c : Fin 64) (e : Fin 1) :
    sRawArr pred cent dist cnt k (ix2 c e) = sRaw pred cent dist cnt k c := rfl
end

/-- The domain on which the two programs are compared: every float entry a real number, every index word below 64
    (as an unsigned word: so non-negative and below 64 as a signed one), every count non-zero. -/
structure Dom (pred : (⟨2, ![262144, 256]⟩ : Shape).Idx → EReal) (cent : (⟨2, ![64, 256]⟩ : Shape).Idx → EReal)
    (dist cnt : (⟨2, ![64, 1]⟩ : Shape).Idx → EReal) (cw : (⟨2, ![64, 64]⟩ : Shape).Idx → EReal)
    (tgt : IVec (⟨1, ![262144]⟩ : Shape) 32) : Prop where
  pred_real : ∀ i, ∃ r : ℝ, pred i = (r : EReal)
  cent_real : ∀ i, ∃ r : ℝ, cent i = (r : EReal)
  dist_real : ∀ i, ∃ r : ℝ, dist i = (r : EReal)
  cnt_real : ∀ i, ∃ r : ℝ, cnt i = (r : EReal)
  cw_real : ∀ i, ∃ r : ℝ, cw i = (r : EReal)
  tgt_lt : ∀ i, (tgt i).toNat < 64
  cnt_ne : ∀ i, cnt i ≠ 0

end Cert.DB

end
-- ==== Proof.KValue.TileSpec.lean ====
/-
  The specification cut into tiles: the 262144 rows are 64 tiles of 4096 rows; tile `t` contributes to class `k'` the
  sum of its scaled rows of that class (`tile0`) and the sum of their distances from the class's centroid (`tile1`).
-/
import proofs.«413487_j64269890617637_3_alg».proof.Proof.Spec

noncomputable section

open scoped BigOperators

namespace Cert.DB

open Idealize.ShloMosaic Idealize.ShloMosaic.ValueIdx

/-- Row `r` of tile `t`. -/
def rowOf (t : Fin 64) (r : Fin 4096) : Fin 262144 := ⟨t.val * 4096 + r.val, by have := t.isLt; have := r.isLt; omega⟩

theorem rowOf_val (t : Fin 64) (r : Fin 4096) : (rowOf t r).val = t.val * 4096 + r.val := rfl

section
variable (pred : (⟨2, ![262144, 256]⟩ : Shape).Idx → EReal) (cent : (⟨2, ![64, 256]⟩ : Shape).Idx → EReal)
  (cnt : (⟨2, ![64, 1]⟩ : Shape).Idx → EReal) (k : Fin 262144 → Fin 64)

/-- Tile `t`'s contribution to centroid `k'`, entry `d`. -/
def tile0 (t : Fin 64) (k' : Fin 64) (d : Fin 256) : EReal :=
  ∑ r : Fin 4096, if k (rowOf t r) = k' then pr pred cnt k (rowOf t r) d else 0

/-- Tile `t`'s contribution to the distance sum of class `k'`. -/
def tile1 (t : Fin 64) (k' : Fin 64) : EReal :=
  ∑ r : Fin 4096, if k (rowOf t r) = k' then vec pred cent cnt k (rowOf t r) else 0

/-- Tile `s` of half `p`. -/
def tileOf (p : Fin 2) (s : Fin 32) : Fin 64 := ⟨p.val * 32 + s.val, by have := p.isLt; have := s.isLt; omega⟩
end

end Cert.DB

end
-- ==== Proof.KValue.Names.lean ====
/-
  Names for the six argument arrays as the launch memory holds them on a core, typed by their literal shapes, for the
  class of a row, and for a grid point as a tile number.
-/
import proofs.«413487_j64269890617637_3_alg».proof.Proof.KValue.Blocks
import proofs.«413487_j64269890617637_3_alg».proof.Proof.KValue.TileSpec

noncomputable section

namespace Cert.KernelIdeal.KVal

open Idealize.ShloMosaic Idealize.ShloMosaic.TcCoe Idealize.SL.Sem Idealize.ShloMosaic.ValueIdx
open Cert.KernelIdeal Cert.KernelIdeal.Gen Cert.KernelIdeal.Hand

variable (m : (ℓ : Loc nD τ sig) → Buf (Elt Ideal) ℓ) (c : Dev nD)

/-- The predicted rows. -/
abbrev a0 : S262144x256.Idx → EReal := m ((c : Thread nD τ).loc main_arg0)
/-- The centroids. -/
abbrev a1 : S64x256.Idx → EReal := m ((c : Thread nD τ).loc main_arg1)
/-- The distance sums. -/
abbrev a2 : S64x1.Idx → EReal := m ((c : Thread nD τ).loc main_arg2)
/-- The counts. -/
abbrev a3 : S64x1.Idx → EReal := m ((c : Thread nD τ).loc main_arg3)
/-- The class weights. -/
abbrev a4 : S64x64.Idx → EReal := m ((c : Thread nD τ).loc main_arg4)
/-- The class words. -/
abbrev a5 : IVec S262144 32 := m ((c : Thread nD τ).loc main_arg5)
/-- The class of a row. -/
abbrev kk : Fin 262144 → Fin 64 := Cert.DB.clsOf (a5 m c)

/-- A grid point as a tile number. -/
def T (t : Fin cfg0.N) : Fin 64 := ⟨t.val, by have := t.isLt; have hN : cfg0.N = 64 := N_0; omega⟩

theorem T_val (t : Fin cfg0.N) : (T t).val = t.val := rfl

end Cert.KernelIdeal.KVal

end
-- ==== Proof.KValue.Pieces.lean ====
/-
  What each case of the kernel body leaves in the two accumulators and in the two output blocks, as the body's
  payload terms of the loaded blocks.  Every store of the body covers its whole buffer (the unit rectangle at zero
  offsets over the buffer's own sizes), so what a buffer holds after the tile is the payload of its LAST store; every
  load reads a whole buffer, so it reads either the block the tile was handed or, after a store in the same tile, that
  store's payload.  Three cases: at the first tile of a half the accumulators are zeroed and the zeros read back; at a
  middle tile they continue from what the tile before left; at the last tile they are updated and then read back into
  the output blocks.  Stated at any float instance.
-/
import proofs.«413487_j64269890617637_3_alg».proof.Proof.FrameKI.Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a rank-2 block, however spelt, are the constant zero offsets: the unit rectangle there over
    the block's own sizes is the whole block. -/
theorem pieces_hz2 : (![0, 0] : Fin 2 → Nat) = fun _ => 0 := funext fun a => by fin_cases a <;> rfl
/-- The same at rank 3. -/
theorem pieces_hz3 : (![0, 0, 0] : Fin 3 → Nat) = fun _ => 0 := funext fun a => by fin_cases a <;> rfl

/-! ## First tile of a half: the accumulators are zeroed, then updated -/

/-- First accumulator, first tile: the zero block is stored, read back, and the tile's product added to it. -/
theorem sout0_A_0_eq (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : cond0_0 i) (hc1 : ¬cond0_1 i)
    (x0 : Vec F S4096x256 .f32) (x1 : Vec F S4096x1 .i32) (x2 : Vec F S256x64 .bf16) (x3 : Vec F S1x64 .f32) (x4 : Vec F S1x64 .f32) :
    sout0_A_0 c i arg2 harg2 arg3 harg3 arg4 harg4 arg5 harg5 arg6 harg6 arg7 harg7 arg8 harg8 arg9 harg9 arg10 harg10 hc0 hc1 x0 x1 x2 x3 x4 = k0_pay1 (k0_pay8 x1) (k0_pay10 x1 x3 x0) (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S64x256) pieces_hz2, View.readCov_unit_zero (S := S64x256) _ pieces_hz2]
  simp only [View.readAt_eq_ld, harg2.read_unread, harg3.read_unread, harg4.read_unread, harg5.read_unread, harg6.read_unread, harg9.read_unread, harg10.read_unread, View.ld_unit_zero (S := S64x256) pieces_hz2, View.ld_unit_zero (S := S4096x256) pieces_hz2, View.ld_unit_zero (S := S4096x1) pieces_hz2, View.ld_unit_zero (S := S1x64) pieces_hz2, View.ld_unit_zero (S := S256x64) pieces_hz2]

/-- Second accumulator, first tile: the zero column is stored, read back, and the tile's distance sums added to it. -/
theorem sout0_A_1_eq (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : cond0_0 i) (hc1 : ¬cond0_1 i)
    (x0 : Vec F S4096x256 .f32) (x1 : Vec F S4096x1 .i32) (x2 : Vec F S256x64 .bf16) (x3 : Vec F S1x64 .f32) (x4 : Vec F S1x64 .f32) :
    sout0_A_1 c i arg2 harg2 arg3 harg3 arg4 harg4 arg5 harg5 arg6 harg6 arg7 harg7 arg8 harg8 arg9 harg9 arg10 harg10 hc0 hc1 x0 x1 x2 x3 x4 = k0_pay2 (k0_pay8 x1) (k0_pay11 x1 x4) (k0_pay12 x1 x3 x0) (k0_pay13 x1 x3 x0 x2) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S64x1) pieces_hz2, View.readCov_unit_zero (S := S64x1) _ pieces_hz2]
  simp only [View.readAt_eq_ld, harg2.read_unread, harg3.read_unread, harg4.read_unread, harg5.read_unread, harg6.read_unread, harg9.read_unread, harg10.read_unread, View.ld_unit_zero (S := S64x1) pieces_hz2, View.ld_unit_zero (S := S4096x256) pieces_hz2, View.ld_unit_zero (S := S4096x1) pieces_hz2, View.ld_unit_zero (S := S1x64) pieces_hz2, View.ld_unit_zero (S := S256x64) pieces_hz2]

/-! ## A middle tile: the accumulators continue from what the tile before left -/

/-- First accumulator, middle tile: one covering store of the update of what was there. -/
theorem sout0_B_0_eq (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : ¬cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) :
    sout0_B_0 c i arg2 harg2 arg3 harg3 arg4 harg4 arg5 harg5 arg6 harg6 arg7 harg7 arg8 harg8 arg9 harg9 arg10 harg10 hc0 hc1 x0 x1 x2 x3 x4 xs0 xs1 = k0_pay1 (k0_pay8 x1) (k0_pay10 x1 x3 x0) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero pieces_hz2]
  simp only [View.readAt_eq_ld, harg2.read_unread, harg3.read_unread, harg4.read_unread, harg5.read_unread, harg6.read_unread, harg9.read_unread, harg10.read_unread, View.ld_unit_zero (S := S64x256) pieces_hz2, View.ld_unit_zero (S := S4096x256) pieces_hz2, View.ld_unit_zero (S := S4096x1) pieces_hz2, View.ld_unit_zero (S := S1x64) pieces_hz2, View.ld_unit_zero (S := S256x64) pieces_hz2]

/-- Second accumulator, middle tile. -/
theorem sout0_B_1_eq (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : ¬cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) :
    sout0_B_1 c i arg2 harg2 arg3 harg3 arg4 harg4 arg5 harg5 arg6 harg6 arg7 harg7 arg8 harg8 arg9 harg9 arg10 harg10 hc0 hc1 x0 x1 x2 x3 x4 xs0 xs1 = k0_pay2 (k0_pay8 x1) (k0_pay11 x1 x4) (k0_pay12 x1 x3 x0) (k0_pay13 x1 x3 x0 x2) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero pieces_hz2]
  simp only [View.readAt_eq_ld, harg2.read_unread, harg3.read_unread, harg4.read_unread, harg5.read_unread, harg6.read_unread, harg9.read_unread, harg10.read_unread, View.ld_unit_zero (S := S64x1) pieces_hz2, View.ld_unit_zero (S := S4096x256) pieces_hz2, View.ld_unit_zero (S := S4096x1) pieces_hz2, View.ld_unit_zero (S := S1x64) pieces_hz2, View.ld_unit_zero (S := S256x64) pieces_hz2]

/-! ## Last tile of a half: the accumulators are updated, then copied out -/

/-- First accumulator, last tile: as at a middle tile. -/
theorem sout0_C_0_eq (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) :
    sout0_C_0 c i arg2 harg2 arg3 harg3 arg4 harg4 arg5 harg5 arg6 harg6 arg7 harg7 arg8 harg8 arg9 harg9 arg10 harg10 hc0 hc1 x0 x1 x2 x3 x4 xs0 xs1 = k0_pay1 (k0_pay8 x1) (k0_pay10 x1 x3 x0) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero pieces_hz2]
  simp only [View.readAt_eq_ld, harg2.read_unread, harg3.read_unread, harg4.read_unread, harg5.read_unread, harg6.read_unread, harg9.read_unread, harg10.read_unread, View.ld_unit_zero (S := S64x256) pieces_hz2, View.ld_unit_zero (S := S4096x256) pieces_hz2, View.ld_unit_zero (S := S4096x1) pieces_hz2, View.ld_unit_zero (S := S1x64) pieces_hz2, View.ld_unit_zero (S := S256x64) pieces_hz2]

/-- Second accumulator, last tile: as at a middle tile. -/
theorem sout0_C_1_eq (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) :
    sout0_C_1 c i arg2 harg2 arg3 harg3 arg4 harg4 arg5 harg5 arg6 harg6 arg7 harg7 arg8 harg8 arg9 harg9 arg10 harg10 hc0 hc1 x0 x1 x2 x3 x4 xs0 xs1 = k0_pay2 (k0_pay8 x1) (k0_pay11 x1 x4) (k0_pay12 x1 x3 x0) (k0_pay13 x1 x3 x0 x2) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero pieces_hz2]
  simp only [View.readAt_eq_ld, harg2.read_unread, harg3.read_unread, harg4.read_unread, harg5.read_unread, harg6.read_unread, harg9.read_unread, harg10.read_unread, View.ld_unit_zero (S := S64x1) pieces_hz2, View.ld_unit_zero (S := S4096x256) pieces_hz2, View.ld_unit_zero (S := S4096x1) pieces_hz2, View.ld_unit_zero (S := S1x64) pieces_hz2, View.ld_unit_zero (S := S256x64) pieces_hz2]

/-- First output, last tile: the updated first accumulator is read back and stored, reshaped, into the output block. -/
theorem out0_C_5_eq (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) :
    out0_C_5 c i arg2 harg2 arg3 harg3 arg4 harg4 arg5 harg5 arg6 harg6 arg7 harg7 arg8 harg8 arg9 harg9 arg10 harg10 hc0 hc1 x0 x1 x2 x3 x4 xs0 xs1 = k0_pay3 (k0_pay1 (k0_pay8 x1) (k0_pay10 x1 x3 x0) xs0) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero pieces_hz3]
  simp only [View.readAt_eq_ld, harg2.read_unread, harg3.read_unread, harg4.read_unread, harg5.read_unread, harg6.read_unread, harg9.read_unread, harg10.read_unread, View.readCov_unit_zero (S := S64x256) _ pieces_hz2, View.ld_unit_zero (S := S64x256) pieces_hz2, View.ld_unit_zero (S := S4096x256) pieces_hz2, View.ld_unit_zero (S := S4096x1) pieces_hz2, View.ld_unit_zero (S := S1x64) pieces_hz2, View.ld_unit_zero (S := S256x64) pieces_hz2]

/-- Second output, last tile: the updated second accumulator is read back and stored, reshaped, into the output block. -/
theorem out0_C_6_eq (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S256x64 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64x256 .f32) (harg7 : arg7.IsWhole) (arg8 : Memref sig .tc .vmem S1x64x1 .f32) (harg8 : arg8.IsWhole) (arg9 : Memref sig .tc .vmem S64x256 .f32) (harg9 : arg9.IsWhole) (arg10 : Memref sig .tc .vmem S64x1 .f32) (harg10 : arg10.IsWhole) (hc0 : ¬cond0_0 i) (hc1 : cond0_1 i)
    (x0 : Vec F S4096x256 .f32) (x1 : Vec F S4096x1 .i32) (x2 : Vec F S256x64 .bf16) (x3 : Vec F S1x64 .f32) (x4 : Vec F S1x64 .f32) (xs0 : Vec F S64x256 .f32) (xs1 : Vec F S64x1 .f32) :
    out0_C_6 c i arg2 harg2 arg3 harg3 arg4 harg4 arg5 harg5 arg6 harg6 arg7 harg7 arg8 harg8 arg9 harg9 arg10 harg10 hc0 hc1 x0 x1 x2 x3 x4 xs0 xs1 = k0_pay4 (k0_pay2 (k0_pay8 x1) (k0_pay11 x1 x4) (k0_pay12 x1 x3 x0) (k0_pay13 x1 x3 x0 x2) xs1) := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero pieces_hz3]
  simp only [View.readAt_eq_ld, harg2.read_unread, harg3.read_unread, harg4.read_unread, harg5.read_unread, harg6.read_unread, harg9.read_unread, harg10.read_unread, View.readCov_unit_zero (S := S64x1) _ pieces_hz2, View.ld_unit_zero (S := S64x1) pieces_hz2, View.ld_unit_zero (S := S4096x256) pieces_hz2, View.ld_unit_zero (S := S4096x1) pieces_hz2, View.ld_unit_zero (S := S1x64) pieces_hz2, View.ld_unit_zero (S := S256x64) pieces_hz2]

end Cert.KernelIdeal.Hand

end
-- ==== Proof.LibUnitAxes.lean ====
/-
  Layout operations that only add, drop or repeat unit axes, read at an index written by coordinates, and a
  one-axis reduction's re-inserted coordinate.  General: any element type, any extents.
-/
import Idealize.ShloMosaic.Lib.Pipeline.Value
import Idealize.ShloMosaic.Lib.ValueIdx
import Idealize.ShloMosaic.PureOps.Reduce

noncomputable section

namespace Cert.Lib

open Idealize.ShloMosaic Idealize.ShloMosaic.ValueIdx

variable {α : Type}

/-- A [1, 1, a, b] array cast to [a, b] reads, at (i, j), the operand at (0, 0, i, j): the two leading unit axes
    carry no position in the row-major order. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array cast to [1, 1, a, b] reads, at (u, v, i, j), the operand at (i, j), whatever the unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]
    simp only [Nat.zero_mul, Nat.zero_add])

/-- An [a] vector cast to the column [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row statistic kept as a column and spread back over the row: at (p, c) it is the statistic of row p. -/
theorem column_spread_apply {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ x h1) h2 (ix2 p c) = x (ix1 p) := by
  rw [broadcastTo_a1_ab_apply, shapeCast_a_a1_apply]

/-- Reducing the second axis of [a, b]: row r's index with column k put back is (r, k). -/
theorem lift_row_col {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

end Cert.Lib

end
-- ==== Proof.PayloadValue.lean ====
/-
  The kernel body's arithmetic read at an index, over the extended reals.

  A tile has 4096 rows; each row carries a class word.  The indicator block is 1 at (row, lane) when the lane is the
  row's class and 0 elsewhere.  Multiplying a row vector by the indicator and summing over the lanes picks the vector's
  entry at the row's class; the transposed indicator times a block of rows adds up, per class, the rows of that class.
  On the extended reals `1 * x = x`, `0 * x = 0` and `0 + x = x` hold for every `x`, so none of this needs
  finiteness; a change of float format is the identity.
-/
import proofs.«413487_j64269890617637_3_alg».proof.Proof.Gen.KernelIdeal.Skeleton
import proofs.«413487_j64269890617637_3_alg».proof.Proof.Spec
import proofs.«413487_j64269890617637_3_alg».proof.Proof.LibUnitAxes
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayVal

open Cert.KernelIdeal Cert.KernelIdeal.Gen Idealize.ShloMosaic Idealize.ShloMosaic.ValueIdx

/-- The class of tile row `r`: its word read as a natural number, reduced modulo 64. -/
def κ (v3 : Vec Ideal S4096x1 .i32) (r : Fin 4096) : Fin 64 :=
  ⟨(v3 (ix2 r (0 : Fin 1))).toNat % 64, Nat.mod_lt _ (by decide)⟩

/-- A word below 64 compared for equality with lane `c`, widened to 32 bits and read as a signed number: 1 on the
    word's own lane, 0 on every other. -/
theorem ind_word (x : BitVec 32) (hx : x.toNat < 64) (c : Fin 64) :
    ((((IntOp.cmpi .eq x (BitVec.ofNat 32 c.val)).setWidth 32).toInt : ℝ) : EReal)
      = if x.toNat % 64 = c.val then 1 else 0 := by
  have hc := c.isLt
  rw [Nat.mod_eq_of_lt hx]
  by_cases h : x.toNat = c.val
  · have hx' : x = BitVec.ofNat 32 c.val := by
      apply BitVec.eq_of_toNat_eq; rw [BitVec.toNat_ofNat]; omega
    rw [if_pos h, hx']
    simp [IntOp.cmpi]
  · have hb : (x == BitVec.ofNat 32 c.val) = false := by
      rw [beq_eq_false_iff_ne]
      intro e; apply h; rw [e, BitVec.toNat_ofNat]; omega
    rw [if_neg h]
    simp [IntOp.cmpi, hb]

/-- The indicator block at (row, lane): 1 when the lane is the row's class, 0 otherwise. -/
theorem pay7_apply (v3 : Vec Ideal S4096x1 .i32) (hv3 : ∀ r : Fin 4096, (v3 (ix2 r (0 : Fin 1))).toNat < 64)
    (r : Fin 4096) (c : Fin 64) :
    k0_pay7 (F := Ideal) v3 (ix2 r c) = if κ v3 r = c then 1 else 0 := by
  unfold k0_pay7
  refine Eq.trans (?_ : _ = ((((IntOp.cmpi .eq (v3 (ix2 r (0 : Fin 1))) (BitVec.ofNat 32 c.val)).setWidth 32).toInt : ℝ) : EReal)) ?_
  · show ((((IntOp.cmpi .eq
        (broadcastTo S4096x64 (shapeCast S4096x1 v3 shapeCasts_S4096x1_S4096x1) broadcasts_S4096x1_S4096x64 (ix2 r c))
        (broadcastTo S4096x64 (iota .tc S1x64 32 [1] iota_S1x64_d1_w32) broadcasts_S1x64_S4096x64 (ix2 r c))).setWidth 32).toInt : ℝ) : EReal) = _
    rw [Cert.Lib.broadcastTo_a1_ab_apply, shapeCast_self, broadcastTo_1b_ab_apply, iota_single_apply]
  · rw [ind_word _ (hv3 r) c]
    exact if_congr (Fin.ext_iff (a := κ v3 r) (b := c)).symm rfl rfl

/-- Summed over the lanes, the indicator of lane `k` times `f` is `f k`: on the extended reals `1 * x = x` and
    `0 * x = 0` whatever `x` is. -/
theorem sum_ind (k : Fin 64) (f : Fin 64 → EReal) :
    ∑ c : Fin 64, (if k = c then (1 : EReal) else 0) * f c = f k := by
  rw [Finset.sum_eq_single k]
  · rw [if_pos rfl, one_mul]
  · intro b _ hb; rw [if_neg (Ne.symm hb), zero_mul]
  · intro h; exact absurd (Finset.mem_univ k) h

/-- The sum over the 64 lanes of a [4096, 64] block, at row `r`. -/
theorem laneSum64 (src : FVec Ideal S4096x64 .f32) (hacc : (0x00000000#32 : BitVec 32) = 0x00000000#32) (r : Fin 4096) :
    multiReduction (F := Ideal) .add [1] S4096 src 0x00000000#32 reduces_S4096x64_S4096 (.inl rfl) hacc (ix1 r)
      = ∑ c : Fin 64, src (ix2 r c) := by
  refine (Ideal.multiReduction_add_single src 0x00000000#32 reduces_S4096x64_S4096 (.inl rfl) hacc (ix1 r)).trans ?_
  refine Finset.sum_congr rfl fun k _ => ?_
  rw [Cert.Lib.lift_row_col]
  rfl

/-- The sum over the 256 entries of a row of a [4096, 256] block, at row `r`. -/
theorem laneSum256 (src : FVec Ideal S4096x256 .f32) (hacc : (0x00000000#32 : BitVec 32) = 0x00000000#32) (r : Fin 4096) :
    multiReduction (F := Ideal) .add [1] S4096 src 0x00000000#32 reduces_S4096x256_S4096 (.inl rfl) hacc (ix1 r)
      = ∑ d : Fin 256, src (ix2 r d) := by
  refine (Ideal.multiReduction_add_single src 0x00000000#32 reduces_S4096x256_S4096 (.inl rfl) hacc (ix1 r)).trans ?_
  refine Finset.sum_congr rfl fun k _ => ?_
  rw [Cert.Lib.lift_row_col]
  rfl

/-- The indicator times a row vector, summed over the lanes and kept as a column: the row vector at the row's class. -/
theorem pick_apply (v3 : Vec Ideal S4096x1 .i32) (hv3 : ∀ r : Fin 4096, (v3 (ix2 r (0 : Fin 1))).toNat < 64)
    (w : FVec Ideal S4096x64 .f32) (hacc : (0x00000000#32 : BitVec 32) = 0x00000000#32) (r : Fin 4096) (u : Fin 1) :
    shapeCast S4096x1 (multiReduction (F := Ideal) .add [1] S4096 (mulf (k0_pay7 (F := Ideal) v3) w) 0x00000000#32
        reduces_S4096x64_S4096 (.inl rfl) hacc) shapeCasts_S4096_S4096x1 (ix2 r u)
      = w (ix2 r (κ v3 r)) := by
  rw [Cert.Lib.shapeCast_a_a1_apply, laneSum64]
  refine Eq.trans (Finset.sum_congr rfl fun c _ => ?_) (sum_ind (κ v3 r) fun c => w (ix2 r c))
  rw [mulf_apply, pay7_apply v3 hv3 r c]

/-- The scaled row block at (row, entry): the row's entry times the scale vector at the row's class. -/
theorem pay9_apply (v3 : Vec Ideal S4096x1 .i32) (hv3 : ∀ r : Fin 4096, (v3 (ix2 r (0 : Fin 1))).toNat < 64)
    (v12 : Vec Ideal S1x64 .f32) (v18 : Vec Ideal S4096x256 .f32) (r : Fin 4096) (d : Fin 256) :
    k0_pay9 (F := Ideal) v3 v12 v18 (ix2 r d) = v18 (ix2 r d) * v12 (ix2 (0 : Fin 1) (κ v3 r)) := by
  unfold k0_pay9
  rw [mulf_apply, Cert.Lib.broadcastTo_a1_ab_apply, pick_apply v3 hv3, broadcastTo_1b_ab_apply, shapeCast_self]

/-- The same block after the change of format, which is the identity on extended reals. -/
theorem pay10_apply (v3 : Vec Ideal S4096x1 .i32) (hv3 : ∀ r : Fin 4096, (v3 (ix2 r (0 : Fin 1))).toNat < 64)
    (v12 : Vec Ideal S1x64 .f32) (v18 : Vec Ideal S4096x256 .f32) (r : Fin 4096) (d : Fin 256) :
    k0_pay10 (F := Ideal) v3 v12 v18 (ix2 r d) = v18 (ix2 r d) * v12 (ix2 (0 : Fin 1) (κ v3 r)) := by
  unfold k0_pay10
  rw [truncf_apply, pay9_apply v3 hv3]

/-- The indicator block after the change of format. -/
theorem pay8_apply (v3 : Vec Ideal S4096x1 .i32) (hv3 : ∀ r : Fin 4096, (v3 (ix2 r (0 : Fin 1))).toNat < 64)
    (r : Fin 4096) (c : Fin 64) :
    k0_pay8 (F := Ideal) v3 (ix2 r c) = if κ v3 r = c then 1 else 0 := by
  unfold k0_pay8
  rw [truncf_apply, pay7_apply v3 hv3]

/-- The second row vector at the row's class, as a column. -/
theorem pay11_apply (v3 : Vec Ideal S4096x1 .i32) (hv3 : ∀ r : Fin 4096, (v3 (ix2 r (0 : Fin 1))).toNat < 64)
    (v25 : Vec Ideal S1x64 .f32) (r : Fin 4096) (u : Fin 1) :
    k0_pay11 (F := Ideal) v3 v25 (ix2 r u) = v25 (ix2 (0 : Fin 1) (κ v3 r)) := by
  unfold k0_pay11
  rw [pick_apply v3 hv3, broadcastTo_1b_ab_apply, shapeCast_self]

/-- The sum of the squares of the scaled row's entries, as a column. -/
theorem pay12_apply (v3 : Vec Ideal S4096x1 .i32) (hv3 : ∀ r : Fin 4096, (v3 (ix2 r (0 : Fin 1))).toNat < 64)
    (v12 : Vec Ideal S1x64 .f32) (v18 : Vec Ideal S4096x256 .f32) (r : Fin 4096) (u : Fin 1) :
    k0_pay12 (F := Ideal) v3 v12 v18 (ix2 r u)
      = ∑ d : Fin 256, (v18 (ix2 r d) * v12 (ix2 (0 : Fin 1) (κ v3 r))) * (v18 (ix2 r d) * v12 (ix2 (0 : Fin 1) (κ v3 r))) := by
  unfold k0_pay12
  rw [Cert.Lib.shapeCast_a_a1_apply, laneSum256]
  refine Finset.sum_congr rfl fun d _ => ?_
  rw [mulf_apply, pay9_apply v3 hv3]

/-! ### The product of the transposed indicator block with a block of rows

The contraction runs over the 4096 tile rows (axis 0 of both operands); the result's two coordinates are the
indicator's lane and the row block's entry. -/

theorem lhsT256_0 (j : S64x256.Idx) (q : dot_S4096x64_S4096x256_S64x256_0_0_1_1_n_n.contr.Idx) :
    (dot_S4096x64_S4096x256_S64x256_0_0_1_1_n_n.lhsIdx j q 0).val = (q ⟨0, by decide⟩).val :=
  dot_S4096x64_S4096x256_S64x256_0_0_1_1_n_n.lhsIdx_val_of_single rfl j q
theorem lhsT256_1 (j : S64x256.Idx) (q : dot_S4096x64_S4096x256_S64x256_0_0_1_1_n_n.contr.Idx) :
    (dot_S4096x64_S4096x256_S64x256_0_0_1_1_n_n.lhsIdx j q 1).val = (j 0).val := by
  unfold DotDims.lhsIdx
  rw [dif_neg (show ¬(1 : Fin S4096x64.rank) ∈ dot_S4096x64_S4096x256_S64x256_0_0_1_1_n_n.lhsBatch by decide), dif_pos (show (1 : Fin S4096x64.rank) ∈ dot_S4096x64_S4096x256_S64x256_0_0_1_1_n_n.lhsNonContracting by decide)]
  rfl
theorem rhsT256_0 (j : S64x256.Idx) (q : dot_S4096x64_S4096x256_S64x256_0_0_1_1_n_n.contr.Idx) :
    (dot_S4096x64_S4096x256_S64x256_0_0_1_1_n_n.rhsIdx j q 0).val = (q ⟨0, by decide⟩).val :=
  dot_S4096x64_S4096x256_S64x256_0_0_1_1_n_n.rhsIdx_val_of_single rfl j q
theorem rhsT256_1 (j : S64x256.Idx) (q : dot_S4096x64_S4096x256_S64x256_0_0_1_1_n_n.contr.Idx) :
    (dot_S4096x64_S4096x256_S64x256_0_0_1_1_n_n.rhsIdx j q 1).val = (j 1).val := by
  unfold DotDims.rhsIdx
  rw [dif_neg (show ¬(1 : Fin S4096x256.rank) ∈ dot_S4096x64_S4096x256_S64x256_0_0_1_1_n_n.rhsBatch by decide), dif_pos (show (1 : Fin S4096x256.rank) ∈ dot_S4096x64_S4096x256_S64x256_0_0_1_1_n_n.rhsNonContracting by decide)]
  rfl

/-- Into a zero accumulator, at (lane, entry): the sum over the tile rows of the two blocks' products. -/
theorem mmT256_apply (A : FVec Ideal S4096x64 .bf16) (B : FVec Ideal S4096x256 .bf16) (c : Fin 64) (d : Fin 256) :
    matmul dot_S4096x64_S4096x256_S64x256_0_0_1_1_n_n none A B (constant (F := Ideal) S64x256 .f32 0x00000000#32) (ix2 c d)
      = ∑ r : Fin 4096, A (ix2 r c) * B (ix2 r d) := by
  simp only [matmul]
  rw [Ideal.matmul_constant_zero_apply, ← Equiv.sum_comp (contrEquiv1 dot_S4096x64_S4096x256_S64x256_0_0_1_1_n_n 4096 rfl rfl).symm]
  refine Finset.sum_congr rfl fun k _ => ?_
  have hk := contrEquiv1_symm_val dot_S4096x64_S4096x256_S64x256_0_0_1_1_n_n 4096 rfl rfl k
  have el : dot_S4096x64_S4096x256_S64x256_0_0_1_1_n_n.lhsIdx (ix2 c d) ((contrEquiv1 dot_S4096x64_S4096x256_S64x256_0_0_1_1_n_n 4096 rfl rfl).symm k) = ix2 k c := funext fun a => Fin.ext (by
    match a with
    | ⟨0, _⟩ => exact (lhsT256_0 _ _).trans hk
    | ⟨1, _⟩ => exact lhsT256_1 _ _)
  have er : dot_S4096x64_S4096x256_S64x256_0_0_1_1_n_n.rhsIdx (ix2 c d) ((contrEquiv1 dot_S4096x64_S4096x256_S64x256_0_0_1_1_n_n 4096 rfl rfl).symm k) = ix2 k d := funext fun a => Fin.ext (by
    match a with
    | ⟨0, _⟩ => exact (rhsT256_0 _ _).trans hk
    | ⟨1, _⟩ => exact rhsT256_1 _ _)
  rw [el, er]

/-- THE CENTROID BLOCK'S UPDATE at (class, entry): the block plus the sum, over the tile rows of that class, of the
    scaled row's entry. -/
theorem pay1_apply (v3 : Vec Ideal S4096x1 .i32) (v12 : Vec Ideal S1x64 .f32) (v18 : Vec Ideal S4096x256 .f32) (v47 : Vec Ideal S64x256 .f32)
    (hv3 : ∀ r : Fin 4096, (v3 (ix2 r (0 : Fin 1))).toNat < 64) (c : Fin 64) (d : Fin 256) :
    k0_pay1 (F := Ideal) (k0_pay8 v3) (k0_pay10 v3 v12 v18) v47 (ix2 c d)
      = v47 (ix2 c d) + ∑ r : Fin 4096, if κ v3 r = c then v18 (ix2 r d) * v12 (ix2 (0 : Fin 1) (κ v3 r)) else 0 := by
  unfold k0_pay1
  rw [shapeCast_self, addf_apply, mmT256_apply]
  refine congrArg (v47 (ix2 c d) + ·) (Finset.sum_congr rfl fun r _ => ?_)
  rw [pay8_apply v3 hv3, pay10_apply v3 hv3, ite_mul, one_mul, zero_mul]

/-! ### The product of the transposed indicator block with a column -/

theorem lhsT1_0 (j : S64x1.Idx) (q : dot_S4096x64_S4096x1_S64x1_0_0_1_1_n_n.contr.Idx) :
    (dot_S4096x64_S4096x1_S64x1_0_0_1_1_n_n.lhsIdx j q 0).val = (q ⟨0, by decide⟩).val :=
  dot_S4096x64_S4096x1_S64x1_0_0_1_1_n_n.lhsIdx_val_of_single rfl j q
theorem lhsT1_1 (j : S64x1.Idx) (q : dot_S4096x64_S4096x1_S64x1_0_0_1_1_n_n.contr.Idx) :
    (dot_S4096x64_S4096x1_S64x1_0_0_1_1_n_n.lhsIdx j q 1).val = (j 0).val := by
  unfold DotDims.lhsIdx
  rw [dif_neg (show ¬(1 : Fin S4096x64.rank) ∈ dot_S4096x64_S4096x1_S64x1_0_0_1_1_n_n.lhsBatch by decide), dif_pos (show (1 : Fin S4096x64.rank) ∈ dot_S4096x64_S4096x1_S64x1_0_0_1_1_n_n.lhsNonContracting by decide)]
  rfl
theorem rhsT1_0 (j : S64x1.Idx) (q : dot_S4096x64_S4096x1_S64x1_0_0_1_1_n_n.contr.Idx) :
    (dot_S4096x64_S4096x1_S64x1_0_0_1_1_n_n.rhsIdx j q 0).val = (q ⟨0, by decide⟩).val :=
  dot_S4096x64_S4096x1_S64x1_0_0_1_1_n_n.rhsIdx_val_of_single rfl j q
theorem rhsT1_1 (j : S64x1.Idx) (q : dot_S4096x64_S4096x1_S64x1_0_0_1_1_n_n.contr.Idx) :
    (dot_S4096x64_S4096x1_S64x1_0_0_1_1_n_n.rhsIdx j q 1).val = (j 1).val := by
  unfold DotDims.rhsIdx
  rw [dif_neg (show ¬(1 : Fin S4096x1.rank) ∈ dot_S4096x64_S4096x1_S64x1_0_0_1_1_n_n.rhsBatch by decide), dif_pos (show (1 : Fin S4096x1.rank) ∈ dot_S4096x64_S4096x1_S64x1_0_0_1_1_n_n.rhsNonContracting by decide)]
  rfl

/-- Into a zero accumulator, at (lane, 0): the sum over the tile rows of the indicator times the column. -/
theorem mmT1_apply (A : FVec Ideal S4096x64 .bf16) (B : FVec Ideal S4096x1 .bf16) (c : Fin 64) (u : Fin 1) :
    matmul dot_S4096x64_S4096x1_S64x1_0_0_1_1_n_n none A B (constant (F := Ideal) S64x1 .f32 0x00000000#32) (ix2 c u)
      = ∑ r : Fin 4096, A (ix2 r c) * B (ix2 r u) := by
  simp only [matmul]
  rw [Ideal.matmul_constant_zero_apply, ← Equiv.sum_comp (contrEquiv1 dot_S4096x64_S4096x1_S64x1_0_0_1_1_n_n 4096 rfl rfl).symm]
  refine Finset.sum_congr rfl fun k _ => ?_
  have hk := contrEquiv1_symm_val dot_S4096x64_S4096x1_S64x1_0_0_1_1_n_n 4096 rfl rfl k
  have el : dot_S4096x64_S4096x1_S64x1_0_0_1_1_n_n.lhsIdx (ix2 c u) ((contrEquiv1 dot_S4096x64_S4096x1_S64x1_0_0_1_1_n_n 4096 rfl rfl).symm k) = ix2 k c := funext fun a => Fin.ext (by
    match a with
    | ⟨0, _⟩ => exact (lhsT1_0 _ _).trans hk
    | ⟨1, _⟩ => exact lhsT1_1 _ _)
  have er : dot_S4096x64_S4096x1_S64x1_0_0_1_1_n_n.rhsIdx (ix2 c u) ((contrEquiv1 dot_S4096x64_S4096x1_S64x1_0_0_1_1_n_n 4096 rfl rfl).symm k) = ix2 k u := funext fun a => Fin.ext (by
    match a with
    | ⟨0, _⟩ => exact (rhsT1_0 _ _).trans hk
    | ⟨1, _⟩ => exact rhsT1_1 _ _)
  rw [el, er]

/-! ### The product of the block of scaled rows with the [256, 64] table -/

theorem lhsP_0 (j : S4096x64.Idx) (q : dot_S4096x256_S256x64_S4096x64_1_0_0_1_n_n.contr.Idx) :
    (dot_S4096x256_S256x64_S4096x64_1_0_0_1_n_n.lhsIdx j q 0).val = (j 0).val := by
  unfold DotDims.lhsIdx
  rw [dif_neg (show ¬(0 : Fin S4096x256.rank) ∈ dot_S4096x256_S256x64_S4096x64_1_0_0_1_n_n.lhsBatch by decide), dif_pos (show (0 : Fin S4096x256.rank) ∈ dot_S4096x256_S256x64_S4096x64_1_0_0_1_n_n.lhsNonContracting by decide)]
  rfl
theorem lhsP_1 (j : S4096x64.Idx) (q : dot_S4096x256_S256x64_S4096x64_1_0_0_1_n_n.contr.Idx) :
    (dot_S4096x256_S256x64_S4096x64_1_0_0_1_n_n.lhsIdx j q 1).val = (q ⟨0, by decide⟩).val :=
  dot_S4096x256_S256x64_S4096x64_1_0_0_1_n_n.lhsIdx_val_of_single rfl j q
theorem rhsP_0 (j : S4096x64.Idx) (q : dot_S4096x256_S256x64_S4096x64_1_0_0_1_n_n.contr.Idx) :
    (dot_S4096x256_S256x64_S4096x64_1_0_0_1_n_n.rhsIdx j q 0).val = (q ⟨0, by decide⟩).val :=
  dot_S4096x256_S256x64_S4096x64_1_0_0_1_n_n.rhsIdx_val_of_single rfl j q
theorem rhsP_1 (j : S4096x64.Idx) (q : dot_S4096x256_S256x64_S4096x64_1_0_0_1_n_n.contr.Idx) :
    (dot_S4096x256_S256x64_S4096x64_1_0_0_1_n_n.rhsIdx j q 1).val = (j 1).val := by
  unfold DotDims.rhsIdx
  rw [dif_neg (show ¬(1 : Fin S256x64.rank) ∈ dot_S4096x256_S256x64_S4096x64_1_0_0_1_n_n.rhsBatch by decide), dif_pos (show (1 : Fin S256x64.rank) ∈ dot_S4096x256_S256x64_S4096x64_1_0_0_1_n_n.rhsNonContracting by decide)]
  rfl

/-- Into a zero accumulator, at (row, lane): the row's inner product with the table's column of that lane. -/
theorem mmP_apply (A : FVec Ideal S4096x256 .bf16) (B : FVec Ideal S256x64 .bf16) (r : Fin 4096) (c : Fin 64) :
    matmul dot_S4096x256_S256x64_S4096x64_1_0_0_1_n_n none A B (constant (F := Ideal) S4096x64 .f32 0x00000000#32) (ix2 r c)
      = ∑ d : Fin 256, A (ix2 r d) * B (ix2 d c) := by
  simp only [matmul]
  rw [Ideal.matmul_constant_zero_apply, ← Equiv.sum_comp (contrEquiv1 dot_S4096x256_S256x64_S4096x64_1_0_0_1_n_n 256 rfl rfl).symm]
  refine Finset.sum_congr rfl fun k _ => ?_
  have hk := contrEquiv1_symm_val dot_S4096x256_S256x64_S4096x64_1_0_0_1_n_n 256 rfl rfl k
  have el : dot_S4096x256_S256x64_S4096x64_1_0_0_1_n_n.lhsIdx (ix2 r c) ((contrEquiv1 dot_S4096x256_S256x64_S4096x64_1_0_0_1_n_n 256 rfl rfl).symm k) = ix2 r k := funext fun a => Fin.ext (by
    match a with
    | ⟨0, _⟩ => exact lhsP_0 _ _
    | ⟨1, _⟩ => exact (lhsP_1 _ _).trans hk)
  have er : dot_S4096x256_S256x64_S4096x64_1_0_0_1_n_n.rhsIdx (ix2 r c) ((contrEquiv1 dot_S4096x256_S256x64_S4096x64_1_0_0_1_n_n 256 rfl rfl).symm k) = ix2 k c := funext fun a => Fin.ext (by
    match a with
    | ⟨0, _⟩ => exact (rhsP_0 _ _).trans hk
    | ⟨1, _⟩ => exact rhsP_1 _ _)
  rw [el, er]

/-- The word `0x40000000` denotes the number 2. -/
theorem ofBits_two : Ideal.ofBits .f32 0x40000000#32 = 2 := by
  simp [Ideal.ofBits, Ideal.ieee, -EReal.coe_mul]; norm_num; rfl

/-- Twice the scaled row's inner product with the table's column of the row's class, as a column. -/
theorem pay13_apply (v3 : Vec Ideal S4096x1 .i32) (hv3 : ∀ r : Fin 4096, (v3 (ix2 r (0 : Fin 1))).toNat < 64)
    (v12 : Vec Ideal S1x64 .f32) (v18 : Vec Ideal S4096x256 .f32) (v22 : Vec Ideal S256x64 .bf16) (r : Fin 4096) (u : Fin 1) :
    k0_pay13 (F := Ideal) v3 v12 v18 v22 (ix2 r u)
      = (2 : EReal) * ∑ d : Fin 256, (v18 (ix2 r d) * v12 (ix2 (0 : Fin 1) (κ v3 r))) * v22 (ix2 d (κ v3 r)) := by
  unfold k0_pay13
  rw [mulf_apply, broadcast_apply, pick_apply v3 hv3, mmP_apply, shapeCast_self]
  refine congrArg₂ (· * ·) ofBits_two (Finset.sum_congr rfl fun d _ => ?_)
  rw [pay10_apply v3 hv3]

/-- THE DISTANCE-SUM BLOCK'S UPDATE at (class, 0): the block plus the sum, over the tile rows of that class, of the
    square root of the clamped squared distance, expanded as second vector − 2·inner product + squared norm. -/
theorem pay2_apply (v3 : Vec Ideal S4096x1 .i32) (v12 v25 : Vec Ideal S1x64 .f32) (v18 : Vec Ideal S4096x256 .f32) (v22 : Vec Ideal S256x64 .bf16) (v52 : Vec Ideal S64x1 .f32)
    (hv3 : ∀ r : Fin 4096, (v3 (ix2 r (0 : Fin 1))).toNat < 64) (c : Fin 64) :
    k0_pay2 (F := Ideal) (k0_pay8 v3) (k0_pay11 v3 v25) (k0_pay12 v3 v12 v18) (k0_pay13 v3 v12 v18 v22) v52 (ix2 c (0 : Fin 1))
      = v52 (ix2 c (0 : Fin 1)) + ∑ r : Fin 4096, if κ v3 r = c then
          Ideal.sqrt (max (v25 (ix2 (0 : Fin 1) (κ v3 r))
              - (2 : EReal) * (∑ d : Fin 256, (v18 (ix2 r d) * v12 (ix2 (0 : Fin 1) (κ v3 r))) * v22 (ix2 d (κ v3 r)))
              + ∑ d : Fin 256, (v18 (ix2 r d) * v12 (ix2 (0 : Fin 1) (κ v3 r))) * (v18 (ix2 r d) * v12 (ix2 (0 : Fin 1) (κ v3 r)))) 0)
        else 0 := by
  unfold k0_pay2
  rw [shapeCast_self, addf_apply, mmT1_apply]
  refine congrArg (v52 (ix2 c (0 : Fin 1)) + ·) (Finset.sum_congr rfl fun r _ => ?_)
  rw [pay8_apply v3 hv3, truncf_apply, ite_mul, one_mul, zero_mul]
  refine if_congr Iff.rfl ?_ rfl
  show Ideal.sqrt (max (k0_pay11 (F := Ideal) v3 v25 (ix2 r (0 : Fin 1)) - k0_pay13 (F := Ideal) v3 v12 v18 v22 (ix2 r (0 : Fin 1))
      + k0_pay12 (F := Ideal) v3 v12 v18 (ix2 r (0 : Fin 1))) (Ideal.ofBits .f32 0x00000000#32)) = _
  rw [pay11_apply v3 hv3, pay13_apply v3 hv3, pay12_apply v3 hv3, Ideal.ofBits_zero_f32]

/-- The first step's zero block of centroid sums. -/
theorem pay5_apply (j : S64x256.Idx) : k0_pay5 (F := Ideal) j = 0 := by
  unfold k0_pay5
  rw [shapeCast_self, broadcast_apply]
  exact Ideal.ofBits_zero_f32

/-- The first step's zero block of distance sums. -/
theorem pay6_apply (j : S64x1.Idx) : k0_pay6 (F := Ideal) j = 0 := by
  unfold k0_pay6
  rw [shapeCast_self, broadcast_apply]
  exact Ideal.ofBits_zero_f32

/-- The last step's copy of the centroid sums under a leading unit axis. -/
theorem pay3_apply (v60 : Vec Ideal S64x256 .f32) (c : Fin 64) (d : Fin 256) :
    k0_pay3 (F := Ideal) v60 (ix3 (0 : Fin 1) c d) = v60 (ix2 c d) := by
  unfold k0_pay3
  rw [shapeCast_ab_1ab_apply]

/-- The last step's copy of the distance sums under a leading unit axis. -/
theorem pay4_apply (v64 : Vec Ideal S64x1 .f32) (c : Fin 64) :
    k0_pay4 (F := Ideal) v64 (ix3 (0 : Fin 1) c (0 : Fin 1)) = v64 (ix2 c (0 : Fin 1)) := by
  unfold k0_pay4
  rw [shapeCast_ab_1ab_apply]

end Cert.KernelIdeal.PayVal

end
-- ==== Proof.NormLaw.lean ====
/-
  Algebra on the extended reals used to compare the two programs: the expansion of a squared Euclidean
  distance on real entries, quotients by non-zero divisors, and two re-indexings of finite sums.
-/
import Mathlib.Data.EReal.Basic
import Mathlib.Data.EReal.Operations
import Mathlib.Data.EReal.Inv
import Mathlib.Algebra.BigOperators.Group.Finset.Basic
import Mathlib.Algebra.BigOperators.Fin
import Mathlib.Algebra.Order.BigOperators.Group.Finset
import Mathlib.Tactic.Ring
import Idealize.ShloMosaic.PureOps.Ideal
import proofs.«413487_j64269890617637_3_alg».proof.Proof.Spec

noncomputable section

open scoped BigOperators

namespace Cert.DB

open Idealize.ShloMosaic

/-- The inclusion of the reals in the extended reals commutes with finite sums. -/
theorem coe_sum_real {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The expansion over the reals: Σ x² − 2 Σ y x + Σ y² = Σ (x − y)². -/
theorem sq_expand_real (x y : Fin 256 → ℝ) :
    (∑ d, x d * x d) - 2 * (∑ d, y d * x d) + ∑ d, y d * y d = ∑ d, (x d - y d) * (x d - y d) := by
  rw [Finset.mul_sum, ← Finset.sum_sub_distrib, ← Finset.sum_add_distrib]
  exact Finset.sum_congr rfl fun d _ => by ring

/-- the expansion |a − b|² = |a|² − 2 b·a + |b|² on real entries, in the grouping the kernel computes it, and the
    maximum with 0 does nothing since a sum of squares of reals is non-negative -/
theorem sq_expand (a b : Fin 256 → EReal) (ha : ∀ d, ∃ r : ℝ, a d = (r : EReal))
    (hb : ∀ d, ∃ r : ℝ, b d = (r : EReal)) :
    max ((∑ d, a d * a d) - (2 : EReal) * (∑ d, b d * a d) + ∑ d, b d * b d) 0
      = ∑ d, (a d - b d) * (a d - b d) := by
  choose x hx using ha
  choose y hy using hb
  have h2 : (2 : EReal) = ((2 : ℝ) : EReal) := rfl
  have hL : (∑ d, a d * a d) - (2 : EReal) * (∑ d, b d * a d) + ∑ d, b d * b d
      = (((∑ d, x d * x d) - 2 * (∑ d, y d * x d) + ∑ d, y d * y d : ℝ) : EReal) := by
    simp only [hx, hy, h2, EReal.coe_add, EReal.coe_sub, EReal.coe_mul, coe_sum_real]
  have hR : ∑ d, (a d - b d) * (a d - b d) = ((∑ d, (x d - y d) * (x d - y d) : ℝ) : EReal) := by
    simp only [hx, hy, EReal.coe_sub, EReal.coe_mul, coe_sum_real]
  rw [hL, hR, sq_expand_real]
  exact max_eq_left (EReal.coe_nonneg.mpr (Finset.sum_nonneg fun d _ => mul_self_nonneg _))

/-- a product of a real by the inverse of a non-zero real is a real -/
theorem real_mul_inv {x y : EReal} (hx : ∃ r : ℝ, x = (r : EReal)) (hy : ∃ r : ℝ, y = (r : EReal))
    (hy0 : y ≠ 0) : ∃ r : ℝ, x * y⁻¹ = (r : EReal) := by
  obtain ⟨r, rfl⟩ := hx
  obtain ⟨s, rfl⟩ := hy
  exact ⟨r * s⁻¹, by rw [EReal.coe_mul, EReal.coe_inv]⟩

/-- the quotient by a non-zero divisor is the product with the inverse, and the reciprocal is the inverse -/
theorem div_eq_mul_inv' (x y : EReal) (hy0 : y ≠ 0) : Ideal.div x y = x * y⁻¹ := by
  rw [Ideal.div, if_neg hy0]

theorem one_div_eq_inv' (y : EReal) (hy0 : y ≠ 0) : Ideal.div 1 y = y⁻¹ := by
  rw [div_eq_mul_inv' 1 y hy0, one_mul]

/-- Row number (p · 32 + s) · 4096 + r, for the half p, the tile s and the row r inside the tile: a bijection
    onto the rows 0 … 262143 (inverse: quotient and remainders by 131072, 4096 and 32). -/
def tileEquiv : Fin 2 × Fin 32 × Fin 4096 ≃ Fin 262144 where
  toFun x := ⟨(x.1.val * 32 + x.2.1.val) * 4096 + x.2.2.val, by omega⟩
  invFun n := (⟨n.val / 131072, by omega⟩, ⟨n.val / 4096 % 32, by omega⟩, ⟨n.val % 4096, by omega⟩)
  left_inv := by
    rintro ⟨p, s, r⟩
    refine Prod.ext (Fin.ext ?_) (Prod.ext (Fin.ext ?_) (Fin.ext ?_)) <;> simp only <;> omega
  right_inv := by
    intro n
    refine Fin.ext ?_
    simp only
    omega

/-- the rows 0 … 262143 are the tiles: 2 halves × 32 tiles × 4096 rows -/
theorem sum_tiles {M : Type*} [AddCommMonoid M] (f : Fin 262144 → M) :
    ∑ n : Fin 262144, f n
      = ∑ p : Fin 2, ∑ s : Fin 32, ∑ r : Fin 4096, f ⟨(p.val * 32 + s.val) * 4096 + r.val, by omega⟩ := by
  rw [← Equiv.sum_comp tileEquiv f, Fintype.sum_prod_type]
  refine Finset.sum_congr rfl fun p _ => ?_
  rw [Fintype.sum_prod_type]
  rfl

/-- a left-to-right accumulation from zero is the sum: if acc 0 = g 0 and acc (s+1) = acc s + g (s+1) then
    acc s = Σ_{i ≤ s} g i, stated for Fin 32 -/
theorem acc_eq_sum {M : Type*} [AddCommMonoid M] (acc g : ℕ → M) (h0 : acc 0 = g 0)
    (hs : ∀ s, acc (s + 1) = acc s + g (s + 1)) (s : ℕ) :
    acc s = ∑ i ∈ Finset.range (s + 1), g i := by
  induction s with
  | zero => rw [h0, Finset.sum_range_one]
  | succ s ih => rw [hs, ih, Finset.sum_range_succ g (s + 1)]

end Cert.DB

end
-- ==== Proof.KValue.Accum.lean ====
/-
  The kernel's two accumulators, tile by tile, over the extended reals.

  The grid is 2 halves of 32 tiles of 4096 rows.  A tile adds to the first accumulator, at (class, entry), the sum of its
  scaled rows of that class, and to the second, at the class, the sum of those rows' distances from the class's centroid.
  The first tile of a half starts both from zero; every other tile continues from what the tile before left; the last
  tile of a half copies both out under a leading unit axis.  Hence after tile `t` the accumulators hold the sums of the
  contributions of the tiles of `t`'s half up to `t`, and what the last tile of half `p` copies out is the sum over the
  32 tiles of that half.

  The distance is computed as the square root of |a|² − 2 b·a + |b|² clamped at 0, with a the centroid of the row's class
  and b the scaled row; on the domain (real entries, non-zero counts) that is the squared Euclidean distance.
-/
import proofs.«413487_j64269890617637_3_alg».proof.Proof.KValue.Names
import proofs.«413487_j64269890617637_3_alg».proof.Proof.KValue.Pieces
import proofs.«413487_j64269890617637_3_alg».proof.Proof.PayloadValue
import proofs.«413487_j64269890617637_3_alg».proof.Proof.NormLaw
import proofs.«413487_j64269890617637_3_alg».proof.Proof.KValue.TileSpec
import proofs.«413487_j64269890617637_3_alg».proof.Proof.Spec

set_option maxRecDepth 16384

noncomputable section

open scoped BigOperators

namespace Cert.KernelIdeal.KVal

open Idealize.ShloMosaic Idealize.ShloMosaic.ValueIdx Idealize.ShloMosaic.TcCoe
open Cert.KernelIdeal Cert.KernelIdeal.Gen Cert.KernelIdeal.Hand Cert.KernelIdeal.PayVal

variable (m : (ℓ : Loc nD τ sig) → Buf (Elt Ideal) ℓ) (c : Dev nD)

/-- every class word of a tile is below 64 on the domain -/
theorem blk1_lt (hD : Cert.DB.Dom (a0 m c) (a1 m c) (a2 m c) (a3 m c) (a4 m c) (a5 m c)) (t : Fin cfg0.N) (r : Fin 4096) :
    (blk1 m c t (ix2 r (0 : Fin 1))).toNat < 64 := by
  rw [blk1_apply]
  exact hD.tgt_lt _

/-- the class of a tile row is the class of the row it is in the whole array -/
theorem kappa_eq (t : Fin cfg0.N) (r : Fin 4096) : κ (blk1 m c t) r = (kk m c) (Cert.DB.rowOf (T t) r) := by
  refine Fin.ext ?_
  show (blk1 m c t (ix2 r (0 : Fin 1))).toNat % 64 = _
  rw [blk1_apply]
  rfl

/-- one tile's update of the first accumulator, read at (k', d): what was there plus the tile's contribution -/
theorem step0 (hD : Cert.DB.Dom (a0 m c) (a1 m c) (a2 m c) (a3 m c) (a4 m c) (a5 m c)) (t : Fin cfg0.N) (acc : Vec Ideal S64x256 .f32) (k' : Fin 64) (d : Fin 256) :
    k0_pay1 (F := Ideal) (k0_pay8 (blk1 m c t)) (k0_pay10 (blk1 m c t) (blk3 m c t) (blk0 m c t)) acc (ix2 k' d)
      = acc (ix2 k' d) + Cert.DB.tile0 (a0 m c) (a3 m c) (kk m c) (T t) k' d := by
  refine (pay1_apply (blk1 m c t) (blk3 m c t) (blk0 m c t) acc (blk1_lt m c hD t) k' d).trans ?_
  unfold Cert.DB.tile0
  refine congrArg (acc (ix2 k' d) + ·) (Finset.sum_congr rfl fun r _ => ?_)
  rw [kappa_eq m c t r]
  refine if_congr Iff.rfl ?_ rfl
  rw [blk0_apply, blk3_apply, Cert.DB.one_div_eq_inv' _ (hD.cnt_ne _)]
  rfl

/-- one tile's update of the second accumulator: needs the domain (real entries, non-zero counts) for the expansion of the squared distance -/
theorem step1 (hD : Cert.DB.Dom (a0 m c) (a1 m c) (a2 m c) (a3 m c) (a4 m c) (a5 m c)) (t : Fin cfg0.N) (acc : Vec Ideal S64x1 .f32) (k' : Fin 64) :
    k0_pay2 (F := Ideal) (k0_pay8 (blk1 m c t)) (k0_pay11 (blk1 m c t) (blk4 m c t)) (k0_pay12 (blk1 m c t) (blk3 m c t) (blk0 m c t)) (k0_pay13 (blk1 m c t) (blk3 m c t) (blk0 m c t) (blk2 m c t)) acc (ix2 k' (0 : Fin 1))
      = acc (ix2 k' (0 : Fin 1)) + Cert.DB.tile1 (a0 m c) (a1 m c) (a3 m c) (kk m c) (T t) k' := by
  refine (pay2_apply (blk1 m c t) (blk3 m c t) (blk4 m c t) (blk0 m c t) (blk2 m c t) acc (blk1_lt m c hD t) k').trans ?_
  unfold Cert.DB.tile1
  refine congrArg (acc (ix2 k' (0 : Fin 1)) + ·) (Finset.sum_congr rfl fun r _ => ?_)
  rw [kappa_eq m c t r]
  refine if_congr Iff.rfl ?_ rfl
  unfold Cert.DB.vec Cert.DB.sqDist
  refine congrArg Ideal.sqrt ?_
  have ha : ∀ d : Fin 256, ∃ x : ℝ, (a1 m c) (ix2 ((kk m c) (Cert.DB.rowOf (T t) r)) d) = (x : EReal) := fun d => hD.cent_real _
  have hb : ∀ d : Fin 256, ∃ x : ℝ, Cert.DB.pr (a0 m c) (a3 m c) (kk m c) (Cert.DB.rowOf (T t) r) d = (x : EReal) := fun d =>
    Cert.DB.real_mul_inv (hD.pred_real _) (hD.cnt_real _) (hD.cnt_ne _)
  refine Eq.trans ?_ (Cert.DB.sq_expand (fun d => (a1 m c) (ix2 ((kk m c) (Cert.DB.rowOf (T t) r)) d))
    (fun d => Cert.DB.pr (a0 m c) (a3 m c) (kk m c) (Cert.DB.rowOf (T t) r) d) ha hb)
  refine congrArg (max · (0 : EReal)) ?_
  refine congrArg₂ (· + ·) (congrArg₂ (· - ·) (blk4_apply_of m c (a1 m c) rfl t _)
    (congrArg ((2 : EReal) * ·) (Finset.sum_congr rfl fun d _ => ?_))) (Finset.sum_congr rfl fun d _ => ?_)
  · rw [blk0_apply, blk3_apply, blk2_apply, Cert.DB.one_div_eq_inv' _ (hD.cnt_ne _)]
    rfl
  · rw [blk0_apply, blk3_apply, Cert.DB.one_div_eq_inv' _ (hD.cnt_ne _)]
    rfl

/-! ### The accumulators after a tile, case by case -/

/-- What the tile before `t` left in the first accumulator. -/
abbrev prev0 (t : Fin cfg0.N) : Vec Ideal S64x256 .f32 :=
  (outsAt0 (F := Ideal) m c (t.val - 1) (Nat.lt_of_le_of_lt (Nat.sub_le _ _) t.isLt)).2.2.1
/-- What the tile before `t` left in the second accumulator. -/
abbrev prev1 (t : Fin cfg0.N) : Vec Ideal S64x1 .f32 :=
  (outsAt0 (F := Ideal) m c (t.val - 1) (Nat.lt_of_le_of_lt (Nat.sub_le _ _) t.isLt)).2.2.2

/-- The first accumulator after the first tile of a half: the update of the zero block. -/
theorem acc0_A (t : Fin cfg0.N) (h0 : t.val % 32 = 0) (h1 : ¬t.val % 32 = 31) :
    (outsAt0 (F := Ideal) m c t.val t.isLt).2.2.1
      = k0_pay1 (F := Ideal) (k0_pay8 (blk1 m c t)) (k0_pay10 (blk1 m c t) (blk3 m c t) (blk0 m c t)) (k0_pay5 (F := Ideal)) := by
  rw [outsAt0_A m c t h0 h1]
  dsimp only
  exact sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (blk0 m c t) (blk1 m c t) (blk2 m c t) (blk3 m c t) (blk4 m c t)

/-- The second accumulator after the first tile of a half: the update of the zero block. -/
theorem acc1_A (t : Fin cfg0.N) (h0 : t.val % 32 = 0) (h1 : ¬t.val % 32 = 31) :
    (outsAt0 (F := Ideal) m c t.val t.isLt).2.2.2
      = k0_pay2 (F := Ideal) (k0_pay8 (blk1 m c t)) (k0_pay11 (blk1 m c t) (blk4 m c t)) (k0_pay12 (blk1 m c t) (blk3 m c t) (blk0 m c t)) (k0_pay13 (blk1 m c t) (blk3 m c t) (blk0 m c t) (blk2 m c t)) (k0_pay6 (F := Ideal)) := by
  rw [outsAt0_A m c t h0 h1]
  dsimp only
  exact sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (blk0 m c t) (blk1 m c t) (blk2 m c t) (blk3 m c t) (blk4 m c t)

/-- The first accumulator after a middle tile: the update of what the tile before left. -/
theorem acc0_B (t : Fin cfg0.N) (h0 : ¬t.val % 32 = 0) (h1 : ¬t.val % 32 = 31) :
    (outsAt0 (F := Ideal) m c t.val t.isLt).2.2.1
      = k0_pay1 (F := Ideal) (k0_pay8 (blk1 m c t)) (k0_pay10 (blk1 m c t) (blk3 m c t) (blk0 m c t)) (prev0 m c t) := by
  rw [outsAt0_B m c t h0 h1]
  dsimp only
  exact sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (blk0 m c t) (blk1 m c t) (blk2 m c t) (blk3 m c t) (blk4 m c t) (prev0 m c t) (prev1 m c t)

/-- The second accumulator after a middle tile: the update of what the tile before left. -/
theorem acc1_B (t : Fin cfg0.N) (h0 : ¬t.val % 32 = 0) (h1 : ¬t.val % 32 = 31) :
    (outsAt0 (F := Ideal) m c t.val t.isLt).2.2.2
      = k0_pay2 (F := Ideal) (k0_pay8 (blk1 m c t)) (k0_pay11 (blk1 m c t) (blk4 m c t)) (k0_pay12 (blk1 m c t) (blk3 m c t) (blk0 m c t)) (k0_pay13 (blk1 m c t) (blk3 m c t) (blk0 m c t) (blk2 m c t)) (prev1 m c t) := by
  rw [outsAt0_B m c t h0 h1]
  dsimp only
  exact sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (blk0 m c t) (blk1 m c t) (blk2 m c t) (blk3 m c t) (blk4 m c t) (prev0 m c t) (prev1 m c t)

/-- The first accumulator after the last tile of a half: the update of what the tile before left. -/
theorem acc0_C (t : Fin cfg0.N) (h0 : ¬t.val % 32 = 0) (h1 : t.val % 32 = 31) :
    (outsAt0 (F := Ideal) m c t.val t.isLt).2.2.1
      = k0_pay1 (F := Ideal) (k0_pay8 (blk1 m c t)) (k0_pay10 (blk1 m c t) (blk3 m c t) (blk0 m c t)) (prev0 m c t) := by
  rw [outsAt0_C m c t h0 h1]
  dsimp only
  exact sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (blk0 m c t) (blk1 m c t) (blk2 m c t) (blk3 m c t) (blk4 m c t) (prev0 m c t) (prev1 m c t)

/-- The second accumulator after the last tile of a half: the update of what the tile before left. -/
theorem acc1_C (t : Fin cfg0.N) (h0 : ¬t.val % 32 = 0) (h1 : t.val % 32 = 31) :
    (outsAt0 (F := Ideal) m c t.val t.isLt).2.2.2
      = k0_pay2 (F := Ideal) (k0_pay8 (blk1 m c t)) (k0_pay11 (blk1 m c t) (blk4 m c t)) (k0_pay12 (blk1 m c t) (blk3 m c t) (blk0 m c t)) (k0_pay13 (blk1 m c t) (blk3 m c t) (blk0 m c t) (blk2 m c t)) (prev1 m c t) := by
  rw [outsAt0_C m c t h0 h1]
  dsimp only
  exact sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (blk0 m c t) (blk1 m c t) (blk2 m c t) (blk3 m c t) (blk4 m c t) (prev0 m c t) (prev1 m c t)

/-- The first output block after the last tile of a half: the copy of the updated first accumulator. -/
theorem out5_C (t : Fin cfg0.N) (h0 : ¬t.val % 32 = 0) (h1 : t.val % 32 = 31) :
    (outsAt0 (F := Ideal) m c t.val t.isLt).1
      = k0_pay3 (F := Ideal) (k0_pay1 (F := Ideal) (k0_pay8 (blk1 m c t)) (k0_pay10 (blk1 m c t) (blk3 m c t) (blk0 m c t)) (prev0 m c t)) := by
  rw [outsAt0_C m c t h0 h1]
  dsimp only
  exact out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (blk0 m c t) (blk1 m c t) (blk2 m c t) (blk3 m c t) (blk4 m c t) (prev0 m c t) (prev1 m c t)

/-- The second output block after the last tile of a half: the copy of the updated second accumulator. -/
theorem out6_C (t : Fin cfg0.N) (h0 : ¬t.val % 32 = 0) (h1 : t.val % 32 = 31) :
    (outsAt0 (F := Ideal) m c t.val t.isLt).2.1
      = k0_pay4 (F := Ideal) (k0_pay2 (F := Ideal) (k0_pay8 (blk1 m c t)) (k0_pay11 (blk1 m c t) (blk4 m c t)) (k0_pay12 (blk1 m c t) (blk3 m c t) (blk0 m c t)) (k0_pay13 (blk1 m c t) (blk3 m c t) (blk0 m c t) (blk2 m c t)) (prev1 m c t)) := by
  rw [outsAt0_C m c t h0 h1]
  dsimp only
  exact out0_C_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (blk0 m c t) (blk1 m c t) (blk2 m c t) (blk3 m c t) (blk4 m c t) (prev0 m c t) (prev1 m c t)

/-! ### The sum over a half -/

/-- An accumulation that starts afresh at every multiple of 32 holds, at position `n`, the sum of the contributions
    since the last fresh start. -/
theorem half_sum {M : Type*} [AddCommMonoid M] (N : ℕ) (f g : ℕ → M)
    (hA : ∀ n, n < N → n % 32 = 0 → f n = g n)
    (hB : ∀ n, n < N → ¬n % 32 = 0 → f n = f (n - 1) + g n) (n : ℕ) (hn : n < N) :
    f n = ∑ s ∈ Finset.range (n % 32 + 1), g (n - n % 32 + s) := by
  induction n using Nat.strong_induction_on with
  | _ n ih =>
    by_cases h0 : n % 32 = 0
    · have e : n % 32 + 1 = 1 := by omega
      rw [hA n hn h0, e, Finset.sum_range_one]
      exact congrArg g (by omega)
    · have e1 : n % 32 + 1 = ((n - 1) % 32 + 1) + 1 := by omega
      have e2 : n - n % 32 = n - 1 - (n - 1) % 32 := by omega
      rw [hB n hn h0, ih (n - 1) (by omega) (by omega), e1, Finset.sum_range_succ _ ((n - 1) % 32 + 1), e2]
      refine congrArg₂ (· + ·) rfl (congrArg g ?_)
      omega

/-- after the first tile of a half the first accumulator holds that tile's contribution -/
theorem acc0_first (hD : Cert.DB.Dom (a0 m c) (a1 m c) (a2 m c) (a3 m c) (a4 m c) (a5 m c)) (t : Fin cfg0.N) (h0 : t.val % 32 = 0) (k' : Fin 64) (d : Fin 256) :
    (outsAt0 (F := Ideal) m c t.val t.isLt).2.2.1 (ix2 k' d) = Cert.DB.tile0 (a0 m c) (a3 m c) (kk m c) (T t) k' d := by
  have h1 : ¬t.val % 32 = 31 := by omega
  refine (congrFun (acc0_A m c t h0 h1) (ix2 k' d)).trans ((step0 m c hD t _ k' d).trans ?_)
  rw [pay5_apply, zero_add]

/-- after any other tile it holds what the tile before left plus the tile's contribution -/
theorem acc0_next (hD : Cert.DB.Dom (a0 m c) (a1 m c) (a2 m c) (a3 m c) (a4 m c) (a5 m c)) (t : Fin cfg0.N) (h0 : ¬t.val % 32 = 0) (k' : Fin 64) (d : Fin 256) :
    (outsAt0 (F := Ideal) m c t.val t.isLt).2.2.1 (ix2 k' d)
      = prev0 m c t (ix2 k' d) + Cert.DB.tile0 (a0 m c) (a3 m c) (kk m c) (T t) k' d := by
  by_cases h1 : t.val % 32 = 31
  · exact (congrFun (acc0_C m c t h0 h1) (ix2 k' d)).trans (step0 m c hD t _ k' d)
  · exact (congrFun (acc0_B m c t h0 h1) (ix2 k' d)).trans (step0 m c hD t _ k' d)

/-- the same for the second accumulator -/
theorem acc1_first (hD : Cert.DB.Dom (a0 m c) (a1 m c) (a2 m c) (a3 m c) (a4 m c) (a5 m c)) (t : Fin cfg0.N) (h0 : t.val % 32 = 0) (k' : Fin 64) :
    (outsAt0 (F := Ideal) m c t.val t.isLt).2.2.2 (ix2 k' (0 : Fin 1)) = Cert.DB.tile1 (a0 m c) (a1 m c) (a3 m c) (kk m c) (T t) k' := by
  have h1 : ¬t.val % 32 = 31 := by omega
  refine (congrFun (acc1_A m c t h0 h1) (ix2 k' (0 : Fin 1))).trans ((step1 m c hD t _ k').trans ?_)
  rw [pay6_apply, zero_add]

theorem acc1_next (hD : Cert.DB.Dom (a0 m c) (a1 m c) (a2 m c) (a3 m c) (a4 m c) (a5 m c)) (t : Fin cfg0.N) (h0 : ¬t.val % 32 = 0) (k' : Fin 64) :
    (outsAt0 (F := Ideal) m c t.val t.isLt).2.2.2 (ix2 k' (0 : Fin 1))
      = prev1 m c t (ix2 k' (0 : Fin 1)) + Cert.DB.tile1 (a0 m c) (a1 m c) (a3 m c) (kk m c) (T t) k' := by
  by_cases h1 : t.val % 32 = 31
  · exact (congrFun (acc1_C m c t h0 h1) (ix2 k' (0 : Fin 1))).trans (step1 m c hD t _ k')
  · exact (congrFun (acc1_B m c t h0 h1) (ix2 k' (0 : Fin 1))).trans (step1 m c hD t _ k')

/-- after tile `t` the first accumulator holds the sum over the tiles of `t`'s half up to `t` -/
theorem acc0_eq (hD : Cert.DB.Dom (a0 m c) (a1 m c) (a2 m c) (a3 m c) (a4 m c) (a5 m c)) (t : Fin cfg0.N) (k' : Fin 64) (d : Fin 256) :
    (outsAt0 (F := Ideal) m c t.val t.isLt).2.2.1 (ix2 k' d)
      = ∑ s ∈ Finset.range (t.val % 32 + 1),
          if h : t.val - t.val % 32 + s < 64 then Cert.DB.tile0 (a0 m c) (a3 m c) (kk m c) ⟨t.val - t.val % 32 + s, h⟩ k' d else 0 := by
  have hN : cfg0.N = 64 := N_0
  let f : ℕ → EReal := fun n => if h : n < cfg0.N then (outsAt0 (F := Ideal) m c n h).2.2.1 (ix2 k' d) else 0
  let g : ℕ → EReal := fun n => if h : n < 64 then Cert.DB.tile0 (a0 m c) (a3 m c) (kk m c) ⟨n, h⟩ k' d else 0
  have hA : ∀ n, n < cfg0.N → n % 32 = 0 → f n = g n := fun n hn h0 => by
    have hn' : n < 64 := by omega
    show (if h : n < cfg0.N then _ else _) = (if h : n < 64 then _ else _)
    rw [dif_pos hn, dif_pos hn']
    exact acc0_first m c hD ⟨n, hn⟩ h0 k' d
  have hB : ∀ n, n < cfg0.N → ¬n % 32 = 0 → f n = f (n - 1) + g n := fun n hn h0 => by
    have hn' : n < 64 := by omega
    have hn1 : n - 1 < cfg0.N := by omega
    show (if h : n < cfg0.N then _ else _) = (if h : n - 1 < cfg0.N then _ else _) + (if h : n < 64 then _ else _)
    rw [dif_pos hn, dif_pos hn1, dif_pos hn']
    exact acc0_next m c hD ⟨n, hn⟩ h0 k' d
  exact (dif_pos t.isLt).symm.trans (half_sum cfg0.N f g hA hB t.val t.isLt)

/-- after tile `t` the second accumulator holds the sum over the tiles of `t`'s half up to `t` -/
theorem acc1_eq (hD : Cert.DB.Dom (a0 m c) (a1 m c) (a2 m c) (a3 m c) (a4 m c) (a5 m c)) (t : Fin cfg0.N) (k' : Fin 64) :
    (outsAt0 (F := Ideal) m c t.val t.isLt).2.2.2 (ix2 k' (0 : Fin 1))
      = ∑ s ∈ Finset.range (t.val % 32 + 1),
          if h : t.val - t.val % 32 + s < 64 then Cert.DB.tile1 (a0 m c) (a1 m c) (a3 m c) (kk m c) ⟨t.val - t.val % 32 + s, h⟩ k' else 0 := by
  have hN : cfg0.N = 64 := N_0
  let f : ℕ → EReal := fun n => if h : n < cfg0.N then (outsAt0 (F := Ideal) m c n h).2.2.2 (ix2 k' (0 : Fin 1)) else 0
  let g : ℕ → EReal := fun n => if h : n < 64 then Cert.DB.tile1 (a0 m c) (a1 m c) (a3 m c) (kk m c) ⟨n, h⟩ k' else 0
  have hA : ∀ n, n < cfg0.N → n % 32 = 0 → f n = g n := fun n hn h0 => by
    have hn' : n < 64 := by omega
    show (if h : n < cfg0.N then _ else _) = (if h : n < 64 then _ else _)
    rw [dif_pos hn, dif_pos hn']
    exact acc1_first m c hD ⟨n, hn⟩ h0 k'
  have hB : ∀ n, n < cfg0.N → ¬n % 32 = 0 → f n = f (n - 1) + g n := fun n hn h0 => by
    have hn' : n < 64 := by omega
    have hn1 : n - 1 < cfg0.N := by omega
    show (if h : n < cfg0.N then _ else _) = (if h : n - 1 < cfg0.N then _ else _) + (if h : n < 64 then _ else _)
    rw [dif_pos hn, dif_pos hn1, dif_pos hn']
    exact acc1_next m c hD ⟨n, hn⟩ h0 k'
  exact (dif_pos t.isLt).symm.trans (half_sum cfg0.N f g hA hB t.val t.isLt)

/-! ### What the last tile of a half copies out -/

/-- the first output block after the last tile of half `p`, for a grid point known to be that tile -/
theorem out5_at (hD : Cert.DB.Dom (a0 m c) (a1 m c) (a2 m c) (a3 m c) (a4 m c) (a5 m c)) (p : Fin 2) (t : Fin cfg0.N) (ht : t.val = p.val * 32 + 31) (k' : Fin 64) (d : Fin 256) :
    (outsAt0 (F := Ideal) m c t.val t.isLt).1 (ix3 (0 : Fin 1) k' d)
      = ∑ s : Fin 32, Cert.DB.tile0 (a0 m c) (a3 m c) (kk m c) (Cert.DB.tileOf p s) k' d := by
  have hp := p.isLt
  have h0 : ¬t.val % 32 = 0 := by omega
  have h1 : t.val % 32 = 31 := by omega
  refine (congrFun (out5_C m c t h0 h1) (ix3 (0 : Fin 1) k' d)).trans ?_
  refine (pay3_apply _ k' d).trans ?_
  refine (congrFun (acc0_C m c t h0 h1) (ix2 k' d)).symm.trans ?_
  refine (acc0_eq m c hD t k' d).trans ?_
  have e : t.val % 32 + 1 = 32 := by omega
  rw [e, Finset.sum_range]
  refine Finset.sum_congr rfl fun s _ => ?_
  have hs := s.isLt
  have hlt : t.val - t.val % 32 + s.val < 64 := by omega
  rw [dif_pos hlt]
  refine congrArg (fun u => Cert.DB.tile0 (a0 m c) (a3 m c) (kk m c) u k' d) (Fin.ext ?_)
  show t.val - t.val % 32 + s.val = p.val * 32 + s.val
  omega

/-- the second output block after the last tile of half `p`, for a grid point known to be that tile -/
theorem out6_at (hD : Cert.DB.Dom (a0 m c) (a1 m c) (a2 m c) (a3 m c) (a4 m c) (a5 m c)) (p : Fin 2) (t : Fin cfg0.N) (ht : t.val = p.val * 32 + 31) (k' : Fin 64) :
    (outsAt0 (F := Ideal) m c t.val t.isLt).2.1 (ix3 (0 : Fin 1) k' (0 : Fin 1))
      = ∑ s : Fin 32, Cert.DB.tile1 (a0 m c) (a1 m c) (a3 m c) (kk m c) (Cert.DB.tileOf p s) k' := by
  have hp := p.isLt
  have h0 : ¬t.val % 32 = 0 := by omega
  have h1 : t.val % 32 = 31 := by omega
  refine (congrFun (out6_C m c t h0 h1) (ix3 (0 : Fin 1) k' (0 : Fin 1))).trans ?_
  refine (pay4_apply _ k').trans ?_
  refine (congrFun (acc1_C m c t h0 h1) (ix2 k' (0 : Fin 1))).symm.trans ?_
  refine (acc1_eq m c hD t k').trans ?_
  have e : t.val % 32 + 1 = 32 := by omega
  rw [e, Finset.sum_range]
  refine Finset.sum_congr rfl fun s _ => ?_
  have hs := s.isLt
  have hlt : t.val - t.val % 32 + s.val < 64 := by omega
  rw [dif_pos hlt]
  refine congrArg (fun u => Cert.DB.tile1 (a0 m c) (a1 m c) (a3 m c) (kk m c) u k') (Fin.ext ?_)
  show t.val - t.val % 32 + s.val = p.val * 32 + s.val
  omega

/-- what the last tile of half `p` copies out: the sums over the half's 32 tiles -/
theorem out5_eq (hD : Cert.DB.Dom (a0 m c) (a1 m c) (a2 m c) (a3 m c) (a4 m c) (a5 m c)) (p : Fin 2) (k' : Fin 64) (d : Fin 256) :
    (outsAt0 (F := Ideal) m c (p.val * 32 + 31) (by have := p.isLt; have hN : cfg0.N = 64 := N_0; omega)).1 (ix3 (0 : Fin 1) k' d)
      = ∑ s : Fin 32, Cert.DB.tile0 (a0 m c) (a3 m c) (kk m c) (Cert.DB.tileOf p s) k' d :=
  out5_at m c hD p ⟨p.val * 32 + 31, by have := p.isLt; have hN : cfg0.N = 64 := N_0; omega⟩ rfl k' d

theorem out6_eq (hD : Cert.DB.Dom (a0 m c) (a1 m c) (a2 m c) (a3 m c) (a4 m c) (a5 m c)) (p : Fin 2) (k' : Fin 64) :
    (outsAt0 (F := Ideal) m c (p.val * 32 + 31) (by have := p.isLt; have hN : cfg0.N = 64 := N_0; omega)).2.1 (ix3 (0 : Fin 1) k' (0 : Fin 1))
      = ∑ s : Fin 32, Cert.DB.tile1 (a0 m c) (a1 m c) (a3 m c) (kk m c) (Cert.DB.tileOf p s) k' :=
  out6_at m c hD p ⟨p.val * 32 + 31, by have := p.isLt; have hN : cfg0.N = 64 := N_0; omega⟩ rfl k'

end Cert.KernelIdeal.KVal

end
-- ==== Proof.KValue.TileSum.lean ====
/-
  The whole sums of the specification are the sums of the tiles' contributions, half by half, in the grouping in which
  the kernel's host lines add the two halves to the old centroids and distance sums.
-/
import proofs.«413487_j64269890617637_3_alg».proof.Proof.KValue.TileSpec
import proofs.«413487_j64269890617637_3_alg».proof.Proof.NormLaw

noncomputable section

open scoped BigOperators

namespace Cert.DB

open Idealize.ShloMosaic Idealize.ShloMosaic.ValueIdx

/-- Row `r` of tile `s` of half `p` is row `(p·32 + s)·4096 + r`. -/
theorem rowOf_tileOf (p : Fin 2) (s : Fin 32) (r : Fin 4096) (h : (p.val * 32 + s.val) * 4096 + r.val < 262144) :
    (⟨(p.val * 32 + s.val) * 4096 + r.val, h⟩ : Fin 262144) = rowOf (tileOf p s) r := Fin.ext rfl

/-- A sum over all rows is the sum over the first half's tiles plus the sum over the second half's tiles. -/
theorem sum_rows_halves (f : Fin 262144 → EReal) :
    ∑ n : Fin 262144, f n = (∑ s : Fin 32, ∑ r : Fin 4096, f (rowOf (tileOf 0 s) r)) + ∑ s : Fin 32, ∑ r : Fin 4096, f (rowOf (tileOf 1 s) r) := by
  rw [sum_tiles f, Fin.sum_univ_two]
  refine congrArg₂ (· + ·) ?_ ?_
  · exact Finset.sum_congr rfl fun s _ => Finset.sum_congr rfl fun r _ => congrArg f (rowOf_tileOf 0 s r _)
  · exact Finset.sum_congr rfl fun s _ => Finset.sum_congr rfl fun r _ => congrArg f (rowOf_tileOf 1 s r _)

section
variable (pred : (⟨2, ![262144, 256]⟩ : Shape).Idx → EReal) (cent : (⟨2, ![64, 256]⟩ : Shape).Idx → EReal)
  (dist cnt : (⟨2, ![64, 1]⟩ : Shape).Idx → EReal) (k : Fin 262144 → Fin 64)

/-- The new centroid entry: the old one, plus the first half's tiles, plus the second half's tiles. -/
theorem centNew_tiles (k' : Fin 64) (d : Fin 256) :
    centNew pred cent cnt k k' d
      = (cent (ix2 k' d) + ∑ s : Fin 32, tile0 pred cnt k (tileOf 0 s) k' d) + ∑ s : Fin 32, tile0 pred cnt k (tileOf 1 s) k' d := by
  unfold centNew tile0
  rw [sum_rows_halves, add_assoc]

/-- The new distance sum: the old one, plus the first half's tiles, plus the second half's tiles. -/
theorem sRaw_tiles (k' : Fin 64) :
    sRaw pred cent dist cnt k k'
      = (dist (ix2 k' (0 : Fin 1)) + ∑ s : Fin 32, tile1 pred cent cnt k (tileOf 0 s) k') + ∑ s : Fin 32, tile1 pred cent cnt k (tileOf 1 s) k' := by
  unfold sRaw tile1
  rw [sum_rows_halves, add_assoc]
end

end Cert.DB

end
-- ==== Proof.KValue.KRun.lean ====
/-
  The idealized kernel program's run with its result named: every weakly fair execution terminates, the six argument
  arrays end as launched, and the scalar result is the shared closing computation applied to the specification's new
  centroids and new distance sums.  The two output arrays are the halves' sums of tile contributions; the host lines
  after the region add the two halves to the old centroids and distance sums, which is the specification's whole sum.
-/
import proofs.«413487_j64269890617637_3_alg».proof.Proof.FrameKI.Frame
import proofs.«413487_j64269890617637_3_alg».proof.Proof.KValue.Tail
import proofs.«413487_j64269890617637_3_alg».proof.Proof.KValue.Arrays
import proofs.«413487_j64269890617637_3_alg».proof.Proof.KValue.Accum
import proofs.«413487_j64269890617637_3_alg».proof.Proof.KValue.TileSum
import proofs.«413487_j64269890617637_3_alg».proof.Proof.KValue.Names
import proofs.«413487_j64269890617637_3_alg».proof.Proof.Spec

noncomputable section

namespace Cert.KernelIdeal.KVal

open Idealize.ShloMosaic Idealize.ShloMosaic.TcCoe Idealize.SL.Sem Idealize.ShloMosaic.ValueIdx
open Cert.KernelIdeal Cert.KernelIdeal.Gen Cert.KernelIdeal.Hand

variable (m : (ℓ : Loc nD τ sig) → Buf (Elt Ideal) ℓ) (ρ : Dev nD → PrngReg)
/-- If each half of an array holds the half's sum of tile contributions, the old centroids plus the two halves are
    the specification's new centroids. -/
theorem cn_of (pred : S262144x256.Idx → EReal) (cent : S64x256.Idx → EReal) (cnt : S64x1.Idx → EReal) (k : Fin 262144 → Fin 64)
    (o5 : S2x64x256.Idx → EReal)
    (h : ∀ (p : Fin 2) (k' : Fin 64) (d : Fin 256), o5 (ix3 p k' d) = ∑ s : Fin 32, Cert.DB.tile0 pred cnt k (Cert.DB.tileOf p s) k' d) :
    cnK (F := Ideal) cent o5 = Cert.DB.centNewArr pred cent cnt k := by
  funext j
  obtain ⟨k', d, rfl⟩ : ∃ (k' : Fin 64) (d : Fin 256), j = ix2 k' d := ⟨j 0, j 1, eq_ix2 j⟩
  rw [cnK_apply, Cert.DB.centNewArr_apply, Cert.DB.centNew_tiles, h 0 k' d, h 1 k' d]

/-- The same for the distance sums. -/
theorem sr_of (pred : S262144x256.Idx → EReal) (cent : S64x256.Idx → EReal) (dist cnt : S64x1.Idx → EReal) (k : Fin 262144 → Fin 64)
    (o6 : S2x64x1.Idx → EReal)
    (h : ∀ (p : Fin 2) (k' : Fin 64), o6 (ix3 p k' (0 : Fin 1)) = ∑ s : Fin 32, Cert.DB.tile1 pred cent cnt k (Cert.DB.tileOf p s) k') :
    srK (F := Ideal) dist o6 = Cert.DB.sRawArr pred cent dist cnt k := by
  funext j
  obtain ⟨k', e, rfl⟩ : ∃ (k' : Fin 64) (e : Fin 1), j = ix2 k' e := ⟨j 0, j 1, eq_ix2 j⟩
  obtain rfl : e = (0 : Fin 1) := Subsingleton.elim _ _
  rw [srK_apply, Cert.DB.sRawArr_apply, Cert.DB.sRaw_tiles, h 0 k', h 1 k']

/-- The old centroids plus the two halves of output 5 are the specification's new centroids. -/
theorem cn_eq (c : Dev nD) (hD : Cert.DB.Dom (a0 m c) (a1 m c) (a2 m c) (a3 m c) (a4 m c) (a5 m c)) :
    cnK (F := Ideal) (a1 m c) ((dats m 0 c).arrAt 5 cfg0.N)
      = Cert.DB.centNewArr (a0 m c) (a1 m c) (a3 m c) (kk m c) :=
  cn_of (a0 m c) (a1 m c) (a3 m c) (kk m c) _ fun p k' d => (arr5_eq m c p k' d).trans (out5_eq m c hD p k' d)

/-- The old distance sums plus the two halves of output 6 are the specification's new distance sums. -/
theorem sr_eq (c : Dev nD) (hD : Cert.DB.Dom (a0 m c) (a1 m c) (a2 m c) (a3 m c) (a4 m c) (a5 m c)) :
    srK (F := Ideal) (a2 m c) ((dats m 0 c).arrAt 6 cfg0.N)
      = Cert.DB.sRawArr (a0 m c) (a1 m c) (a2 m c) (a3 m c) (kk m c) :=
  sr_of (a0 m c) (a1 m c) (a2 m c) (a3 m c) (kk m c) _ fun p k' => (arr6_eq m c p k').trans (out6_eq m c hD p k')

/-- The run of the idealized kernel program with its result named. -/
theorem run_value (hD : ∀ c : Dev nD, Cert.DB.Dom (a0 m c) (a1 m c) (a2 m c) (a3 m c) (a4 m c) (a5 m c)) :
    θ_run defs (onTc (τ := τ) (main (F := Ideal))) ⟨m, fun _ => 0, ρ⟩ (fun r => ∀ c : Dev nD,
      r.2.mem ((c.tc : Thread nD τ).loc main_v60)
          = tailK (F := Ideal) (Cert.DB.centNewArr (a0 m c) (a1 m c) (a3 m c) (kk m c))
              (Cert.DB.sRawArr (a0 m c) (a1 m c) (a2 m c) (a3 m c) (kk m c)) (a3 m c) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    ((h c).2 main_v60 (Pipeline.mem_restRefs_of main_v60 (by decide) (by decide))).trans
      ((tail_value m (dats m) c).trans (by
        show tailK (F := Ideal) (cnK (F := Ideal) (a1 m c) ((dats m 0 c).arrAt 5 cfg0.N)) (srK (F := Ideal) (a2 m c) ((dats m 0 c).arrAt 6 cfg0.N)) (a3 m c) (a4 m c) = _
        rw [cn_eq m c (hD c), sr_eq m c (hD c)])),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c)⟩)
    (run_main (F := Ideal) m ρ)

end Cert.KernelIdeal.KVal

end
-- ==== Proof.RefValue.lean ====
/-
  What the reference program's two scatter-adds hold, index by index, over the extended reals.

  On the domain every index word is below 64, hence non-negative as a signed word: the wrap-around select
  `target < 0 ? target + 64 : target` keeps it, a gather's clamp into `[0, 63]` does nothing, and no update of a
  scatter is dropped.  The class of row `n` is then `clsOf n`.  A gather at row `n` reads the operand's row
  `clsOf n`; a scatter-add at `(c, d)` holds the operand there plus the updates `(n, d)` over the rows `n` of
  class `c`: the update `(n, d')` lands at `(clsOf n, d')`, so the filtered sum over all update indices is the sum
  over `n` of the update at `(n, d)` when `clsOf n = c` and of nothing otherwise.
-/
import proofs.«413487_j64269890617637_3_alg».proof.Proof.Gen.ReferenceIdeal.Read
import proofs.«413487_j64269890617637_3_alg».proof.Proof.Spec
import proofs.«413487_j64269890617637_3_alg».proof.Proof.NormLaw
import Idealize.ShloMosaic.Lib.ValueIdx
import Idealize.ShloMosaic.Lib.Pipeline.Value
import Idealize.ShloMosaic.PureOps.Ideal.Laws

noncomputable section

open scoped BigOperators

namespace Cert.ReferenceIdeal.RefVal

open Cert.ReferenceIdeal Cert.ReferenceIdeal.Read Idealize.ShloMosaic Idealize.ShloMosaic.ValueIdx

/-- A word below 64 is non-negative as a signed word. -/
theorem toInt_of_lt (w : BitVec 32) (h : w.toNat < 64) : w.toInt = (w.toNat : Int) :=
  BitVec.toInt_eq_toNat_of_lt (by omega)

/-- A word below 64 is non-negative as a signed word, so the wrap-around select keeps it. -/
theorem word_keep (w : BitVec 32) (h : w.toNat < 64) :
    Scalar.select (IntOp.cmpi .slt w 0#32) (IntOp.addi w 64#32) w = w := by
  have h0 : IntOp.cmpi .slt w 0#32 = 0#1 := by
    unfold IntOp.cmpi
    have hs : w.slt 0#32 = false := by
      rw [Bool.eq_false_iff, ne_eq, BitVec.slt_iff_toInt_lt, toInt_of_lt w h]
      have hz : (0#32 : BitVec 32).toInt = 0 := by decide
      rw [hz]; omega
    simp only [hs]
    rfl
  rw [h0]; exact select_zero _ _

/-- The class of row `n` is its index word, on the domain. -/
theorem clsOf_val (x5 : IVec S262144 32) (htgt : ∀ i, (x5 i).toNat < 64) (n : Fin 262144) :
    (Cert.DB.clsOf x5 n).val = (x5 (ix1 n)).toNat := by
  show (x5 (ix1 n)).toNat % 64 = _
  exact Nat.mod_eq_of_lt (htgt _)

theorem v21_at (x5 : IVec S262144 32) (htgt : ∀ i, (x5 i).toNat < 64) (n : Fin 262144) (e : Fin 1) :
    val_main_v21 (F := Ideal) x5 (ix2 n e) = x5 (ix1 n) := by
  rw [val_main_v21_apply, val_main_v20_apply, val_main_v17_apply, val_main_v19_apply, val_main_v16_apply,
    val_main_c_3_apply, val_main_v18_apply, val_main_c_4_apply]
  have hi : idx_main_v21 (ix2 n e) = ix1 n := by
    funext a; match a with | ⟨0, _⟩ => rfl
  rw [hi]
  exact word_keep _ (htgt _)

/-- On the domain the index word of row `n`, read signed, is the class of row `n`. -/
theorem word_toInt (x5 : IVec S262144 32) (htgt : ∀ i, (x5 i).toNat < 64) (n : Fin 262144) :
    (x5 (ix1 n)).toInt = ((Cert.DB.clsOf x5 n).val : Int) := by
  rw [toInt_of_lt _ (htgt _), clsOf_val x5 htgt]

theorem v5_at (x5 : IVec S262144 32) (htgt : ∀ i, (x5 i).toNat < 64) (n : Fin 262144) (e : Fin 1) :
    val_main_v5 (F := Ideal) x5 (ix2 n e) = x5 (ix1 n) := by
  rw [val_main_v5_apply, val_main_v4_apply, val_main_v1_apply, val_main_v3_apply, val_main_v0_apply,
    val_main_c_apply, val_main_v2_apply, val_main_c_0_apply]
  have hi : idx_main_v5 (ix2 n e) = ix1 n := by
    funext a; match a with | ⟨0, _⟩ => rfl
  rw [hi]
  exact word_keep _ (htgt _)

theorem v12_at (x5 : IVec S262144 32) (htgt : ∀ i, (x5 i).toNat < 64) (n : Fin 262144) (e : Fin 1) :
    val_main_v12 (F := Ideal) x5 (ix2 n e) = x5 (ix1 n) := by
  rw [val_main_v12_apply, val_main_v11_apply, val_main_v8_apply, val_main_v10_apply, val_main_v7_apply,
    val_main_c_1_apply, val_main_v9_apply, val_main_c_2_apply]
  have hi : idx_main_v12 (ix2 n e) = ix1 n := by
    funext a; match a with | ⟨0, _⟩ => rfl
  rw [hi]
  exact word_keep _ (htgt _)

theorem v31_at (x5 : IVec S262144 32) (htgt : ∀ i, (x5 i).toNat < 64) (n : Fin 262144) (e : Fin 1) :
    val_main_v31 (F := Ideal) x5 (ix2 n e) = x5 (ix1 n) := by
  rw [val_main_v31_apply, val_main_v30_apply, val_main_v27_apply, val_main_v29_apply, val_main_v26_apply,
    val_main_c_5_apply, val_main_v28_apply, val_main_c_6_apply]
  have hi : idx_main_v31 (ix2 n e) = ix1 n := by
    funext a; match a with | ⟨0, _⟩ => rfl
  rw [hi]
  exact word_keep _ (htgt _)

abbrev d22 := scatter_S64x256_S262144x1_S262144x256_1_0_0_1

theorem d22_start0 (idx : IVec S262144x1 32) (n : Fin 262144) (d' : Fin 256) :
    d22.start (ix2 n d') idx 0 = (idx (ix2 n (0 : Fin 1))).toInt := by
  unfold ScatterDims.start
  rw [dif_pos (show (0 : Fin 2) ∈ d22.scatterDimsToOperandDims from List.mem_singleton.mpr rfl)]
  have hsi : d22.siIdx (ix2 n d') ⟨List.idxOf (0 : Fin 2) d22.scatterDimsToOperandDims,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]

theorem d22_start1 (idx : IVec S262144x1 32) (j : S262144x256.Idx) : d22.start j idx 1 = 0 := by
  unfold ScatterDims.start
  rw [dif_neg (by decide)]

theorem d22_window0 (j : S262144x256.Idx) : d22.window j 0 = 0 := by
  unfold ScatterDims.window
  rw [dif_neg (by decide)]

theorem d22_window1 (j : S262144x256.Idx) : d22.window j 1 = (j 1).val := by
  unfold ScatterDims.window
  rw [dif_pos (by decide)]
  rfl

/-- Where the update `(n, d')` lands when the index word of row `n` is the class `c`: at `(c, d')`. -/
theorem d22_resultIdx (idx : IVec S262144x1 32) (n : Fin 262144) (d' : Fin 256) (c : Fin 64)
    (hc : (idx (ix2 n (0 : Fin 1))).toInt = (c.val : Int)) :
    d22.resultIdx? (ix2 n d') idx = some (ix2 c d') := by
  have h : ∀ a, 0 ≤ d22.start (ix2 n d') idx a + d22.window (ix2 n d') a ∧
      d22.start (ix2 n d') idx a + d22.window (ix2 n d') a < S64x256.size a := by
    intro a
    match a with
    | ⟨0, _⟩ =>
      have hs : S64x256.size ⟨0, by decide⟩ = 64 := rfl
      have := c.isLt
      rw [show (⟨0, by decide⟩ : Fin 2) = 0 from rfl] at hs ⊢
      rw [d22_start0, d22_window0, hc, hs]; omega
    | ⟨1, _⟩ =>
      have hs : S64x256.size ⟨1, by decide⟩ = 256 := rfl
      have := d'.isLt
      rw [show (⟨1, by decide⟩ : Fin 2) = 1 from rfl] at hs ⊢
      rw [d22_start1, d22_window1, hs]
      show 0 ≤ (0 : Int) + (d'.val : Int) ∧ (0 : Int) + (d'.val : Int) < ((256 : Nat) : Int)
      omega
  unfold ScatterDims.resultIdx?
  rw [dif_pos h]
  congr 1
  funext a
  refine Fin.ext ?_
  match a with
  | ⟨0, _⟩ =>
    show (d22.start (ix2 n d') idx 0 + d22.window (ix2 n d') 0).toNat = c.val
    rw [d22_start0, d22_window0, hc]; omega
  | ⟨1, _⟩ =>
    show (d22.start (ix2 n d') idx 1 + d22.window (ix2 n d') 1).toNat = d'.val
    rw [d22_start1, d22_window1]
    show ((0 : Int) + (d'.val : Int)).toNat = d'.val
    omega

/-- The scatter-add read at `(c, d)`: the operand there plus, for every row `n` of class `c`, the update at
    `(n, d)` (the updates `(n, d')` with `d' ≠ d` land in another column, those of another class in another row). -/
theorem d22_scatter (x : S64x256.Idx → EReal) (idx : IVec S262144x1 32) (k : Fin 262144 → Fin 64)
    (hk : ∀ n, (idx (ix2 n (0 : Fin 1))).toInt = ((k n).val : Int))
    (upd : S262144x256.Idx → EReal) (c : Fin 64) (d : Fin 256) :
    Ideal.hostScatterAdd d22 x idx upd (ix2 c d)
      = x (ix2 c d) + ∑ n : Fin 262144, if k n = c then upd (ix2 n d) else 0 := by
  unfold Ideal.hostScatterAdd
  refine congrArg (x (ix2 c d) + ·) ?_
  rw [Finset.sum_filter, sum_idx2]
  refine Finset.sum_congr rfl fun n _ => ?_
  by_cases hkc : k n = c
  · rw [if_pos hkc, Finset.sum_eq_single d]
    · rw [if_pos]
      rw [d22_resultIdx idx n d (k n) (hk n), hkc]
    · intro d' _ hne
      rw [if_neg]
      rw [d22_resultIdx idx n d' (k n) (hk n)]
      intro h
      exact hne (congrFun (Option.some.inj h) 1)
    · intro h; exact absurd (Finset.mem_univ _) h
  · rw [if_neg hkc]
    refine Finset.sum_eq_zero fun d' _ => ?_
    rw [if_neg]
    rw [d22_resultIdx idx n d' (k n) (hk n)]
    intro h
    exact hkc (congrFun (Option.some.inj h) 0)

abbrev d32 := scatter_S64x1_S262144x1_S262144x1_1_0_0_1

theorem d32_start0 (idx : IVec S262144x1 32) (n : Fin 262144) (d' : Fin 1) :
    d32.start (ix2 n d') idx 0 = (idx (ix2 n (0 : Fin 1))).toInt := by
  unfold ScatterDims.start
  rw [dif_pos (show (0 : Fin 2) ∈ d32.scatterDimsToOperandDims from List.mem_singleton.mpr rfl)]
  have hsi : d32.siIdx (ix2 n d') ⟨List.idxOf (0 : Fin 2) d32.scatterDimsToOperandDims,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]

theorem d32_start1 (idx : IVec S262144x1 32) (j : S262144x1.Idx) : d32.start j idx 1 = 0 := by
  unfold ScatterDims.start
  rw [dif_neg (by decide)]

theorem d32_window0 (j : S262144x1.Idx) : d32.window j 0 = 0 := by
  unfold ScatterDims.window
  rw [dif_neg (by decide)]

theorem d32_window1 (j : S262144x1.Idx) : d32.window j 1 = (j 1).val := by
  unfold ScatterDims.window
  rw [dif_pos (by decide)]
  rfl

/-- Where the update `(n, d')` lands when the index word of row `n` is the class `c`: at `(c, d')`. -/
theorem d32_resultIdx (idx : IVec S262144x1 32) (n : Fin 262144) (d' : Fin 1) (c : Fin 64)
    (hc : (idx (ix2 n (0 : Fin 1))).toInt = (c.val : Int)) :
    d32.resultIdx? (ix2 n d') idx = some (ix2 c d') := by
  have h : ∀ a, 0 ≤ d32.start (ix2 n d') idx a + d32.window (ix2 n d') a ∧
      d32.start (ix2 n d') idx a + d32.window (ix2 n d') a < S64x1.size a := by
    intro a
    match a with
    | ⟨0, _⟩ =>
      have hs : S64x1.size ⟨0, by decide⟩ = 64 := rfl
      have := c.isLt
      rw [show (⟨0, by decide⟩ : Fin 2) = 0 from rfl] at hs ⊢
      rw [d32_start0, d32_window0, hc, hs]; omega
    | ⟨1, _⟩ =>
      have hs : S64x1.size ⟨1, by decide⟩ = 1 := rfl
      have := d'.isLt
      rw [show (⟨1, by decide⟩ : Fin 2) = 1 from rfl] at hs ⊢
      rw [d32_start1, d32_window1, hs]
      show 0 ≤ (0 : Int) + (d'.val : Int) ∧ (0 : Int) + (d'.val : Int) < ((1 : Nat) : Int)
      omega
  unfold ScatterDims.resultIdx?
  rw [dif_pos h]
  congr 1
  funext a
  refine Fin.ext ?_
  match a with
  | ⟨0, _⟩ =>
    show (d32.start (ix2 n d') idx 0 + d32.window (ix2 n d') 0).toNat = c.val
    rw [d32_start0, d32_window0, hc]; omega
  | ⟨1, _⟩ =>
    show (d32.start (ix2 n d') idx 1 + d32.window (ix2 n d') 1).toNat = d'.val
    rw [d32_start1, d32_window1]
    show ((0 : Int) + (d'.val : Int)).toNat = d'.val
    omega

/-- The scatter-add read at `(c, d)`: the operand there plus, for every row `n` of class `c`, the update at
    `(n, d)` (the updates `(n, d')` with `d' ≠ d` land in another column, those of another class in another row). -/
theorem d32_scatter (x : S64x1.Idx → EReal) (idx : IVec S262144x1 32) (k : Fin 262144 → Fin 64)
    (hk : ∀ n, (idx (ix2 n (0 : Fin 1))).toInt = ((k n).val : Int))
    (upd : S262144x1.Idx → EReal) (c : Fin 64) (d : Fin 1) :
    Ideal.hostScatterAdd d32 x idx upd (ix2 c d)
      = x (ix2 c d) + ∑ n : Fin 262144, if k n = c then upd (ix2 n d) else 0 := by
  unfold Ideal.hostScatterAdd
  refine congrArg (x (ix2 c d) + ·) ?_
  rw [Finset.sum_filter, sum_idx2]
  refine Finset.sum_congr rfl fun n _ => ?_
  by_cases hkc : k n = c
  · rw [if_pos hkc, Finset.sum_eq_single d]
    · rw [if_pos]
      rw [d32_resultIdx idx n d (k n) (hk n), hkc]
    · intro d' _ hne
      rw [if_neg]
      rw [d32_resultIdx idx n d' (k n) (hk n)]
      intro h
      exact hne (congrFun (Option.some.inj h) 1)
    · intro h; exact absurd (Finset.mem_univ _) h
  · rw [if_neg hkc]
    refine Finset.sum_eq_zero fun d' _ => ?_
    rw [if_neg]
    rw [d32_resultIdx idx n d' (k n) (hk n)]
    intro h
    exact hkc (congrFun (Option.some.inj h) 0)

abbrev g6 := gather_S64x1_S262144x1_S262144x1_1_0_n_n_0_1_11

/-- The gather read at `(n, e)` when the index word of row `n` is the class `c` (in range, so the clamp does
    nothing): the operand at `(c, e)`. -/
theorem g6_operandIdx (idx : IVec S262144x1 32) (n : Fin 262144) (e : Fin 1) (c : Fin 64)
    (hc : (idx (ix2 n (0 : Fin 1))).toInt = (c.val : Int)) :
    g6.operandIdx (ix2 n e) idx = ix2 c e := by
  funext a
  refine Fin.ext ?_
  match a with
  | ⟨0, _⟩ =>
    show g6.start (ix2 n e) idx 0 + g6.batchCoord (ix2 n e) 0 + g6.offCoord (ix2 n e) 0 = c.val
    rw [GatherDims.batchCoord_eq_zero _ _ _ List.not_mem_nil, GatherDims.offCoord_eq_zero _ _ _ (by decide)]
    simp only [Nat.add_zero]
    unfold GatherDims.start
    rw [dif_pos (show (0 : Fin 2) ∈ g6.startIndexMap from List.mem_singleton.mpr rfl)]
    have hsi : g6.siIdx (ix2 n e) ⟨List.idxOf (0 : Fin 2) g6.startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi, hc]
    show min ((c.val : Int).toNat) (64 - 1) = c.val
    have := c.isLt
    omega
  | ⟨1, _⟩ =>
    show g6.start (ix2 n e) idx 1 + g6.batchCoord (ix2 n e) 1 + g6.offCoord (ix2 n e) 1 = e.val
    rw [GatherDims.batchCoord_eq_zero _ _ _ List.not_mem_nil]
    unfold GatherDims.start
    rw [dif_neg (by decide)]
    unfold GatherDims.offCoord
    rw [dif_pos (by decide)]
    show 0 + 0 + e.val = e.val
    omega

abbrev g13 := gather_S64x256_S262144x1_S262144x256_1_0_n_n_0_1_1256

/-- The gather read at `(n, e)` when the index word of row `n` is the class `c` (in range, so the clamp does
    nothing): the operand at `(c, e)`. -/
theorem g13_operandIdx (idx : IVec S262144x1 32) (n : Fin 262144) (e : Fin 256) (c : Fin 64)
    (hc : (idx (ix2 n (0 : Fin 1))).toInt = (c.val : Int)) :
    g13.operandIdx (ix2 n e) idx = ix2 c e := by
  funext a
  refine Fin.ext ?_
  match a with
  | ⟨0, _⟩ =>
    show g13.start (ix2 n e) idx 0 + g13.batchCoord (ix2 n e) 0 + g13.offCoord (ix2 n e) 0 = c.val
    rw [GatherDims.batchCoord_eq_zero _ _ _ List.not_mem_nil, GatherDims.offCoord_eq_zero _ _ _ (by decide)]
    simp only [Nat.add_zero]
    unfold GatherDims.start
    rw [dif_pos (show (0 : Fin 2) ∈ g13.startIndexMap from List.mem_singleton.mpr rfl)]
    have hsi : g13.siIdx (ix2 n e) ⟨List.idxOf (0 : Fin 2) g13.startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi, hc]
    show min ((c.val : Int).toNat) (64 - 1) = c.val
    have := c.isLt
    omega
  | ⟨1, _⟩ =>
    show g13.start (ix2 n e) idx 1 + g13.batchCoord (ix2 n e) 1 + g13.offCoord (ix2 n e) 1 = e.val
    rw [GatherDims.batchCoord_eq_zero _ _ _ List.not_mem_nil]
    unfold GatherDims.start
    rw [dif_neg (by decide)]
    unfold GatherDims.offCoord
    rw [dif_pos (by decide)]
    show 0 + 0 + e.val = e.val
    omega

/-- The count gathered for row `n`: the count of its class. -/
theorem v6_at (x3 : FVec Ideal S64x1 .f32) (x5 : IVec S262144 32) (htgt : ∀ i, (x5 i).toNat < 64)
    (n : Fin 262144) (e : Fin 1) :
    val_main_v6 (F := Ideal) x3 x5 (ix2 n e) = x3 (ix2 (Cert.DB.clsOf x5 n) e) := by
  show x3 (g6.operandIdx (ix2 n e) (val_main_v5 (F := Ideal) x5)) = _
  rw [g6_operandIdx _ n e (Cert.DB.clsOf x5 n) (by rw [v5_at x5 htgt]; exact word_toInt x5 htgt n)]

/-- The scaled row: entry `(n, d)` divided by the count of the class of `n`, a product by the inverse since the
    count is not zero. -/
theorem v15_at (x0 : FVec Ideal S262144x256 .f32) (x3 : FVec Ideal S64x1 .f32) (x5 : IVec S262144 32)
    (htgt : ∀ i, (x5 i).toNat < 64) (hcnt : ∀ i, x3 i ≠ 0) (n : Fin 262144) (d : Fin 256) :
    val_main_v15 (F := Ideal) x0 x3 x5 (ix2 n d) = Cert.DB.pr x0 x3 (Cert.DB.clsOf x5) n d := by
  rw [val_main_v15_apply, val_main_v14_apply]
  have hi : idx_main_v14 (ix2 n d) = ix2 n (0 : Fin 1) := by
    funext a; match a with | ⟨0, _⟩ => rfl | ⟨1, _⟩ => rfl
  rw [hi, v6_at x3 x5 htgt]
  show Ideal.div _ _ = _
  rw [Cert.DB.div_eq_mul_inv' _ _ (hcnt _)]
  rfl

/-- The centroid gathered for row `n`: the centroid of its class. -/
theorem v13_at (x1 : FVec Ideal S64x256 .f32) (x5 : IVec S262144 32) (htgt : ∀ i, (x5 i).toNat < 64)
    (n : Fin 262144) (d : Fin 256) :
    val_main_v13 (F := Ideal) x1 x5 (ix2 n d) = x1 (ix2 (Cert.DB.clsOf x5 n) d) := by
  show x1 (g13.operandIdx (ix2 n d) (val_main_v12 (F := Ideal) x5)) = _
  rw [g13_operandIdx _ n d (Cert.DB.clsOf x5 n) (by rw [v12_at x5 htgt]; exact word_toInt x5 htgt n)]

/-- The difference of the class's centroid and the scaled row, entry `(n, d)`. -/
theorem v23_at (x0 : FVec Ideal S262144x256 .f32) (x1 : FVec Ideal S64x256 .f32) (x3 : FVec Ideal S64x1 .f32)
    (x5 : IVec S262144 32) (htgt : ∀ i, (x5 i).toNat < 64) (hcnt : ∀ i, x3 i ≠ 0) (n : Fin 262144) (d : Fin 256) :
    val_main_v23 (F := Ideal) x0 x1 x3 x5 (ix2 n d)
      = x1 (ix2 (Cert.DB.clsOf x5 n) d) - Cert.DB.pr x0 x3 (Cert.DB.clsOf x5) n d := by
  rw [val_main_v23_apply, v13_at x1 x5 htgt, v15_at x0 x3 x5 htgt hcnt]
  rfl

/-- The Euclidean norm of that difference along the row: the zero the sum starts from adds nothing. -/
theorem v24_at (x0 : FVec Ideal S262144x256 .f32) (x1 : FVec Ideal S64x256 .f32) (x3 : FVec Ideal S64x1 .f32)
    (x5 : IVec S262144 32) (htgt : ∀ i, (x5 i).toNat < 64) (hcnt : ∀ i, x3 i ≠ 0) (n : Fin 262144) :
    val_main_v24 (F := Ideal) x0 x1 x3 x5 (ix1 n) = Cert.DB.vec x0 x1 x3 (Cert.DB.clsOf x5) n := by
  rw [val_main_v24_apply, val_main_call0_v1_apply, val_main_call0_cst_apply]
  show Ideal.sqrt (Ideal.ofBits .f32 0x00000000#32 + _) = _
  rw [Ideal.ofBits_zero_f32, zero_add]
  unfold Cert.DB.vec Cert.DB.sqDist
  refine congrArg Ideal.sqrt (Finset.sum_congr rfl fun k _ => ?_)
  have hi : idx_main_call0_v1 (ix1 n) k = ix2 n k := by
    funext a; match a with | ⟨0, _⟩ => rfl | ⟨1, _⟩ => rfl
  rw [hi, val_main_call0_v0_apply, v23_at x0 x1 x3 x5 htgt hcnt]
  rfl

/-- That norm as a column. -/
theorem v25_at (x0 : FVec Ideal S262144x256 .f32) (x1 : FVec Ideal S64x256 .f32) (x3 : FVec Ideal S64x1 .f32)
    (x5 : IVec S262144 32) (htgt : ∀ i, (x5 i).toNat < 64) (hcnt : ∀ i, x3 i ≠ 0) (n : Fin 262144) (e : Fin 1) :
    val_main_v25 (F := Ideal) x0 x1 x3 x5 (ix2 n e) = Cert.DB.vec x0 x1 x3 (Cert.DB.clsOf x5) n := by
  rw [val_main_v25_apply]
  have hi : idx_main_v25 (ix2 n e) = ix1 n := by
    funext a; match a with | ⟨0, _⟩ => rfl
  rw [hi, v24_at x0 x1 x3 x5 htgt hcnt]

/-- The first scatter-add: the new centroids. -/
theorem v22_eq (x0 : FVec Ideal S262144x256 .f32) (x1 : FVec Ideal S64x256 .f32) (x3 : FVec Ideal S64x1 .f32) (x5 : IVec S262144 32)
    (htgt : ∀ i, (x5 i).toNat < 64) (hcnt : ∀ i, x3 i ≠ 0) :
    val_main_v22 (F := Ideal) x0 x1 x3 x5 = Cert.DB.centNewArr x0 x1 x3 (Cert.DB.clsOf x5) := by
  funext j
  obtain ⟨c, d, rfl⟩ : ∃ c d, j = ix2 c d := ⟨j 0, j 1, eq_ix2 j⟩
  rw [Cert.DB.centNewArr_apply]
  show Ideal.hostScatterAdd d22 x1 (val_main_v21 (F := Ideal) x5) (val_main_v15 (F := Ideal) x0 x3 x5) (ix2 c d) = _
  rw [d22_scatter x1 _ (Cert.DB.clsOf x5) (fun n => by rw [v21_at x5 htgt]; exact word_toInt x5 htgt n)]
  unfold Cert.DB.centNew
  refine congrArg (x1 (ix2 c d) + ·) (Finset.sum_congr rfl fun n _ => ?_)
  rw [v15_at x0 x3 x5 htgt hcnt]

/-- The second scatter-add: the new distance sums. -/
theorem v32_eq (x0 : FVec Ideal S262144x256 .f32) (x1 : FVec Ideal S64x256 .f32) (x2 x3 : FVec Ideal S64x1 .f32) (x5 : IVec S262144 32)
    (htgt : ∀ i, (x5 i).toNat < 64) (hcnt : ∀ i, x3 i ≠ 0) :
    val_main_v32 (F := Ideal) x0 x1 x2 x3 x5 = Cert.DB.sRawArr x0 x1 x2 x3 (Cert.DB.clsOf x5) := by
  funext j
  obtain ⟨c, e, rfl⟩ : ∃ c e, j = ix2 c e := ⟨j 0, j 1, eq_ix2 j⟩
  obtain rfl : e = 0 := Subsingleton.elim _ _
  rw [Cert.DB.sRawArr_apply]
  show Ideal.hostScatterAdd d32 x2 (val_main_v31 (F := Ideal) x5) (val_main_v25 (F := Ideal) x0 x1 x3 x5)
    (ix2 c (0 : Fin 1)) = _
  rw [d32_scatter x2 _ (Cert.DB.clsOf x5) (fun n => by rw [v31_at x5 htgt]; exact word_toInt x5 htgt n)]
  unfold Cert.DB.sRaw
  refine congrArg (x2 (ix2 c (0 : Fin 1)) + ·) (Finset.sum_congr rfl fun n _ => ?_)
  rw [v25_at x0 x1 x3 x5 htgt hcnt]

end Cert.ReferenceIdeal.RefVal
end
-- ==== Proof.PreDom.lean ====
/-
  The precondition, read back: a value 1 of the precondition's conjunction gives, entry by entry, that every float input is
  a real number (its absolute value lies below +∞), that every index word is below 64 (it is, as a signed number, at
  least 0 and below 64), and that every count is different from 0.
-/
import proofs.«413487_j64269890617637_3_alg».proof.Pre_finite_inputs
import proofs.«413487_j64269890617637_3_alg».proof.Proof.Gen.Pre_finite_inputs
import proofs.«413487_j64269890617637_3_alg».proof.Proof.Spec
import Idealize.ShloMosaic.Lib.ReduceAll
import Idealize.ShloMosaic.Lib.StableHlo.Predicate
import Idealize.ShloMosaic.Lib.ValueIdx

namespace Cert.DB

open Idealize.ShloMosaic

/-- The pattern `0x7F800000` denotes `+∞`. -/
theorem ofBits_inf_f32 : Ideal.ofBits .f32 0x7F800000#32 = (⊤ : EReal) := by
  simp [Ideal.ofBits, Ideal.ieee]

/-- The pattern `0x00000000` denotes `0`. -/
theorem ofBits_zero_f32_eq : Ideal.ofBits .f32 0x00000000#32 = (0 : EReal) := by
  simp [Ideal.ofBits, Ideal.ieee]

/-- An extended real whose absolute value `max x (-x)` lies below `+∞` is a real number: `-⊥ = ⊤` and `⊤` itself
    are not below `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- An array entry whose absolute value compares below the broadcast `+∞` is a real number. -/
theorem real_of_abs_olt {t : Shape} (hb : (⟨0, ![]⟩ : Shape).BroadcastsInDim t ![]) (x : FVec Ideal t .f32) (i : t.Idx)
    (h : cmpf .olt (Host.absf x) (broadcastInDim t ![] hb (constant (F := Ideal) ⟨0, ![]⟩ .f32 0x7F800000#32)) i = 1#1) :
    ∃ r : ℝ, x i = (r : EReal) := by
  have hb' := StableHlo.Predicate.bcast_scalar hb (by decide) (constant (F := Ideal) ⟨0, ![]⟩ .f32 0x7F800000#32) i
  change Ideal.cmp .olt (max (x i) (-(x i))) (broadcastInDim t ![] hb (constant (F := Ideal) ⟨0, ![]⟩ .f32 0x7F800000#32) i) = 1#1 at h
  rw [hb'] at h
  change Ideal.cmp .olt (max (x i) (-(x i))) (Ideal.ofBits .f32 0x7F800000#32) = 1#1 at h
  rw [ofBits_inf_f32] at h
  refine real_of_abs_lt_top (x i) ?_
  have h2 : decide (max (x i) (-(x i)) < ⊤) = true := (StableHlo.Predicate.ofBool_eq_one_iff _).1 h
  exact of_decide_eq_true h2

/-- An array entry that compares unequal to the broadcast zero is not zero. -/
theorem ne_zero_of_une {t : Shape} (hb : (⟨0, ![]⟩ : Shape).BroadcastsInDim t ![]) (x : FVec Ideal t .f32) (i : t.Idx)
    (h : cmpf .une x (broadcastInDim t ![] hb (constant (F := Ideal) ⟨0, ![]⟩ .f32 0x00000000#32)) i = 1#1) :
    x i ≠ 0 := by
  have hb' := StableHlo.Predicate.bcast_scalar hb (by decide) (constant (F := Ideal) ⟨0, ![]⟩ .f32 0x00000000#32) i
  change Ideal.cmp .une (x i) (broadcastInDim t ![] hb (constant (F := Ideal) ⟨0, ![]⟩ .f32 0x00000000#32) i) = 1#1 at h
  rw [hb'] at h
  change Ideal.cmp .une (x i) (Ideal.ofBits .f32 0x00000000#32) = 1#1 at h
  rw [ofBits_zero_f32_eq] at h
  have h2 : decide (x i ≠ 0) = true := (StableHlo.Predicate.ofBool_eq_one_iff _).1 h
  exact of_decide_eq_true h2

/-- A 32-bit word that is, as a signed number, at least 0 and below 64 is below 64 as an unsigned number: a word
    with its top bit set is negative as a signed number. -/
theorem toNat_lt_of_signed (a : BitVec 32) (h0 : (0#32).toInt ≤ a.toInt) (h1 : a.toInt < (64#32).toInt) : a.toNat < 64 := by
  have e0 : (0#32).toInt = 0 := by decide
  have e1 : (64#32).toInt = 64 := by decide
  rw [e0] at h0; rw [e1] at h1
  rw [BitVec.toInt_eq_toNat_cond] at h0 h1
  split at h0 <;> omega

/-- An entry of an index array that passes both signed comparisons, `≥` the broadcast 0 and `<` the broadcast 64,
    is below 64 as an unsigned word. -/
theorem toNat_lt_of_sge_slt {t : Shape} (hb : (⟨0, ![]⟩ : Shape).BroadcastsInDim t ![]) (x : IVec t 32) (i : t.Idx)
    (h : andi (cmpi .sge x (broadcastInDim t ![] hb (constantI ⟨0, ![]⟩ 32 0#32)))
      (cmpi .slt x (broadcastInDim t ![] hb (constantI ⟨0, ![]⟩ 32 64#32))) i = 1#1) :
    (x i).toNat < 64 := by
  have b0 := StableHlo.Predicate.bcast_scalar hb (by decide) (constantI ⟨0, ![]⟩ 32 0#32) i
  have b64 := StableHlo.Predicate.bcast_scalar hb (by decide) (constantI ⟨0, ![]⟩ 32 64#32) i
  obtain ⟨e1, e2⟩ := IntOp.andi_eq_one.1 h
  change IntOp.cmpi .sge (x i) (broadcastInDim t ![] hb (constantI ⟨0, ![]⟩ 32 0#32) i) = 1#1 at e1
  change IntOp.cmpi .slt (x i) (broadcastInDim t ![] hb (constantI ⟨0, ![]⟩ 32 64#32) i) = 1#1 at e2
  rw [b0] at e1; rw [b64] at e2
  exact toNat_lt_of_signed (x i) (IntOp.cmpi_sge.1 e1) (IntOp.cmpi_slt.1 e2)

/-- The precondition holding gives the domain: the conjunction splits into its seven reductions, each
    reduction by `and` into its entries, and each entry is one of the element facts above. -/
theorem dom_of_pre [Cert.Pre_finite_inputs.Facts]
    (a0 : FVec Ideal Cert.Pre_finite_inputs.S262144x256 .f32) (a1 : FVec Ideal Cert.Pre_finite_inputs.S64x256 .f32)
    (a2 a3 : FVec Ideal Cert.Pre_finite_inputs.S64x1 .f32) (a4 : FVec Ideal Cert.Pre_finite_inputs.S64x64 .f32)
    (a5 : IVec Cert.Pre_finite_inputs.S262144 32)
    (h : Cert.Pre_finite_inputs.fn (F := Ideal) a0 a1 a2 a3 a4 a5 = fun _ => 1#1) :
    Cert.DB.Dom a0 a1 a2 a3 a4 a5 := by
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1, Cert.Pre_finite_inputs.fn_part2] at h0
  obtain ⟨h0, hne⟩ := IntOp.andi_eq_one.1 h0
  obtain ⟨h0, htgt⟩ := IntOp.andi_eq_one.1 h0
  obtain ⟨h0, hcw⟩ := IntOp.andi_eq_one.1 h0
  obtain ⟨h0, hcnt⟩ := IntOp.andi_eq_one.1 h0
  obtain ⟨h0, hdist⟩ := IntOp.andi_eq_one.1 h0
  obtain ⟨hpred, hcent⟩ := IntOp.andi_eq_one.1 h0
  exact
    { pred_real := fun i => real_of_abs_olt _ a0 i (Host.reduce_andi_all _ _ _ _ _ hpred i)
      cent_real := fun i => real_of_abs_olt _ a1 i (Host.reduce_andi_all _ _ _ _ _ hcent i)
      dist_real := fun i => real_of_abs_olt _ a2 i (Host.reduce_andi_all _ _ _ _ _ hdist i)
      cnt_real := fun i => real_of_abs_olt _ a3 i (Host.reduce_andi_all _ _ _ _ _ hcnt i)
      cw_real := fun i => real_of_abs_olt _ a4 i (Host.reduce_andi_all _ _ _ _ _ hcw i)
      tgt_lt := fun i => toNat_lt_of_sge_slt _ a5 i (Host.reduce_andi_all _ _ _ _ _ htgt i)
      cnt_ne := fun i => ne_zero_of_une _ a3 i (Host.reduce_andi_all _ _ _ _ _ hne i) }

end Cert.DB
-- ==== Proof.lean ====
/-
  The five claims.  The two kernel programs' frames are the hand frame stated at any float instance (the region's
  proof data, the body's three cases, the host lines around the region); the reference's frame is its run.  The
  idealization rewrote nothing.  For the value claim: on the stated domain (real entries, index words in 0 … 63,
  non-zero counts) the kernel's two outputs are the halves' sums of the scaled rows by class and of the rows'
  distances from their class's centroid — the distance through |a|² − 2 a·b + |b|² = |a − b|² ≥ 0, which holds on
  real entries —, the reference's gathers and scatter-adds compute the same sums in one piece, and both programs end
  with the same closing computation of the new centroids and distance sums.
-/
import proofs.«413487_j64269890617637_3_alg».proof.Defs
import proofs.«413487_j64269890617637_3_alg».proof.Proof.FrameK.Frame
import proofs.«413487_j64269890617637_3_alg».proof.Proof.FrameKI.Frame
import proofs.«413487_j64269890617637_3_alg».proof.Proof.KValue.KRun
import proofs.«413487_j64269890617637_3_alg».proof.Proof.RefValue
import proofs.«413487_j64269890617637_3_alg».proof.Proof.RefTail
import proofs.«413487_j64269890617637_3_alg».proof.Proof.PreDom
import proofs.«413487_j64269890617637_3_alg».proof.Proof.Gen.ReferenceIdeal.Run
import proofs.«413487_j64269890617637_3_alg».proof.Proof.Gen.ReferenceIdeal.Read
import proofs.«413487_j64269890617637_3_alg».proof.Proof.Gen.Pre_finite_inputs
import Idealize.ShloMosaic.Adequacy
import Idealize.ShloMosaic.Init

noncomputable section

namespace Cert.Proof

open Idealize.ShloMosaic Idealize.SL.Sem

/-- The word-level kernel program runs to its end and leaves its arguments as launched. -/
theorem frame_k : @Cert.frame_Kernel Cert.Kernel.Gen.facts Cert.Pre_finite_inputs.Gen.facts :=
  fun m ρ _ => Cert.Kernel.Hand.frame m ρ
/-- So does the idealized kernel program. -/
theorem frame_ki : @Cert.frame_KernelIdeal Cert.KernelIdeal.Gen.facts Cert.Pre_finite_inputs.Gen.facts :=
  fun m ρ _ => Cert.KernelIdeal.Hand.frame m ρ
/-- The reference has no kernel: its frame is its run with the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- Both idealized programs end with the closing computation applied to the specification's new centroids and new
    distance sums of arguments that agree. -/
theorem algebraic : @Cert.algebraic_KernelIdeal_ReferenceIdeal Cert.KernelIdeal.Gen.facts Cert.ReferenceIdeal.Gen.facts Cert.Pre_finite_inputs.Gen.facts := by
  intro m ρ m' ρ' hpre hagree
  have hD : ∀ c : Dev Cert.KernelIdeal.nD, Cert.DB.Dom (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
    fun c => Cert.DB.dom_of_pre _ _ _ _ _ _ (hpre c)
  refine ⟨_, Cert.KernelIdeal.KVal.run_value m ρ hD, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v70_eq, Cert.ReferenceIdeal.RefVal.v70_eq_tail,
    (hagree c).1, (hagree c).2.1, (hagree c).2.2.1, (hagree c).2.2.2.1, (hagree c).2.2.2.2.1, (hagree c).2.2.2.2.2,
    Cert.ReferenceIdeal.RefVal.v22_eq _ _ _ _ (hD c).tgt_lt (hD c).cnt_ne,
    Cert.ReferenceIdeal.RefVal.v32_eq _ _ _ _ _ (hD c).tgt_lt (hD c).cnt_ne,
    ← Cert.KernelIdeal.KVal.tailK_eq_tailR]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
